-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x1600000 : Shape := ⟨2, ![2, 1600000]⟩
abbrev S100000 : Shape := ⟨1, ![100000]⟩
abbrev S128x8 : Shape := ⟨2, ![128, 8]⟩
abbrev S128 : Shape := ⟨1, ![128]⟩
abbrev S128x128 : Shape := ⟨2, ![128, 128]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128 .f32) (main_arg10 : FVec F S128x128 .f32) (main_arg11 : FVec F S128 .f32) (main_arg12 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_v13 : IVec S_ 1) (main_v16 : IVec S128x8 1) : IVec S_ 1 :=
  let main_c_5 : IVec S_ 1 := constantI S_ 1 1#1
  let main_v17 : IVec S_ 1 := (fun x v => Host.reduce IntOp.andi x v reducesTo_S128x8_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x8 .f32) (main_arg1 : IVec S2x1600000 32) (main_arg2 : IVec S100000 32) (main_arg3 : FVec F S128x8 .f32) (main_arg4 : FVec F S128 .f32) (main_arg5 : FVec F S128x8 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S128x8 .f32 := Host.absf main_arg3
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x8 .f32 := Host.absf main_arg5
  let main_cst_4 : FVec F S_ .f32 := constant S_ .f32 0x7F800000#32
  let main_v15 : FVec F S128x8 .f32 := broadcastInDim S128x8 ![] bcast_S_S128x8 main_cst_4
  let main_v16 : IVec S128x8 1 := cmpf .olt main_v14 main_v15
  fn_part1 (F := F) main_arg6 main_arg7 main_arg8 main_arg9 main_arg10 main_arg11 main_arg12 main_v13 main_v16
-- ==== Kernel.lean ====
abbrev S100000x8 : Shape := ⟨2, ![100000, 8]⟩
abbrev S2x1600000 : Shape := ⟨2, ![2, 1600000]⟩
abbrev S100000 : Shape := ⟨1, ![100000]⟩
abbrev S128x8 : Shape := ⟨2, ![128, 8]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x8 : Shape := ⟨2, ![1600000, 8]⟩
abbrev S8x128 : Shape := ⟨2, ![8, 128]⟩
abbrev S1x128 : Shape := ⟨2, ![1, 128]⟩
abbrev S100000x128 : Shape := ⟨2, ![100000, 128]⟩
abbrev S25x1x128 : Shape := ⟨3, ![25, 1, 128]⟩
abbrev S4000x8 : Shape := ⟨2, ![4000, 8]⟩
abbrev S4000x1 : Shape := ⟨2, ![4000, 1]⟩
abbrev S4000x128 : Shape := ⟨2, ![4000, 128]⟩
abbrev S1x1x128 : Shape := ⟨3, ![1, 1, 128]⟩
abbrev S1600000x128 : Shape := ⟨2, ![1600000, 128]⟩
abbrev S25x128x128 : Shape := ⟨3, ![25, 128, 128]⟩
abbrev S1x128x128 : Shape := ⟨3, ![1, 128, 128]⟩
abbrev S128x1 : Shape := ⟨2, ![128, 1]⟩

abbrev nBuf : Space → Nat
  | .hbm => 120
  | .vmem => 50
  | .smem => 0
  | _ => 0

abbrev bufTy : (tb : Table) → Fin (tcTables nBuf tb) → BufTy
  | .hbm, ⟨0, _⟩ => ⟨S100000x8, .f32⟩
  | .hbm, ⟨1, _⟩ => ⟨S2x1600000, .i32⟩
  | .hbm, ⟨2, _⟩ => ⟨S100000, .i32⟩
  | .hbm, ⟨3, _⟩ => ⟨S128x8, .f32⟩
  | .hbm, ⟨4, _⟩ => ⟨S128, .f32⟩
  | .hbm, ⟨5, _⟩ => ⟨S128x8, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x8, .f32⟩
  | .hbm, ⟨39, _⟩ => ⟨S_, .f32⟩
  | .hbm, ⟨40, _⟩ => ⟨S100000x8, .f32⟩
  | .hbm, ⟨41, _⟩ => ⟨S1600000x1, .i32⟩
  | .hbm, ⟨42, _⟩ => ⟨S100000x8, .f32⟩
  | .hbm, ⟨43, _⟩ => ⟨S8x128, .f32⟩
  | .hbm, ⟨44, _⟩ => ⟨S1x128, .f32⟩
  | .hbm, ⟨45, _⟩ => ⟨S8x128, .f32⟩
  | .hbm, ⟨46, _⟩ => ⟨S100000x128, .bf16⟩
  | .hbm, ⟨47, _⟩ => ⟨S25x1x128, .f32⟩
  | .hbm, ⟨48, _⟩ => ⟨S25x1x128, .f32⟩
  | .hbm, ⟨49, _⟩ => ⟨S_, .f32⟩
  | .hbm, ⟨50, _⟩ => ⟨S1x128, .f32⟩
  | .hbm, ⟨51, _⟩ => ⟨S_, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S100000x128, .bf16⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .bf16⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S128x128, .f32⟩
  | .hbm, ⟨82, _⟩ => ⟨S1x128, .f32⟩
  | .hbm, ⟨83, _⟩ => ⟨S128x128, .f32⟩
  | .hbm, ⟨84, _⟩ => ⟨S100000x128, .bf16⟩
  | .hbm, ⟨85, _⟩ => ⟨S25x1x128, .f32⟩
  | .hbm, ⟨86, _⟩ => ⟨S25x1x128, .f32⟩
  | .hbm, ⟨87, _⟩ => ⟨S_, .f32⟩
  | .hbm, ⟨88, _⟩ => ⟨S1x128, .f32⟩
  | .hbm, ⟨89, _⟩ => ⟨S_, .f32⟩
  | .hbm, ⟨90, _⟩ => ⟨S1x128, .f32⟩
  | .hbm, ⟨91, _⟩ => ⟨S_, .f32⟩
  | .hbm, ⟨92, _⟩ => ⟨S1x128, .f32⟩
  | .hbm, ⟨93, _⟩ => ⟨S1x128, .f32⟩
  | .hbm, ⟨94, _⟩ => ⟨S_, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S_, .f32⟩
  | .hbm, ⟨100, _⟩ => ⟨S1x128, .f32⟩
  | .hbm, ⟨101, _⟩ => ⟨S1x128, .f32⟩
  | .hbm, ⟨102, _⟩ => ⟨S100000x1, .i32⟩
  | .hbm, ⟨103, _⟩ => ⟨S1x128, .f32⟩
  | .hbm, ⟨104, _⟩ => ⟨S1x128, .f32⟩
  | .hbm, ⟨105, _⟩ => ⟨S25x128x128, .f32⟩
  | .hbm, ⟨106, _⟩ => ⟨S_, .f32⟩
  | .hbm, ⟨107, _⟩ => ⟨S128x128, .f32⟩
  | .hbm, ⟨108, _⟩ => ⟨S_, .f32⟩
  | .hbm, ⟨109, _⟩ => ⟨S100000, .f32⟩
  | .hbm, ⟨110, _⟩ => ⟨S_, .f32⟩
  | .hbm, ⟨111, _⟩ => ⟨S128, .f32⟩
  | .hbm, ⟨112, _⟩ => ⟨S100000x1, .i32⟩
  | .hbm, ⟨113, _⟩ => ⟨S128, .f32⟩
  | .hbm, ⟨114, _⟩ => ⟨S_, .f32⟩
  | .hbm, ⟨115, _⟩ => ⟨S128, .f32⟩
  | .hbm, ⟨116, _⟩ => ⟨S128, .f32⟩
  | .hbm, ⟨117, _⟩ => ⟨S128x1, .f32⟩
  | .hbm, ⟨118, _⟩ => ⟨S128x128, .f32⟩
  | .hbm, ⟨119, _⟩ => ⟨S128x128, .f32⟩
  | .local _ .vmem, ⟨0, _⟩ => ⟨S4000x8, .f32⟩
  | .local _ .vmem, ⟨1, _⟩ => ⟨S4000x8, .f32⟩
  | .local _ .vmem, ⟨2, _⟩ => ⟨S4000x8, .f32⟩
  | .local _ .vmem, ⟨3, _⟩ => ⟨S4000x8, .f32⟩
  | .local _ .vmem, ⟨4, _⟩ => ⟨S4000x1, .f32⟩
  | .local _ .vmem, ⟨5, _⟩ => ⟨S4000x1, .f32⟩
  | .local _ .vmem, ⟨6, _⟩ => ⟨S8x128, .f32⟩
  | .local _ .vmem, ⟨7, _⟩ => ⟨S1x128, .f32⟩
  | .local _ .vmem, ⟨8, _⟩ => ⟨S8x128, .f32⟩
  | .local _ .vmem, ⟨9, _⟩ => ⟨S4000x128, .bf16⟩
  | .local _ .vmem, ⟨10, _⟩ => ⟨S4000x128, .bf16⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S4000x128, .bf16⟩
  | .local _ .vmem, ⟨16, _⟩ => ⟨S4000x128, .bf16⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S4000x128, .bf16⟩
  | .local _ .vmem, ⟨22, _⟩ => ⟨S4000x128, .bf16⟩
  | .local _ .vmem, ⟨23, _⟩ => ⟨S4000x128, .f32⟩
  | .local _ .vmem, ⟨24, _⟩ => ⟨S4000x128, .f32⟩
  | .local _ .vmem, ⟨25, _⟩ => ⟨S4000x128, .bf16⟩
  | .local _ .vmem, ⟨26, _⟩ => ⟨S4000x128, .bf16⟩
  | .local _ .vmem, ⟨27, _⟩ => ⟨S4000x1, .f32⟩
  | .local _ .vmem, ⟨28, _⟩ => ⟨S4000x1, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S4000x128, .bf16⟩
  | .local _ .vmem, ⟨33, _⟩ => ⟨S4000x128, .bf16⟩
  | .local _ .vmem, ⟨34, _⟩ => ⟨S1x1x128, .f32⟩
  | .local _ .vmem, ⟨35, _⟩ => ⟨S1x1x128, .f32⟩
  | .local _ .vmem, ⟨36, _⟩ => ⟨S1x1x128, .f32⟩
  | .local _ .vmem, ⟨37, _⟩ => ⟨S1x1x128, .f32⟩
  | .local _ .vmem, ⟨38, _⟩ => ⟨S4000x128, .bf16⟩
  | .local _ .vmem, ⟨39, _⟩ => ⟨S4000x128, .bf16⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S4000x128, .bf16⟩
  | .local _ .vmem, ⟨45, _⟩ => ⟨S4000x128, .bf16⟩
  | .local _ .vmem, ⟨46, _⟩ => ⟨S4000x1, .i32⟩
  | .local _ .vmem, ⟨47, _⟩ => ⟨S4000x1, .i32⟩
  | .local _ .vmem, ⟨48, _⟩ => ⟨S1x128x128, .f32⟩
  | .local _ .vmem, ⟨49, _⟩ => ⟨S1x128x128, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26_0 : Ref sig .tc := ⟨.hbm, 46, rfl⟩
abbrev main_v26_1 : Ref sig .tc := ⟨.hbm, 47, rfl⟩
abbrev main_v26_2 : Ref sig .tc := ⟨.hbm, 48, rfl⟩
abbrev main_cst_5 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_v30 : Ref sig .tc := ⟨.hbm, 55, rfl⟩
abbrev main_cst_8 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_10 : Ref sig .tc := ⟨.hbm, 67, rfl⟩
abbrev main_v40 : Ref sig .tc := ⟨.hbm, 68, rfl⟩
abbrev main_v41 : Ref sig .tc := ⟨.hbm, 69, rfl⟩
abbrev main_c_11 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_12 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54_0 : Ref sig .tc := ⟨.hbm, 84, rfl⟩
abbrev main_v54_1 : Ref sig .tc := ⟨.hbm, 85, rfl⟩
abbrev main_v54_2 : Ref sig .tc := ⟨.hbm, 86, rfl⟩
abbrev main_cst_13 : Ref sig .tc := ⟨.hbm, 87, rfl⟩
abbrev main_v55 : Ref sig .tc := ⟨.hbm, 88, rfl⟩
abbrev main_cst_14 : Ref sig .tc := ⟨.hbm, 89, rfl⟩
abbrev main_v56 : Ref sig .tc := ⟨.hbm, 90, rfl⟩
abbrev main_cst_15 : Ref sig .tc := ⟨.hbm, 91, rfl⟩
abbrev main_v57 : Ref sig .tc := ⟨.hbm, 92, rfl⟩
abbrev main_v58 : Ref sig .tc := ⟨.hbm, 93, rfl⟩
abbrev main_cst_16 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_17 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_18 : Ref sig .tc := ⟨.hbm, 106, rfl⟩
abbrev main_v69 : Ref sig .tc := ⟨.hbm, 107, rfl⟩
abbrev main_cst_19 : Ref sig .tc := ⟨.hbm, 108, rfl⟩
abbrev main_v70 : Ref sig .tc := ⟨.hbm, 109, rfl⟩
abbrev main_cst_20 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_21 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg8_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc3_stg7_0 : Ref sig .tc := ⟨.vmem, 48, rfl⟩
abbrev cc3_stg7_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35
abbrev cc2_sem8_0 : DmaSem sig := 36
abbrev cc2_sem8_1 : DmaSem sig := 37
abbrev cc3_sem0_0 : DmaSem sig := 38
abbrev cc3_sem0_1 : DmaSem sig := 39
abbrev cc3_sem1_0 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem5_1 : DmaSem sig := 45
abbrev cc3_sem6_0 : DmaSem sig := 46
abbrev cc3_sem6_1 : DmaSem sig := 47
abbrev cc3_sem7_0 : DmaSem sig := 48
abbrev cc3_sem7_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S4000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S4000x1 .i32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x128x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x8 : S_.BroadcastsInDim S100000x8 (![] : Fin 0 → Fin S100000x8.rank)
  transposes_S128x8_S8x128_1_0 : S128x8.Transposes [1, 0] S8x128
  shapeCasts_S128_S1x128 : S128.ShapeCasts S1x128
  inb_S4000x8_S4000x8_0_0 : ∀ a, (![0, 0] : Fin 2 → Nat) a + S4000x8.size a ≤ S4000x8.size a
  h_S4000x8 : 0 < S4000x8.numel
  shapeCasts_S4000x8_S4000x8 : S4000x8.ShapeCasts S4000x8
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x8 : S4000x1.Broadcasts S4000x8
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  reduces_S4000x128_S128 : S4000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S25x1x128_S1x128_d0 : S25x1x128.ReducesTo [0] S1x128
  h_S_ : 0 < S_.numel
  bcast_S_S1x128 : S_.BroadcastsInDim S1x128 (![] : Fin 0 → Fin S1x128.rank)
  shapeCasts_S4000x128_S4000x128 : S4000x128.ShapeCasts S4000x128
  bcast_S_S100000x128 : S_.BroadcastsInDim S100000x128 (![] : Fin 0 → Fin S100000x128.rank)
  transposes_S128x128_S128x128_1_0 : S128x128.Transposes [1, 0] S128x128
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S100000_S100000x1 : S100000.ShapeCasts S100000x1
  iota_S1x128_d1_w32 : S1x128.Iotas .tc 32 [1]
  natLt_1_32 : 1 < 32
  shapeCasts_S128x128_S1x128x128 : S128x128.ShapeCasts S1x128x128
  inb_S1x128x128_S1x128x128_0_0_0 : ∀ a, (![0, 0, 0] : Fin 3 → Nat) a + S1x128x128.size a ≤ S1x128x128.size a
  h_S1x128x128 : 0 < S1x128x128.numel
  reducesTo_S25x128x128_S128x128_d0 : S25x128x128.ReducesTo [0] S128x128
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  scatter_S100000_S1600000x1_S1600000_n_0_0_1_wf : ScatterDims.WF S100000 S1600000x1 S1600000 [] [0] [0] 1
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  dot_S4000x8_S8x128_S4000x128_1_0_0_1_n_n_wf : DotDims.WF S4000x8 S8x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S4000x128_S128x128_0_0_1_1_n_n_wf : DotDims.WF S4000x128 S4000x128 S128x128 [0] [0] [1] [1] [] []
  scatter_S128_S100000x1_S100000_n_0_0_1_wf : ScatterDims.WF S128 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x8.size a ≤ S100000x8.size a
  hwx0_0 : ∀ i : grid0.Coords, EltTy.bits .f32 = 32 ∨ (Rect.block (s := S100000x8) S4000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x8.size a ≤ S100000x8.size a
  hwx0_1 : ∀ i : grid0.Coords, EltTy.bits .f32 = 32 ∨ (Rect.block (s := S100000x8) S4000x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .f32 = 32 ∨ (Rect.block (s := S8x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .bf16 = 32 ∨ (Rect.block (s := S100000x128) S4000x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S25x1x128.size a
  hwx0_7 : ∀ i : grid0.Coords, EltTy.bits .f32 = 32 ∨ (Rect.block (s := S25x1x128) S1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S25x1x128.size a
  hwx0_8 : ∀ i : grid0.Coords, EltTy.bits .f32 = 32 ∨ (Rect.block (s := S25x1x128) S1x1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .bf16 = 32 ∨ (Rect.block (s := S100000x128) S4000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .bf16 = 32 ∨ (Rect.block (s := S100000x128) S4000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .bf16 = 32 ∨ (Rect.block (s := S100000x128) S4000x128.size (cc2_transform_6 i) (hinb2_6 i)).WholeWords (EltTy.packing .bf16)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x1x128.size a ≤ S25x1x128.size a
  hwx2_7 : ∀ i : grid2.Coords, EltTy.bits .f32 = 32 ∨ (Rect.block (s := S25x1x128) S1x1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x1x128.size a ≤ S25x1x128.size a
  hwx2_8 : ∀ i : grid2.Coords, EltTy.bits .f32 = 32 ∨ (Rect.block (s := S25x1x128) S1x1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .bf16 = 32 ∨ (Rect.block (s := S100000x128) S4000x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .bf16 = 32 ∨ (Rect.block (s := S100000x128) S4000x128.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x1.size a ≤ S100000x1.size a
  hwx3_6 : ∀ i : grid3.Coords, EltTy.bits .i32 = 32 ∨ (Rect.block (s := S100000x1) S4000x1.size (cc3_transform_6 i) (hinb3_6 i)).WholeWords (EltTy.packing .i32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x128x128.size a ≤ S25x128x128.size a
  hwx3_7 : ∀ i : grid3.Coords, EltTy.bits .f32 = 32 ∨ (Rect.block (s := S25x128x128) S1x128x128.size (cc3_transform_7 i) (hinb3_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S4000x128_S128x128_0_0_1_1_n_n : DotDims S4000x128 S4000x128 S128x128 where
  lhsContracting := [0]
  rhsContracting := [0]
  lhsNonContracting := [1]
  rhsNonContracting := [1]
  lhsBatch := []
  rhsBatch := []
  wf := dot_S4000x128_S4000x128_S128x128_0_0_1_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

abbrev win0_0 : Pipeline.Window sig grid0 :=
  Pipeline.Window.ofSpec (Memref.whole main_v22) S4000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S8x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26_0) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_1) S1x1x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v26_2) S1x1x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v26_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v51) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54_0) S4000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v54_1) S1x1x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v54_2) S1x1x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v54_0) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39) S4000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v65) S4000x1.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v68) S1x128x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x8 : Shape := ⟨2, ![100000, 8]⟩
abbrev S2x1600000 : Shape := ⟨2, ![2, 1600000]⟩
abbrev S100000 : Shape := ⟨1, ![100000]⟩
abbrev S128x8 : Shape := ⟨2, ![128, 8]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x8 : Shape := ⟨2, ![1600000, 8]⟩
abbrev S100000x1 : Shape := ⟨2, ![100000, 1]⟩
abbrev S8x128 : Shape := ⟨2, ![8, 128]⟩
abbrev S100000x128 : Shape := ⟨2, ![100000, 128]⟩
abbrev S1x128 : Shape := ⟨2, ![1, 128]⟩
abbrev S1600000x128 : Shape := ⟨2, ![1600000, 128]⟩
abbrev S128x1 : Shape := ⟨2, ![128, 1]⟩

abbrev nBuf : Space → Nat
  | .hbm => 166
  | .vmem => 0
  | .smem => 0
  | _ => 0

abbrev hbmTy0_0 (i : Nat) : BufTy := match i % 128 with
  | 0 => ⟨S100000x8, .f32⟩
  | 1 => ⟨S2x1600000, .i32⟩
  | 2 => ⟨S100000, .i32⟩
  | 3 => ⟨S128x8, .f32⟩
  | 4 => ⟨S128, .f32⟩
  | 5 => ⟨S128x8, .f32⟩
  | 6 => ⟨S128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x8, .f32⟩
  | 26 => ⟨S_, .f32⟩
  | 27 => ⟨S100000x8, .f32⟩
  | 28 => ⟨S1600000x1, .i32⟩
  | 29 => ⟨S100000x8, .f32⟩
  | 30 => ⟨S_, .f32⟩
  | 31 => ⟨S1600000, .f32⟩
  | 32 => ⟨S_, .f32⟩
  | 33 => ⟨S100000, .f32⟩
  | 34 => ⟨S1600000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x8, .f32⟩
  | 41 => ⟨S100000x8, .f32⟩
  | 42 => ⟨S8x128, .f32⟩
  | 43 => ⟨S100000x128, .f32⟩
  | 44 => ⟨S1x128, .f32⟩
  | 45 => ⟨S100000x128, .f32⟩
  | 46 => ⟨S100000x128, .f32⟩
  | 47 => ⟨S8x128, .f32⟩
  | 48 => ⟨S100000x128, .f32⟩
  | 49 => ⟨S100000x128, .f32⟩
  | 50 => ⟨S_, .f32⟩
  | 51 => ⟨S128, .f32⟩
  | 52 => ⟨S_, .f32⟩
  | 53 => ⟨S128, .f32⟩
  | 54 => ⟨S128, .f32⟩
  | 55 => ⟨S1x128, .f32⟩
  | 56 => ⟨S100000x128, .f32⟩
  | 57 => ⟨S100000x128, .f32⟩
  | 58 => ⟨S100000x128, .f32⟩
  | 59 => ⟨S_, .f32⟩
  | 60 => ⟨S128, .f32⟩
  | 61 => ⟨S_, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S128, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x128, .f32⟩
  | 92 => ⟨S_, .f32⟩
  | 93 => ⟨S100000x128, .f32⟩
  | 94 => ⟨S1600000x1, .i32⟩
  | 95 => ⟨S100000x128, .f32⟩
  | 96 => ⟨S_, .f32⟩
  | 97 => ⟨S1600000, .f32⟩
  | 98 => ⟨S_, .f32⟩
  | 99 => ⟨S100000, .f32⟩
  | 100 => ⟨S1600000x1, .i32⟩
  | 101 => ⟨S100000, .f32⟩
  | 102 => ⟨S_, .f32⟩
  | 103 => ⟨S100000, .f32⟩
  | 104 => ⟨S100000, .f32⟩
  | 105 => ⟨S100000x1, .f32⟩
  | 106 => ⟨S100000x128, .f32⟩
  | 107 => ⟨S100000x128, .f32⟩
  | 108 => ⟨S128x128, .f32⟩
  | 109 => ⟨S100000x128, .f32⟩
  | 110 => ⟨S1x128, .f32⟩
  | 111 => ⟨S100000x128, .f32⟩
  | 112 => ⟨S100000x128, .f32⟩
  | 113 => ⟨S128x128, .f32⟩
  | 114 => ⟨S100000x128, .f32⟩
  | 115 => ⟨S100000x128, .f32⟩
  | 116 => ⟨S_, .f32⟩
  | 117 => ⟨S128, .f32⟩
  | 118 => ⟨S_, .f32⟩
  | 119 => ⟨S128, .f32⟩
  | 120 => ⟨S128, .f32⟩
  | 121 => ⟨S1x128, .f32⟩
  | 122 => ⟨S100000x128, .f32⟩
  | 123 => ⟨S100000x128, .f32⟩
  | 124 => ⟨S100000x128, .f32⟩
  | 125 => ⟨S_, .f32⟩
  | 126 => ⟨S128, .f32⟩
  | 127 => ⟨S_, .f32⟩
  | _ => ⟨S100000x8, .f32⟩

abbrev hbmTy0_1 (i : Nat) : BufTy := match i % 128 with
  | 0 => ⟨S128, .f32⟩
  | 1 => ⟨S128, .f32⟩
  | 2 => ⟨S1x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S_, .f32⟩
  | 9 => ⟨S128, .f32⟩
  | 10 => ⟨S128, .f32⟩
  | 11 => ⟨S128, .f32⟩
  | 12 => ⟨S1x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S100000x128, .f32⟩
  | 22 => ⟨S_, .f32⟩
  | 23 => ⟨S128x128, .f32⟩
  | 24 => ⟨S100000x1, .i32⟩
  | 25 => ⟨S128x128, .f32⟩
  | 26 => ⟨S_, .f32⟩
  | 27 => ⟨S100000, .f32⟩
  | 28 => ⟨S_, .f32⟩
  | 29 => ⟨S128, .f32⟩
  | 30 => ⟨S100000x1, .i32⟩
  | 31 => ⟨S128, .f32⟩
  | 32 => ⟨S_, .f32⟩
  | 33 => ⟨S128, .f32⟩
  | 34 => ⟨S128, .f32⟩
  | 35 => ⟨S128x1, .f32⟩
  | 36 => ⟨S128x128, .f32⟩
  | 37 => ⟨S128x128, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call0_cst : Ref sig .tc := ⟨.hbm, 80, rfl⟩
abbrev main_call0_v0 : Ref sig .tc := ⟨.hbm, 81, rfl⟩
abbrev main_v56 : Ref sig .tc := ⟨.hbm, 82, rfl⟩
abbrev main_c_9 : Ref sig .tc := ⟨.hbm, 83, rfl⟩
abbrev main_v57 : Ref sig .tc := ⟨.hbm, 84, rfl⟩
abbrev main_v58 : Ref sig .tc := ⟨.hbm, 85, rfl⟩
abbrev main_c_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_15 : Ref sig .tc := ⟨.hbm, 116, rfl⟩
abbrev main_v84 : Ref sig .tc := ⟨.hbm, 117, rfl⟩
abbrev main_cst_16 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_17 : Ref sig .tc := ⟨.hbm, 125, rfl⟩
abbrev main_v91 : Ref sig .tc := ⟨.hbm, 126, rfl⟩
abbrev main_cst_18 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_19 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_call1_cst : Ref sig .tc := ⟨.hbm, 146, rfl⟩
abbrev main_call1_v0 : Ref sig .tc := ⟨.hbm, 147, rfl⟩
abbrev main_v109 : Ref sig .tc := ⟨.hbm, 148, rfl⟩
abbrev main_v110 : Ref sig .tc := ⟨.hbm, 149, rfl⟩
abbrev main_cst_20 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_21 : Ref sig .tc := ⟨.hbm, 154, rfl⟩
abbrev main_v114 : Ref sig .tc := ⟨.hbm, 155, rfl⟩
abbrev main_cst_22 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_23 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x8 : S_.BroadcastsInDim S100000x8 (![] : Fin 0 → Fin S100000x8.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  transposes_S128x8_S8x128_1_0 : S128x8.Transposes [1, 0] S8x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  scatter_S100000_S1600000x1_S1600000_n_0_0_1_wf : ScatterDims.WF S100000 S1600000x1 S1600000 [] [0] [0] 1
  dot_S100000x8_S8x128_S100000x128_1_0_0_1_n_n_wf : DotDims.WF S100000x8 S8x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1

variable [Facts₀]

def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x8_S8x128_S100000x128_1_0_0_1_n_n : DotDims S100000x8 S8x128 S100000x128 where
  lhsContracting := [1]
  rhsContracting := [0]
  lhsNonContracting := [0]
  rhsNonContracting := [1]
  lhsBatch := []
  rhsBatch := []
  wf := dot_S100000x8_S8x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

class Facts : Prop extends Facts₀ where

variable [Facts]
-- ==== Proof.KS0a.lean ====
/- What the first host stretch leaves in the buffers the first region reads: the neighbour sum and the reciprocal clamped degree. -/
import proofs.«414989_j78658031059101_2_alg».proof.Proof.Gen.KernelIdeal.Frame
import proofs.«414989_j78658031059101_2_alg».proof.Proof.Gen.ReferenceIdeal.Read
import Idealize.ShloMosaic.Lib.StableHlo.Run

set_option maxRecDepth 16384

noncomputable section

namespace Cert.KernelIdeal.KS0a

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

set_option maxHeartbeats 2000000 in
theorem V1_v22 (c : Dev nD) : V1 m ρ c main_v22
    = val_main_v13 (F := Ideal) (m ((c : Thread nD τ).loc main_arg0)) (m ((c : Thread nD τ).loc main_arg1)) := by
  dsimp only [V1, W1, hostOps0]
  after_results_simp
  rfl
set_option maxHeartbeats 2000000 in
theorem V1_v12 (c : Dev nD) : V1 m ρ c main_v12
    = broadcastInDim S100000x1 ![0] bcast_S100000_S100000x1_0 (Host.divf (broadcastInDim S100000 ![] bcast_S_S100000 (constant (F := Ideal) S_ .f32 0x3F800000#32)) (Cert.ReferenceIdeal.Read.val_main_v19 (F := Ideal) (m ((c : Thread nD τ).loc main_arg1)))) := by
  dsimp only [V1, W1, hostOps0]
  after_results_simp
  rfl

end Cert.KernelIdeal.KS0a

end
-- ==== Proof.KS0b.lean ====
/- What the first host stretch leaves in the other buffers read later: the argument arrays, the transposed weights, the bias row and the two index vectors. -/
import proofs.«414989_j78658031059101_2_alg».proof.Proof.Gen.KernelIdeal.Frame
import proofs.«414989_j78658031059101_2_alg».proof.Proof.Gen.ReferenceIdeal.Read
import Idealize.ShloMosaic.Lib.StableHlo.Run

set_option maxRecDepth 16384

noncomputable section

namespace Cert.KernelIdeal.KS0b

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

set_option maxHeartbeats 2000000 in
theorem V1_arg0 (c : Dev nD) : V1 m ρ c main_arg0
    = (m ((c : Thread nD τ).loc main_arg0)) := by
  dsimp only [V1, W1, hostOps0]
  after_results_simp
set_option maxHeartbeats 2000000 in
theorem V1_v23 (c : Dev nD) : V1 m ρ c main_v23
    = val_main_v23 (F := Ideal) (m ((c : Thread nD τ).loc main_arg3)) := by
  dsimp only [V1, W1, hostOps0]
  after_results_simp
  rfl
set_option maxHeartbeats 2000000 in
theorem V1_v25 (c : Dev nD) : V1 m ρ c main_v25
    = val_main_v28 (F := Ideal) (m ((c : Thread nD τ).loc main_arg5)) := by
  dsimp only [V1, W1, hostOps0]
  after_results_simp
  rfl
set_option maxHeartbeats 2000000 in
theorem V1_v24 (c : Dev nD) : V1 m ρ c main_v24
    = shapeCast S1x128 (m ((c : Thread nD τ).loc main_arg4)) shapeCasts_S128_S1x128 := by
  dsimp only [V1, W1, hostOps0]
  after_results_simp
  rfl
set_option maxHeartbeats 2000000 in
theorem V1_v1 (c : Dev nD) : V1 m ρ c main_v1
    = val_main_v1 (F := Ideal) (m ((c : Thread nD τ).loc main_arg1)) := by
  dsimp only [V1, W1, hostOps0]
  after_results_simp
  rfl
set_option maxHeartbeats 2000000 in
theorem V1_v3 (c : Dev nD) : V1 m ρ c main_v3
    = val_main_v3 (F := Ideal) (m ((c : Thread nD τ).loc main_arg1)) := by
  dsimp only [V1, W1, hostOps0]
  after_results_simp
  rfl
set_option maxHeartbeats 2000000 in
theorem V1_arg2 (c : Dev nD) : V1 m ρ c main_arg2
    = (m ((c : Thread nD τ).loc main_arg2)) := by
  dsimp only [V1, W1, hostOps0]
  after_results_simp
set_option maxHeartbeats 2000000 in
theorem V1_arg6 (c : Dev nD) : V1 m ρ c main_arg6
    = (m ((c : Thread nD τ).loc main_arg6)) := by
  dsimp only [V1, W1, hostOps0]
  after_results_simp
set_option maxHeartbeats 2000000 in
theorem V1_arg7 (c : Dev nD) : V1 m ρ c main_arg7
    = (m ((c : Thread nD τ).loc main_arg7)) := by
  dsimp only [V1, W1, hostOps0]
  after_results_simp
set_option maxHeartbeats 2000000 in
theorem V1_arg8 (c : Dev nD) : V1 m ρ c main_arg8
    = (m ((c : Thread nD τ).loc main_arg8)) := by
  dsimp only [V1, W1, hostOps0]
  after_results_simp
set_option maxHeartbeats 2000000 in
theorem V1_arg9 (c : Dev nD) : V1 m ρ c main_arg9
    = (m ((c : Thread nD τ).loc main_arg9)) := by
  dsimp only [V1, W1, hostOps0]
  after_results_simp
set_option maxHeartbeats 2000000 in
theorem V1_arg10 (c : Dev nD) : V1 m ρ c main_arg10
    = (m ((c : Thread nD τ).loc main_arg10)) := by
  dsimp only [V1, W1, hostOps0]
  after_results_simp
set_option maxHeartbeats 2000000 in
theorem V1_arg11 (c : Dev nD) : V1 m ρ c main_arg11
    = (m ((c : Thread nD τ).loc main_arg11)) := by
  dsimp only [V1, W1, hostOps0]
  after_results_simp
set_option maxHeartbeats 2000000 in
theorem V1_arg12 (c : Dev nD) : V1 m ρ c main_arg12
    = (m ((c : Thread nD τ).loc main_arg12)) := by
  dsimp only [V1, W1, hostOps0]
  after_results_simp

end Cert.KernelIdeal.KS0b

end
-- ==== Proof.Spec.lean ====
/-
  The layers of the graph encoder as functions of whole arrays, entry by entry, on the extended reals.

  A node array has 100000 rows, cut in 25 tiles of 4000 consecutive rows. One layer is: the neighbour sum
  scaled row by row by the reciprocal degree and multiplied into a weight matrix, plus a bias row, plus the
  node features multiplied into a second weight matrix (`lin8`, `lin128`); the column sums and column sums
  of squares of that array, tile by tile (`tileSum`, `tileSumSq`); the batch normalisation with a given mean
  and variance row followed by the positive part (`bnrelu`); and, for the pooling, the tile-by-tile sums of
  the rows of the residual array selected by a graph number (`pool`).
-/
import Idealize.ShloMosaic.PureOps.Ideal
import Idealize.ShloMosaic.Lib.ValueIdx

noncomputable section

namespace Cert.Spec

open Idealize.ShloMosaic Idealize.ShloMosaic.ValueIdx
open scoped BigOperators

/-- An array of extended reals of a given shape. -/
abbrev Arr (s : Shape) : Type := s.Idx → EReal

/-- Row `r` of tile `t` is row `4000 t + r` of the node axis. -/
def tileRow (t : Fin 25) (r : Fin 4000) : Fin 100000 := ⟨t.val * 4000 + r.val, by have := t.isLt; have := r.isLt; omega⟩

/-- The variance offset of the normalisation (the float nearest to 1e-5). -/
def eps : EReal := Ideal.ofBits .f32 0x3727C5AC#32

/-- The number of nodes as a float (100000). -/
def nNodes : EReal := Ideal.ofBits .f32 0x47C35000#32

/-- One entry of a layer's linear part over 8 input features: the neighbour sum `A` scaled by the row's
    reciprocal degree `invD`, into `WlT`; plus the bias; plus the features `X` into `WrT`. -/
def lin8At (A X : Arr ⟨2, ![100000, 8]⟩) (invD : Arr ⟨2, ![100000, 1]⟩) (WlT : Arr ⟨2, ![8, 128]⟩) (b : Arr ⟨2, ![1, 128]⟩)
    (WrT : Arr ⟨2, ![8, 128]⟩) (n : Fin 100000) (c : Fin 128) : EReal :=
  (∑ k : Fin 8, (A (ix2 n k) * invD (ix2 n 0)) * WlT (ix2 k c)) + b (ix2 0 c) + ∑ k : Fin 8, X (ix2 n k) * WrT (ix2 k c)

def lin8 (A X : Arr ⟨2, ![100000, 8]⟩) (invD : Arr ⟨2, ![100000, 1]⟩) (WlT : Arr ⟨2, ![8, 128]⟩) (b : Arr ⟨2, ![1, 128]⟩)
    (WrT : Arr ⟨2, ![8, 128]⟩) : Arr ⟨2, ![100000, 128]⟩ :=
  fun j => lin8At A X invD WlT b WrT (j 0) (j 1)

/-- The same over 128 input features. -/
def lin128At (A X : Arr ⟨2, ![100000, 128]⟩) (invD : Arr ⟨2, ![100000, 1]⟩) (WlT : Arr ⟨2, ![128, 128]⟩) (b : Arr ⟨2, ![1, 128]⟩)
    (WrT : Arr ⟨2, ![128, 128]⟩) (n : Fin 100000) (c : Fin 128) : EReal :=
  (∑ k : Fin 128, (A (ix2 n k) * invD (ix2 n 0)) * WlT (ix2 k c)) + b (ix2 0 c) + ∑ k : Fin 128, X (ix2 n k) * WrT (ix2 k c)

def lin128 (A X : Arr ⟨2, ![100000, 128]⟩) (invD : Arr ⟨2, ![100000, 1]⟩) (WlT : Arr ⟨2, ![128, 128]⟩) (b : Arr ⟨2, ![1, 128]⟩)
    (WrT : Arr ⟨2, ![128, 128]⟩) : Arr ⟨2, ![100000, 128]⟩ :=
  fun j => lin128At A X invD WlT b WrT (j 0) (j 1)

/-- Column sums of a node array, one tile at a time. -/
def tileSum (H : Arr ⟨2, ![100000, 128]⟩) : Arr ⟨3, ![25, 1, 128]⟩ :=
  fun i => ∑ r : Fin 4000, H (ix2 (tileRow (i 0) r) (i 2))

/-- Column sums of squares of a node array, one tile at a time. -/
def tileSumSq (H : Arr ⟨2, ![100000, 128]⟩) : Arr ⟨3, ![25, 1, 128]⟩ :=
  fun i => ∑ r : Fin 4000, H (ix2 (tileRow (i 0) r) (i 2)) * H (ix2 (tileRow (i 0) r) (i 2))

/-- One entry of the normalised, rectified array: `max (g (h - mu) rsqrt(var + eps) + beta) 0`. -/
def bnreluAt (H : Arr ⟨2, ![100000, 128]⟩) (mu var g beta : Arr ⟨2, ![1, 128]⟩) (n : Fin 100000) (c : Fin 128) : EReal :=
  max (g (ix2 0 c) * (H (ix2 n c) - mu (ix2 0 c)) * Ideal.rsqrt (var (ix2 0 c) + eps) + beta (ix2 0 c)) 0

def bnrelu (H : Arr ⟨2, ![100000, 128]⟩) (mu var g beta : Arr ⟨2, ![1, 128]⟩) : Arr ⟨2, ![100000, 128]⟩ :=
  fun j => bnreluAt H mu var g beta (j 0) (j 1)

/-- Whether a node's graph number (a 32-bit word) is the graph `g`, as 1 or 0. -/
def onehot (w : BitVec 32) (g : Fin 128) : EReal := if w = BitVec.ofNat 32 g.val then 1 else 0

/-- The pooled partial sums: for tile `t`, graph `g` and feature `d`, the sum over the tile's rows whose graph number
    is `g` of the residual entry `X1 + bnrelu H2`. -/
def pool (H2 : Arr ⟨2, ![100000, 128]⟩) (mu var g beta : Arr ⟨2, ![1, 128]⟩) (X1 : Arr ⟨2, ![100000, 128]⟩)
    (bt : (⟨2, ![100000, 1]⟩ : Shape).Idx → BitVec 32) : Arr ⟨3, ![25, 128, 128]⟩ :=
  fun i => ∑ r : Fin 4000, onehot (bt (ix2 (tileRow (i 0) r) 0)) (i 1)
    * (X1 (ix2 (tileRow (i 0) r) (i 2)) + bnreluAt H2 mu var g beta (tileRow (i 0) r) (i 2))

/-- The reciprocal-degree column from a degree vector: entry `(n, 0)` is `1 / d n`. -/
def invOf (d : Arr ⟨1, ![100000]⟩) : Arr ⟨2, ![100000, 1]⟩ := fun i => Ideal.div 1 (d (ix1 (i 0)))

/-- The column means of a node array, as a row. -/
def muRow (H : Arr ⟨2, ![100000, 128]⟩) : Arr ⟨2, ![1, 128]⟩ :=
  fun i => Ideal.div (∑ n : Fin 100000, H (ix2 n (i 1))) nNodes

/-- The column variances of a node array, as a row, in the form "mean of squares minus squared mean, not below zero". -/
def varRow (H : Arr ⟨2, ![100000, 128]⟩) : Arr ⟨2, ![1, 128]⟩ :=
  fun i => max (Ideal.div (∑ n : Fin 100000, H (ix2 n (i 1)) * H (ix2 n (i 1))) nNodes - muRow H i * muRow H i) 0

/-- The sum over all nodes of graph `g` of feature `d` of a node array. -/
def graphSum (Hf : Arr ⟨2, ![100000, 128]⟩) (bt : Fin 100000 → BitVec 32) (g d : Fin 128) : EReal :=
  ∑ n : Fin 100000, onehot (bt n) g * Hf (ix2 n d)

end Cert.Spec

end
-- ==== Proof.LibRealValued.lean ====
/-
  Arrays of extended reals that hold only real numbers.

  At the ideal values a float is an extended real, and an algebraic identity between two ways of
  computing a softmax holds for REAL logits only (at an infinite logit a difference of infinities is a
  convention, not a number). This file names the property "every entry is a real number" and proves
  that each operation a graph-convolution network is made of keeps it: sums, differences, products and
  maxima of entries, constants, re-indexings (broadcasts, shape casts, transposes, gathers), scattered
  sums, contractions, integers read as floats, and the inverse square root of a node's degree.
-/
import Idealize.ShloMosaic.PureOps.Ideal
import Idealize.ShloMosaic.PureOps.Ideal.Laws
import Idealize.ShloMosaic.PureOps.Contract
import Idealize.ShloMosaic.PureOps.ShapeOps
import Idealize.ShloMosaic.Lib.IdealHost

namespace RealValued

open Idealize.ShloMosaic
open scoped BigOperators

/-! ## The property -/

/-- An array of extended reals every entry of which is a real number. -/
def IsReal {ι : Type*} (v : ι → EReal) : Prop := ∀ i, ∃ r : ℝ, v i = (r : EReal)

/-- An array is real-valued exactly when no entry is an infinity. -/
theorem isReal_iff_ne {ι : Type*} (v : ι → EReal) : IsReal v ↔ ∀ i, v i ≠ ⊤ ∧ v i ≠ ⊥ := by
  constructor
  · intro h i
    obtain ⟨r, hr⟩ := h i
    rw [hr]
    exact ⟨EReal.coe_ne_top r, EReal.coe_ne_bot r⟩
  · intro h i
    exact ⟨(v i).toReal, (EReal.coe_toReal (h i).1 (h i).2).symm⟩

/-- What a finiteness precondition gives: an array with no infinite entry is real-valued. -/
theorem isReal_of_finite {ι : Type*} {x : ι → EReal} (h : ∀ i, x i ≠ ⊤ ∧ x i ≠ ⊥) : IsReal x :=
  (isReal_iff_ne x).mpr h

/-- An entry of a real-valued array is not `⊤`. -/
theorem IsReal.ne_top {ι : Type*} {v : ι → EReal} (h : IsReal v) (i : ι) : v i ≠ ⊤ :=
  ((isReal_iff_ne v).mp h i).1

/-- An entry of a real-valued array is not `⊥`. -/
theorem IsReal.ne_bot {ι : Type*} {v : ι → EReal} (h : IsReal v) (i : ι) : v i ≠ ⊥ :=
  ((isReal_iff_ne v).mp h i).2

/-- An entry of a real-valued array is the embedding of its real part. -/
theorem IsReal.coe_toReal {ι : Type*} {v : ι → EReal} (h : IsReal v) (i : ι) : ((v i).toReal : EReal) = v i :=
  EReal.coe_toReal (h.ne_top i) (h.ne_bot i)

/-- An array whose absolute values `max a (-a)` all lie below `⊤` is real-valued: `|a| < ⊤` excludes both
    infinities, since `|⊤| = |⊥| = ⊤`. -/
theorem isReal_of_abs_lt_top {ι : Type*} {x : ι → EReal} (h : ∀ i, max (x i) (-(x i)) < ⊤) : IsReal x := by
  refine isReal_of_finite fun i => ⟨?_, ?_⟩
  · intro e; have := h i; rw [e] at this; simp at this
  · intro e; have := h i; rw [e] at this; simp at this

/-! ## Real numbers are closed under the field operations and the lattice operations -/

/-- The sum of two real numbers is a real number. -/
theorem real_add {a b : EReal} (ha : ∃ r : ℝ, a = (r : EReal)) (hb : ∃ r : ℝ, b = (r : EReal)) :
    ∃ r : ℝ, a + b = (r : EReal) := by
  obtain ⟨p, rfl⟩ := ha; obtain ⟨q, rfl⟩ := hb
  exact ⟨p + q, (EReal.coe_add p q).symm⟩

/-- The difference of two real numbers is a real number. -/
theorem real_sub {a b : EReal} (ha : ∃ r : ℝ, a = (r : EReal)) (hb : ∃ r : ℝ, b = (r : EReal)) :
    ∃ r : ℝ, a - b = (r : EReal) := by
  obtain ⟨p, rfl⟩ := ha; obtain ⟨q, rfl⟩ := hb
  exact ⟨p - q, (EReal.coe_sub p q).symm⟩

/-- The product of two real numbers is a real number. -/
theorem real_mul {a b : EReal} (ha : ∃ r : ℝ, a = (r : EReal)) (hb : ∃ r : ℝ, b = (r : EReal)) :
    ∃ r : ℝ, a * b = (r : EReal) := by
  obtain ⟨p, rfl⟩ := ha; obtain ⟨q, rfl⟩ := hb
  exact ⟨p * q, (EReal.coe_mul p q).symm⟩

/-- The negation of a real number is a real number. -/
theorem real_neg {a : EReal} (ha : ∃ r : ℝ, a = (r : EReal)) : ∃ r : ℝ, -a = (r : EReal) := by
  obtain ⟨p, rfl⟩ := ha
  exact ⟨-p, (EReal.coe_neg p).symm⟩

/-- The greater of two real numbers is a real number. -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- The lesser of two real numbers is a real number. -/
theorem real_min {a b : EReal} (ha : ∃ r : ℝ, a = (r : EReal)) (hb : ∃ r : ℝ, b = (r : EReal)) :
    ∃ r : ℝ, min a b = (r : EReal) := by
  rcases le_total a b with h | h
  · rw [min_eq_left h]; exact ha
  · rw [min_eq_right h]; exact hb

/-- A finite sum of real numbers is a real number (induction on the index set: the empty sum is `0`, and a
    sum of two reals is real). -/
theorem isReal_sum {κ : Type*} (s : Finset κ) (f : κ → EReal) (h : ∀ k ∈ s, ∃ r : ℝ, f k = (r : EReal)) :
    ∃ r : ℝ, ∑ k ∈ s, f k = (r : EReal) :=
  Finset.sum_induction f (fun a => ∃ r : ℝ, a = (r : EReal)) (fun _ _ => real_add) ⟨0, rfl⟩ h

/-- The same over a whole finite type. -/
theorem isReal_sum_univ {κ : Type*} [Fintype κ] (f : κ → EReal) (h : ∀ k, ∃ r : ℝ, f k = (r : EReal)) :
    ∃ r : ℝ, ∑ k, f k = (r : EReal) :=
  isReal_sum Finset.univ f fun k _ => h k

/-! ## The elementwise operations -/

section Elementwise
variable {s : Shape} {φ : FTy}

/-- The elementwise sum of two real-valued arrays is real-valued. -/
theorem isReal_addf {x y : FVec Ideal s φ} (hx : IsReal x) (hy : IsReal y) : IsReal (addf (F := Ideal) x y) :=
  fun i => real_add (hx i) (hy i)

/-- The elementwise difference of two real-valued arrays is real-valued. -/
theorem isReal_subf {x y : FVec Ideal s φ} (hx : IsReal x) (hy : IsReal y) : IsReal (subf (F := Ideal) x y) :=
  fun i => real_sub (hx i) (hy i)

/-- The elementwise product of two real-valued arrays is real-valued. -/
theorem isReal_mulf {x y : FVec Ideal s φ} (hx : IsReal x) (hy : IsReal y) : IsReal (mulf (F := Ideal) x y) :=
  fun i => real_mul (hx i) (hy i)

/-- The elementwise maximum of two real-valued arrays is real-valued. -/
theorem isReal_maximumf {x y : FVec Ideal s φ} (hx : IsReal x) (hy : IsReal y) :
    IsReal (maximumf (F := Ideal) x y) :=
  fun i => real_max (hx i) (hy i)

/-- The elementwise minimum of two real-valued arrays is real-valued. -/
theorem isReal_minimumf {x y : FVec Ideal s φ} (hx : IsReal x) (hy : IsReal y) :
    IsReal (minimumf (F := Ideal) x y) :=
  fun i => real_min (hx i) (hy i)

/-- The elementwise negation of a real-valued array is real-valued. -/
theorem isReal_negf {x : FVec Ideal s φ} (hx : IsReal x) : IsReal (negf (F := Ideal) x) :=
  fun i => real_neg (hx i)

/-- The host's elementwise negation of a real-valued array is real-valued. -/
theorem isReal_hostNegf {x : FVec Ideal s φ} (hx : IsReal x) : IsReal (Host.negf (F := Ideal) x) :=
  fun i => real_neg (hx i)

end Elementwise

/-! ## Constants -/

section Constants
variable {s : Shape} {φ : FTy}

/-- A constant array whose bit pattern denotes a real number is real-valued. -/
theorem isReal_const_of {w : BitVec φ.bits} {r : ℝ} (h : Ideal.ofBits φ w = (r : EReal)) :
    IsReal (constant (F := Ideal) s φ w) :=
  fun _ => ⟨r, h⟩

/-- The f32 pattern of `4096.0` (sign 0, exponent 139, fraction 0: `2 ^ 12`) denotes the real `4096`. -/
theorem ofBits_4096_f32 : Ideal.ofBits .f32 0x45800000#32 = ((4096 : ℝ) : EReal) := by
  simp [Ideal.ofBits, Ideal.ieee, -EReal.coe_mul]; norm_num

/-- The f32 pattern `0x358637BD` (the float nearest `1e-6`: sign 0, exponent 107, fraction `0x0637BD`)
    denotes the real `(2 ^ 23 + 407485) · 2 ^ (-43)`. -/
theorem ofBits_1em6_f32 :
    Ideal.ofBits .f32 0x358637BD#32 = (((8796093 : ℝ) * (2 : ℝ) ^ (-43 : ℤ) : ℝ) : EReal) := by
  simp [Ideal.ofBits, Ideal.ieee, -EReal.coe_mul]

/-- The constant `0.0` array is real-valued. -/
theorem isReal_const_zero : IsReal (constant (F := Ideal) s .f32 0x00000000#32) :=
  isReal_const_of (r := 0) Ideal.ofBits_zero_f32

/-- The constant `1.0` array is real-valued. -/
theorem isReal_const_one : IsReal (constant (F := Ideal) s .f32 0x3F800000#32) :=
  isReal_const_of (r := 1) Ideal.ofBits_one_f32

/-- The constant `4096.0` array is real-valued. -/
theorem isReal_const_4096 : IsReal (constant (F := Ideal) s .f32 0x45800000#32) :=
  isReal_const_of ofBits_4096_f32

/-- The constant array of the float nearest `1e-6` is real-valued. -/
theorem isReal_const_1em6 : IsReal (constant (F := Ideal) s .f32 0x358637BD#32) :=
  isReal_const_of ofBits_1em6_f32

/-- Every entry of the constant `1.0` array is `1`. -/
theorem const_one_apply (i : s.Idx) : constant (F := Ideal) s .f32 0x3F800000#32 i = 1 :=
  Ideal.ofBits_one_f32

/-- Every entry of the constant `0.0` array is `0`. -/
theorem const_zero_apply (i : s.Idx) : constant (F := Ideal) s .f32 0x00000000#32 i = 0 :=
  Ideal.ofBits_zero_f32

end Constants

/-! ## Re-indexings: every entry of the result is an entry of the operand -/

section Reindex
variable {s t : Shape}

/-- An array read through any map of indices is real-valued when the array is. -/
theorem isReal_comp {ι κ : Type*} {x : ι → EReal} (hx : IsReal x) (f : κ → ι) : IsReal fun j => x (f j) :=
  fun j => hx (f j)

/-- A broadcast along dimensions of a real-valued array is real-valued. -/
theorem isReal_broadcastInDim {dims : Fin s.rank → Fin t.rank} {h : s.BroadcastsInDim t dims} {x : s.Idx → EReal}
    (hx : IsReal x) : IsReal (broadcastInDim t dims h x) :=
  fun _ => hx _

/-- The splat of a real number is real-valued. -/
theorem isReal_broadcast {a : EReal} (ha : ∃ r : ℝ, a = (r : EReal)) : IsReal (broadcast t a) :=
  fun _ => ha

/-- A trailing-axes broadcast of a real-valued array is real-valued. -/
theorem isReal_broadcastTo {h : s.Broadcasts t} {x : s.Idx → EReal} (hx : IsReal x) : IsReal (broadcastTo t x h) :=
  fun _ => hx _

/-- A shape cast (a reshape: the same entries in row-major order) of a real-valued array is real-valued. -/
theorem isReal_shapeCast {h : s.ShapeCasts t} {x : s.Idx → EReal} (hx : IsReal x) : IsReal (shapeCast t x h) :=
  fun _ => hx _

/-- A transpose of a real-valued array is real-valued. -/
theorem isReal_transpose {perm : List (Fin s.rank)} {h : s.Transposes perm t} {x : s.Idx → EReal} (hx : IsReal x) :
    IsReal (transpose t perm x h) :=
  fun _ => hx _

/-- A gather from a real-valued array is real-valued: each result entry is the operand's at an index. -/
theorem isReal_gather {si : Shape} {w : Nat} (d : GatherDims s si t) {x : s.Idx → EReal} (idx : IVec si w)
    (hx : IsReal x) : IsReal (Host.gather d x idx) :=
  fun _ => hx _

end Reindex

/-! ## Scattered sums, contractions, integers -/

section Sums
variable {s : Shape} {φ : FTy}

/-- An accumulating scatter of real-valued updates into a real-valued operand is real-valued: each entry is the
    operand's plus a finite sum of update entries. -/
theorem isReal_scatterAdd {si su : Shape} {w : Nat} (d : ScatterDims s si su) {x : FVec Ideal s φ} (idx : IVec si w)
    {u : FVec Ideal su φ} (hx : IsReal x) (hu : IsReal u) : IsReal (Host.scatterAdd (F := Ideal) d x idx u) :=
  fun i => real_add (hx i) (isReal_sum _ _ fun j _ => hu j)

/-- A contraction (`dot_general`) of two real-valued arrays is real-valued: each entry is a finite sum of products. -/
theorem isReal_dotGeneral {sl sr so : Shape} {φ₁ φ₂ : FTy} (d : DotDims sl sr so) (prec : Option ContractPrecision)
    {x : FVec Ideal sl φ₁} {w : FVec Ideal sr φ₂} (hx : IsReal x) (hw : IsReal w) :
    IsReal (Host.dotGeneral (F := Ideal) d prec x w) := by
  intro j
  show ∃ r : ℝ, FloatOps.dotGeneral d prec .single x w j = (r : EReal)
  rw [Ideal.dotGeneral_apply]
  exact isReal_sum_univ _ fun k => real_mul (hx _) (hw _)

/-- The same at any schedule key. -/
theorem isReal_dotGeneralAt (sched : HostSchedule) {sl sr so : Shape} {φ₁ φ₂ : FTy} (d : DotDims sl sr so)
    (prec : Option ContractPrecision) {x : FVec Ideal sl φ₁} {w : FVec Ideal sr φ₂} (hx : IsReal x) (hw : IsReal w) :
    IsReal (Host.dotGeneralAt (F := Ideal) sched d prec x w) := by
  intro j
  show ∃ r : ℝ, FloatOps.dotGeneral d prec sched x w j = (r : EReal)
  rw [Ideal.dotGeneral_apply]
  exact isReal_sum_univ _ fun k => real_mul (hx _) (hw _)

/-- A kernel's matrix product of real-valued operands onto a real-valued accumulator is real-valued: each entry is
    the accumulator's plus a finite sum of products. -/
theorem isReal_matmul {sl sr so : Shape} {φ₁ φ₂ : FTy} (d : DotDims sl sr so) (prec : Option ContractPrecision)
    {x : FVec Ideal sl φ₁} {w : FVec Ideal sr φ₂} {acc : FVec Ideal so .f32} (hx : IsReal x) (hw : IsReal w)
    (hacc : IsReal acc) : IsReal (matmul (F := Ideal) d prec x w acc) := by
  intro j
  show ∃ r : ℝ, FloatOps.matmul d prec x w acc j = (r : EReal)
  rw [Ideal.matmul_apply]
  exact real_add (hacc j) (isReal_sum_univ _ fun k => real_mul (hx _) (hw _))

/-- A signed integer array read as floats is real-valued: each entry is the integer's value. -/
theorem isReal_sitofp {w : Nat} (v : IVec s w) : IsReal (sitofp (F := Ideal) φ v) :=
  fun i => ⟨((v i).toInt : ℝ), rfl⟩

/-- An unsigned integer array read as floats is real-valued. -/
theorem isReal_uitofp {w : Nat} (v : IVec s w) : IsReal (uitofp (F := Ideal) φ v) :=
  fun i => ⟨((v i).toNat : ℝ), rfl⟩

end Sums

/-! ## Positive arrays, and the inverse square root of a degree -/

section Degree
variable {s : Shape} {φ : FTy}

/-- An array every entry of which is a positive real number. -/
def IsPos {ι : Type*} (v : ι → EReal) : Prop := ∀ i, ∃ r : ℝ, 0 < r ∧ v i = (r : EReal)

/-- A positive array is real-valued. -/
theorem IsPos.isReal {ι : Type*} {v : ι → EReal} (h : IsPos v) : IsReal v :=
  fun i => let ⟨r, _, hr⟩ := h i; ⟨r, hr⟩

/-- The inverse square root of a positive real number `r` is the positive real number `(√r)⁻¹`. -/
theorem rsqrt_of_pos {a : EReal} (ha : ∃ r : ℝ, 0 < r ∧ a = (r : EReal)) :
    ∃ r : ℝ, 0 < r ∧ Ideal.rsqrt a = (r : EReal) := by
  obtain ⟨r, hr, rfl⟩ := ha
  refine ⟨(Real.sqrt r)⁻¹, inv_pos.mpr (Real.sqrt_pos.mpr hr), ?_⟩
  rw [Ideal.rsqrt_coe, if_neg (not_lt.mpr hr.le), if_neg hr.ne']

/-- The host's elementwise inverse square root of a positive array is positive. -/
theorem isPos_rsqrt {x : FVec Ideal s φ} (hx : IsPos x) : IsPos (Host.rsqrt (F := Ideal) x) :=
  fun i => rsqrt_of_pos (hx i)

/-- The host's elementwise inverse square root of a positive array is real-valued. -/
theorem isReal_rsqrt_of_pos {x : FVec Ideal s φ} (hx : IsPos x) : IsReal (Host.rsqrt (F := Ideal) x) :=
  (isPos_rsqrt hx).isReal

/-- The kernel-side elementwise inverse square root of a positive array is positive. -/
theorem isPos_rsqrt' {x : FVec Ideal s φ} (hx : IsPos x) : IsPos (rsqrt (F := Ideal) x) :=
  fun i => rsqrt_of_pos (hx i)

/-- The product of two positive arrays is positive. -/
theorem isPos_mulf {x y : FVec Ideal s φ} (hx : IsPos x) (hy : IsPos y) : IsPos (mulf (F := Ideal) x y) := by
  intro i
  obtain ⟨p, hp, hpx⟩ := hx i; obtain ⟨q, hq, hqy⟩ := hy i
  refine ⟨p * q, mul_pos hp hq, ?_⟩
  show x i * y i = _
  rw [hpx, hqy, EReal.coe_mul]

/-- A gather from a positive array is positive. -/
theorem isPos_gather {t si : Shape} {w : Nat} (d : GatherDims s si t) {x : s.Idx → EReal} (idx : IVec si w)
    (hx : IsPos x) : IsPos (Host.gather d x idx) :=
  fun _ => hx _

/-- A broadcast along dimensions of a positive array is positive. -/
theorem isPos_broadcastInDim {t : Shape} {dims : Fin s.rank → Fin t.rank} {h : s.BroadcastsInDim t dims}
    {x : s.Idx → EReal} (hx : IsPos x) : IsPos (broadcastInDim t dims h x) :=
  fun _ => hx _

/-- A degree count: scattering ones onto an array of ones leaves at each entry `1 + n`, `n` the number of updates
    that land there. -/
theorem scatterAdd_ones_apply {si su : Shape} (d : ScatterDims s si su) {w : Nat} (idx : IVec si w)
    (one : FVec Ideal s φ) (ones : FVec Ideal su φ) (h1 : ∀ i, one i = 1) (h2 : ∀ j, ones j = 1) (i : s.Idx) :
    Host.scatterAdd (F := Ideal) d one idx ones i
      = ((1 + ((Finset.univ.filter fun j => d.resultIdx? j idx = some i).card : ℝ) : ℝ) : EReal) := by
  show one i + ∑ j ∈ Finset.univ.filter (fun j => d.resultIdx? j idx = some i), ones j = _
  rw [h1 i, Finset.sum_congr rfl (fun j _ => h2 j), Finset.sum_const, nsmul_one, EReal.coe_add, EReal.coe_one,
    EReal.coe_natCast]

/-- A degree count is positive: each entry is a real number at least `1`. -/
theorem isPos_scatterAdd_ones {si su : Shape} (d : ScatterDims s si su) {w : Nat} (idx : IVec si w)
    (one : FVec Ideal s φ) (ones : FVec Ideal su φ) (h1 : ∀ i, one i = 1) (h2 : ∀ j, ones j = 1) :
    IsPos (Host.scatterAdd (F := Ideal) d one idx ones) := fun i =>
  ⟨_, by positivity, scatterAdd_ones_apply d idx one ones h1 h2 i⟩

/-- The inverse square root of a degree count is positive: each entry is `(√(1 + n))⁻¹`. -/
theorem isPos_rsqrt_degree {si su : Shape} (d : ScatterDims s si su) {w : Nat} (idx : IVec si w)
    (one : FVec Ideal s φ) (ones : FVec Ideal su φ) (h1 : ∀ i, one i = 1) (h2 : ∀ j, ones j = 1) :
    IsPos (Host.rsqrt (F := Ideal) (Host.scatterAdd d one idx ones)) :=
  isPos_rsqrt (isPos_scatterAdd_ones d idx one ones h1 h2)

/-- The inverse square root of a degree count is real-valued. -/
theorem isReal_rsqrt_degree {si su : Shape} (d : ScatterDims s si su) {w : Nat} (idx : IVec si w)
    (one : FVec Ideal s φ) (ones : FVec Ideal su φ) (h1 : ∀ i, one i = 1) (h2 : ∀ j, ones j = 1) :
    IsReal (Host.rsqrt (F := Ideal) (Host.scatterAdd d one idx ones)) :=
  (isPos_rsqrt_degree d idx one ones h1 h2).isReal

/-- A degree count with the ones spelled as broadcasts of the constant `1.0` is positive. -/
theorem isPos_scatterAdd_ones_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsPos (Host.scatterAdd (F := Ideal) d (broadcastInDim s dims₀ hb₀ (constant S₀ .f32 0x3F800000#32)) idx
      (broadcastInDim su dims₁ hb₁ (constant S₁ .f32 0x3F800000#32))) :=
  isPos_scatterAdd_ones d idx _ _ (fun _ => Ideal.ofBits_one_f32) (fun _ => Ideal.ofBits_one_f32)

/-- The inverse square root of a degree count so spelled is positive. -/
theorem isPos_rsqrt_degree_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsPos (Host.rsqrt (F := Ideal) (Host.scatterAdd d (broadcastInDim s dims₀ hb₀ (constant S₀ .f32 0x3F800000#32)) idx
      (broadcastInDim su dims₁ hb₁ (constant S₁ .f32 0x3F800000#32)))) :=
  isPos_rsqrt_degree d idx _ _ (fun _ => Ideal.ofBits_one_f32) (fun _ => Ideal.ofBits_one_f32)

/-- … and real-valued. -/
theorem isReal_rsqrt_degree_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsReal (Host.rsqrt (F := Ideal) (Host.scatterAdd d (broadcastInDim s dims₀ hb₀ (constant S₀ .f32 0x3F800000#32)) idx
      (broadcastInDim su dims₁ hb₁ (constant S₁ .f32 0x3F800000#32)))) :=
  (isPos_rsqrt_degree_bcast d idx hb₀ hb₁).isReal

end Degree

/-! ## More host operations on real-valued arrays -/

section More
variable {s : Shape} {φ : FTy}

/-- A real-valued array minus itself is zero everywhere (for an infinite entry the difference is not zero). -/
theorem subf_self {x : FVec Ideal s φ} (hx : IsReal x) : subf (F := Ideal) x x = fun _ => 0 := by
  funext i
  obtain ⟨r, hr⟩ := hx i
  show x i - x i = 0
  rw [hr, ← EReal.coe_sub, sub_self, EReal.coe_zero]

/-- The host's sum over axes of a real-valued array, from a real initial value, is real-valued: each entry is the
    initial value plus a finite sum of entries. -/
theorem isReal_hostReduceAdd {t u : Shape} {axes : List (Fin s.rank)} {x : FVec Ideal s φ} {init : u.Idx → Ideal φ}
    (h : s.ReducesTo axes t) (hu : 0 < u.numel) (hx : IsReal x) (hinit : IsReal init) :
    IsReal (Host.reduceAdd (F := Ideal) x init h hu) :=
  fun _ => real_add (hinit _) (isReal_sum _ _ fun i _ => hx i)

/-- The host's quotient of a real-valued array by an array of real numbers that are not zero is real-valued. -/
theorem isReal_hostDivf {x y : FVec Ideal s φ} (hx : IsReal x) (hy : ∀ i, ∃ r : ℝ, r ≠ 0 ∧ y i = (r : EReal)) :
    IsReal (Host.divf (F := Ideal) x y) := by
  intro i
  obtain ⟨q, hq, hqy⟩ := hy i
  show ∃ r : ℝ, Ideal.div (x i) (y i) = (r : EReal)
  rw [hqy, Ideal.div_coe hq]
  exact real_mul (hx i) ⟨_, rfl⟩

/-- The host's exponential of a real-valued array is positive. -/
theorem isPos_hostExp {x : FVec Ideal s φ} (hx : IsReal x) : IsPos (Host.exp (F := Ideal) x) := by
  intro i
  obtain ⟨r, hr⟩ := hx i
  refine ⟨Real.exp r, Real.exp_pos r, ?_⟩
  show Ideal.exp (x i) = _
  rw [hr, Ideal.exp_coe]

/-- The host's exponential of a real-valued array is real-valued. -/
theorem isReal_hostExp {x : FVec Ideal s φ} (hx : IsReal x) : IsReal (Host.exp (F := Ideal) x) :=
  (isPos_hostExp hx).isReal

/-- The host's logarithm of a positive array is real-valued. -/
theorem isReal_hostLog {x : FVec Ideal s φ} (hx : IsPos x) : IsReal (Host.log (F := Ideal) x) := by
  intro i
  obtain ⟨r, hr, hrx⟩ := hx i
  refine ⟨Real.log r, ?_⟩
  show Ideal.log (x i) = _
  rw [hrx, Ideal.log_coe, if_neg (not_le.mpr hr)]

/-- The host's square root of an array of real numbers that are not negative is real-valued. -/
theorem isReal_hostSqrt {x : FVec Ideal s φ} (hx : ∀ i, ∃ r : ℝ, 0 ≤ r ∧ x i = (r : EReal)) :
    IsReal (Host.sqrt (F := Ideal) x) := by
  intro i
  obtain ⟨r, hr, hrx⟩ := hx i
  refine ⟨Real.sqrt r, ?_⟩
  show Ideal.sqrt (x i) = _
  rw [hrx, Ideal.sqrt_coe, if_neg (not_lt.mpr hr)]

end More

/-! ## A tactic for nested terms -/

/-- `real_valued` proves a goal `IsReal t` for a term `t` built from real-valued hypotheses by the operations above:
    it applies the closure lemma of the outermost operation, then works on the operands, and closes a leaf by a
    hypothesis or by a lemma about a constant or an integer array. A goal it cannot progress on is left to the caller. -/
syntax (name := realValuedTac) "real_valued" : tactic

macro_rules
  | `(tactic| real_valued) => `(tactic|
      repeat' (with_reducible first
        | assumption
        | exact isReal_const_zero
        | exact isReal_const_one
        | exact isReal_const_4096
        | exact isReal_const_1em6
        | exact isReal_sitofp _
        | exact isReal_uitofp _
        | exact isReal_rsqrt_degree_bcast _ _ _ _
        | exact IsPos.isReal (by assumption)
        | exact isPos_scatterAdd_ones_bcast _ _ _ _
        | apply isReal_addf
        | apply isReal_subf
        | apply isReal_mulf
        | apply isReal_maximumf
        | apply isReal_minimumf
        | apply isReal_negf
        | apply isReal_hostNegf
        | apply isReal_broadcastInDim
        | apply isReal_shapeCast
        | apply isReal_transpose
        | apply isReal_gather
        | apply isReal_scatterAdd
        | apply isReal_dotGeneral
        | apply isReal_matmul
        | apply isReal_hostReduceAdd
        | apply isReal_hostExp
        | apply isReal_rsqrt_of_pos
        | apply isPos_rsqrt
        | apply isPos_mulf
        | apply isPos_gather
        | apply isPos_broadcastInDim
        | apply isPos_hostExp))

/-! ## Usage -/

section Usage

/-- Small shapes standing for nodes, edges and features: `N` nodes, `E` edges, `D` features. -/
private abbrev S0 : Shape := ⟨0, ![]⟩
private abbrev SN : Shape := ⟨1, ![5]⟩
private abbrev SN1 : Shape := ⟨2, ![5, 1]⟩
private abbrev SND : Shape := ⟨2, ![5, 3]⟩
private abbrev SE : Shape := ⟨1, ![7]⟩
private abbrev SE1 : Shape := ⟨2, ![7, 1]⟩
private abbrev SED : Shape := ⟨2, ![7, 3]⟩
private abbrev SD : Shape := ⟨1, ![3]⟩
private abbrev S1D : Shape := ⟨2, ![1, 3]⟩
private abbrev SKD : Shape := ⟨2, ![4, 3]⟩
private abbrev SNK : Shape := ⟨2, ![5, 4]⟩

/-- One graph-convolution aggregation, term by term: a scattered sum of weighted gathered rows onto zeros, plus the
    weighted self term. -/
example (d : ScatterDims SND SE1 SED) (g : GatherDims SND SE1 SED) (idx idx' : IVec SE1 32)
    (hb0 : S0.BroadcastsInDim SND ![]) (hb1 : SE1.BroadcastsInDim SED ![0, 1]) (hb2 : SN1.BroadcastsInDim SND ![0, 1])
    (a : FVec Ideal SE1 .f32) (c : FVec Ideal SN1 .f32) (x : FVec Ideal SND .f32)
    (ha : IsReal a) (hc : IsReal c) (hx : IsReal x) :
    IsReal (addf (F := Ideal)
      (Host.scatterAdd d (broadcastInDim SND ![] hb0 (constant S0 .f32 0x00000000#32)) idx
        (mulf (broadcastInDim SED ![0, 1] hb1 a) (Host.gather g x idx')))
      (mulf (broadcastInDim SND ![0, 1] hb2 c) x)) :=
  isReal_addf
    (isReal_scatterAdd d idx (isReal_broadcastInDim isReal_const_zero)
      (isReal_mulf (isReal_broadcastInDim ha) (isReal_gather g idx' hx)))
    (isReal_mulf (isReal_broadcastInDim hc) hx)

/-- The same by the tactic. -/
example (d : ScatterDims SND SE1 SED) (g : GatherDims SND SE1 SED) (idx idx' : IVec SE1 32)
    (hb0 : S0.BroadcastsInDim SND ![]) (hb1 : SE1.BroadcastsInDim SED ![0, 1]) (hb2 : SN1.BroadcastsInDim SND ![0, 1])
    (a : FVec Ideal SE1 .f32) (c : FVec Ideal SN1 .f32) (x : FVec Ideal SND .f32)
    (ha : IsReal a) (hc : IsReal c) (hx : IsReal x) :
    IsReal (addf (F := Ideal)
      (Host.scatterAdd d (broadcastInDim SND ![] hb0 (constant S0 .f32 0x00000000#32)) idx
        (mulf (broadcastInDim SED ![0, 1] hb1 a) (Host.gather g x idx')))
      (mulf (broadcastInDim SND ![0, 1] hb2 c) x)) := by
  real_valued

/-- The normalisation weights of an edge: the product of the two endpoints' inverse-square-root degrees, the degree
    a scattered count of ones onto ones, the operations applied through `fun`s as a host program writes them. -/
example (d : ScatterDims SN SE1 SE) (g : GatherDims SN SE1 SE) (idx i₁ i₂ : IVec SE1 32)
    (hb0 : S0.BroadcastsInDim SN ![]) (hb1 : S0.BroadcastsInDim SE ![]) :
    IsReal (mulf (F := Ideal)
      ((fun x i => Host.gather g x i)
        (Host.rsqrt ((fun x i u => Host.scatterAdd d x i u) (broadcastInDim SN ![] hb0 (constant S0 .f32 0x3F800000#32)) idx
          (broadcastInDim SE ![] hb1 (constant S0 .f32 0x3F800000#32)))) i₁)
      ((fun x i => Host.gather g x i)
        (Host.rsqrt ((fun x i u => Host.scatterAdd d x i u) (broadcastInDim SN ![] hb0 (constant S0 .f32 0x3F800000#32)) idx
          (broadcastInDim SE ![] hb1 (constant S0 .f32 0x3F800000#32)))) i₂)) := by
  real_valued

/-- A dense layer with a bias and a relu: a contraction of real-valued arrays, plus a broadcast bias, against zero. -/
example (dd : DotDims SNK SKD SND) (x : FVec Ideal SNK .f32) (w : FVec Ideal SKD .f32) (b : FVec Ideal SD .f32)
    (hb0 : S0.BroadcastsInDim SND ![]) (hb1 : SD.BroadcastsInDim S1D ![1]) (hb2 : S1D.BroadcastsInDim SND ![0, 1])
    (hx : IsReal x) (hw : IsReal w) (hbias : IsReal b) :
    IsReal (maximumf (F := Ideal)
      (addf ((fun l r => Host.dotGeneral dd none l r) x w) (broadcastInDim SND ![0, 1] hb2 (broadcastInDim S1D ![1] hb1 b)))
      (broadcastInDim SND ![] hb0 (constant S0 .f32 0x00000000#32))) := by
  real_valued

/-- Labels read as floats, negated. -/
example (v : IVec SN 32) : IsReal (Host.negf (F := Ideal) (sitofp .f32 v)) := by
  real_valued

/-- A leaf the tactic does not know is left as a goal: here an input known finite by a precondition. -/
example (x y : FVec Ideal SN .f32) (hx : IsReal x) (hy : ∀ i, y i ≠ ⊤ ∧ y i ≠ ⊥) :
    IsReal (addf (F := Ideal) x (mulf y x)) := by
  real_valued
  exact isReal_of_finite hy

/-- A host program's term as such a program is written: generic in the float values, each operation applied at its
    buffers' contents types. -/
private def edgeWeights {F : FTy → Type} [FloatOps F] (d : ScatterDims SN SE1 SE) (g : GatherDims SN SE1 SE)
    (idx i₁ : IVec SE1 32) (hb0 : S0.BroadcastsInDim SN ![]) (hb1 : S0.BroadcastsInDim SE ![])
    (hbe : SE.BroadcastsInDim SE1 ![0]) (x : FVec F SE1 .f32) : FVec F SE1 .f32 :=
  (mulf : (⟨SE1, .f32⟩ : BufTy).Contents (Elt F) → (⟨SE1, .f32⟩ : BufTy).Contents (Elt F)
      → (⟨SE1, .f32⟩ : BufTy).Contents (Elt F))
    ((broadcastInDim SE1 ![0] hbe : (⟨SE, .f32⟩ : BufTy).Contents (Elt F) → (⟨SE1, .f32⟩ : BufTy).Contents (Elt F))
      (((fun x i => Host.gather g x i) : (⟨SN, .f32⟩ : BufTy).Contents (Elt F) → (⟨SE1, .i32⟩ : BufTy).Contents (Elt F)
          → (⟨SE, .f32⟩ : BufTy).Contents (Elt F))
        ((Host.rsqrt : (⟨SN, .f32⟩ : BufTy).Contents (Elt F) → (⟨SN, .f32⟩ : BufTy).Contents (Elt F))
          (((fun x i u => Host.scatterAdd d x i u) : (⟨SN, .f32⟩ : BufTy).Contents (Elt F)
              → (⟨SE1, .i32⟩ : BufTy).Contents (Elt F) → (⟨SE, .f32⟩ : BufTy).Contents (Elt F)
              → (⟨SN, .f32⟩ : BufTy).Contents (Elt F))
            ((broadcastInDim SN ![] hb0 : (⟨S0, .f32⟩ : BufTy).Contents (Elt F) → (⟨SN, .f32⟩ : BufTy).Contents (Elt F))
              (constant S0 .f32 0x3F800000#32))
            idx
            ((broadcastInDim SE ![] hb1 : (⟨S0, .f32⟩ : BufTy).Contents (Elt F) → (⟨SE, .f32⟩ : BufTy).Contents (Elt F))
              (constant S0 .f32 0x3F800000#32))))
        i₁))
    x

/-- Read at the ideal values, that term is real-valued when its input is. -/
example (d : ScatterDims SN SE1 SE) (g : GatherDims SN SE1 SE) (idx i₁ : IVec SE1 32) (hb0 : S0.BroadcastsInDim SN ![])
    (hb1 : S0.BroadcastsInDim SE ![]) (hbe : SE.BroadcastsInDim SE1 ![0]) (x : FVec Ideal SE1 .f32) (hx : IsReal x) :
    IsReal (edgeWeights (F := Ideal) d g idx i₁ hb0 hb1 hbe x) := by
  unfold edgeWeights
  real_valued

end Usage

end RealValued
-- ==== Proof.LibIdealReal.lean ====
/-
  Operations of the ideal instance on entries that are real numbers.

  At the ideal values a float is an extended real. When the entries in play are real numbers — every input finite,
  every count a natural number — each operation of a program is the real operation under the embedding `ℝ → EReal`:
  sums, quotients by a non-zero real, comparisons, a bit read as a float, a select on a decided bit. One lemma each,
  so that a program's value can be carried as the embedding of a real-valued expression.
-/
import Idealize.ShloMosaic.PureOps.Ideal
import Idealize.ShloMosaic.PureOps.Ideal.Laws

noncomputable section

namespace IdealReal

open Idealize.ShloMosaic
open scoped BigOperators

/-- The embedding of a finite sum of reals is the sum of the embeddings. -/
theorem coe_sum {α : Type} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The ideal quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, ← div_eq_mul_one_div]

/-- Comparisons of two reals at the ideal instance decide the real comparison. -/
theorem cmp_ogt_coe (a b : ℝ) : Ideal.cmp .ogt (a : EReal) (b : EReal) = BitVec.ofBool (decide (b < a)) := by
  simp only [Ideal.cmp, EReal.coe_lt_coe_iff]
theorem cmp_oge_coe (a b : ℝ) : Ideal.cmp .oge (a : EReal) (b : EReal) = BitVec.ofBool (decide (b ≤ a)) := by
  simp only [Ideal.cmp, EReal.coe_le_coe_iff]
theorem cmp_oeq_coe (a b : ℝ) : Ideal.cmp .oeq (a : EReal) (b : EReal) = BitVec.ofBool (decide (a = b)) := by
  simp only [Ideal.cmp, EReal.coe_eq_coe_iff]
theorem cmp_une_coe (a b : ℝ) : Ideal.cmp .une (a : EReal) (b : EReal) = BitVec.ofBool (decide (a ≠ b)) := by
  simp only [Ideal.cmp, ne_eq, EReal.coe_eq_coe_iff]

/-- The f32 patterns of 0, 1 and 1024 denote those reals. -/
theorem ofBits_zero_f32 : Ideal.ofBits .f32 0x00000000#32 = ((0 : ℝ) : EReal) := by
  simp [Ideal.ofBits, Ideal.ieee]
theorem ofBits_one_f32 : Ideal.ofBits .f32 0x3F800000#32 = ((1 : ℝ) : EReal) := by
  simp [Ideal.ofBits, Ideal.ieee, -EReal.coe_mul]; norm_num
theorem ofBits_1024_f32 : Ideal.ofBits .f32 0x44800000#32 = ((1024 : ℝ) : EReal) := by
  simp [Ideal.ofBits, Ideal.ieee, -EReal.coe_mul]; norm_num

/-- A decided bit widened to a word and read as a signed integer is 1 or 0. -/
theorem sitofp_setWidth_ofBool (p : Bool) :
    FloatOps.sitofp (F := Ideal) .f32 ((BitVec.ofBool p).setWidth 32) = (((if p then 1 else 0 : ℝ)) : EReal) := by
  cases p <;> simp [FloatOps.sitofp]
/-- A decided bit read as an unsigned integer is 1 or 0. -/
theorem uitofp_ofBool (p : Bool) :
    FloatOps.uitofp (F := Ideal) .f32 (BitVec.ofBool p) = (((if p then 1 else 0 : ℝ)) : EReal) := by
  cases p <;> simp [FloatOps.uitofp]
/-- A select on a decided bit is the `if`. -/
theorem select_ofBool {α : Type} (p : Bool) (a b : α) : Scalar.select (BitVec.ofBool p) a b = if p then a else b := by
  cases p <;> rfl

/-- The logistic function of a real: `1 / (1 + e^(-r))`, a real in (0, 1). -/
theorem logistic_coe (r : ℝ) : Ideal.logistic (r : EReal) = (((1 + Real.exp (-r))⁻¹ : ℝ) : EReal) := Ideal.logistic_coe r

end IdealReal

end
-- ==== Proof.SpecLaws.lean ====
/-
  The laws that join the tiled form of a layer to its whole-array form, on the extended reals:
  regrouping a sum over all rows by tiles; the quotient by a non-zero degree as a product with its reciprocal;
  the variance as "mean of squares minus squared mean" against "mean of squared deviations", equal on real entries and
  never negative; the pooled sums regrouped; and which of these arrays have real entries.
-/
import proofs.«414989_j78658031059101_2_alg».proof.Proof.Spec
import proofs.«414989_j78658031059101_2_alg».proof.Proof.LibRealValued
import proofs.«414989_j78658031059101_2_alg».proof.Proof.LibIdealReal

noncomputable section

namespace Cert.Spec

open Idealize.ShloMosaic Idealize.ShloMosaic.ValueIdx RealValued
open scoped BigOperators

/-- The map from a tile and a row within it to the row of the node axis is one-to-one and onto:
    row n lies in tile n / 4000 at place n % 4000. -/
theorem tileRow_bijective : Function.Bijective (fun x : Fin 25 × Fin 4000 => tileRow x.1 x.2) := by
  constructor
  · rintro ⟨t, r⟩ ⟨t', r'⟩ h
    have h' : t.val * 4000 + r.val = t'.val * 4000 + r'.val := congrArg Fin.val h
    have ht := t.isLt; have hr := r.isLt; have ht' := t'.isLt; have hr' := r'.isLt
    have h1 : t.val = t'.val := by omega
    have h2 : r.val = r'.val := by omega
    exact Prod.ext (Fin.ext h1) (Fin.ext h2)
  · intro n
    have hn := n.isLt
    refine ⟨(⟨n.val / 4000, by omega⟩, ⟨n.val % 4000, by omega⟩), ?_⟩
    apply Fin.ext
    show n.val / 4000 * 4000 + n.val % 4000 = n.val
    omega

/-- The rows of the 25 tiles are exactly the 100000 rows, once each. -/
theorem tile_regroup (f : Fin 100000 → EReal) : ∑ t : Fin 25, ∑ r : Fin 4000, f (tileRow t r) = ∑ n : Fin 100000, f n := by
  rw [← Fintype.sum_prod_type' (fun t r => f (tileRow t r))]
  exact Fintype.sum_bijective _ tileRow_bijective _ _ (fun _ => rfl)

/-- Sign 0, exponent 143, fraction 0x435000: (2 ^ 23 + 4411392) · 2 ^ (-7) = 100000. -/
theorem nNodes_eq : nNodes = ((100000 : ℝ) : EReal) := by
  unfold nNodes
  simp [Ideal.ofBits, Ideal.ieee, -EReal.coe_mul]; norm_num

/-- Sign 0, exponent 110, fraction 0x27C5AC: (2 ^ 23 + 2606508) · 2 ^ (-40), a positive real. -/
theorem eps_pos : ∃ e : ℝ, 0 < e ∧ eps = (e : EReal) := by
  refine ⟨(10995116 : ℝ) * (2 : ℝ) ^ (-40 : ℤ), by positivity, ?_⟩
  unfold eps
  simp [Ideal.ofBits, Ideal.ieee, -EReal.coe_mul]

/-- A product with the reciprocal of a non-zero number is the quotient by it. -/
theorem mul_inv_eq_div (a d : EReal) (hd : d ≠ 0) : a * Ideal.div 1 d = Ideal.div a d := by
  unfold Ideal.div
  rw [if_neg hd, if_neg hd, one_mul]

/-- The real identity behind the variance law: with m the mean, ∑ (r - m)² = ∑ r² - 2 m ∑ r + N m², and
    m = (∑ r) / N. -/
theorem var_real (r : Fin 100000 → ℝ) :
    (∑ n, r n * r n) / 100000 - (∑ n, r n) / 100000 * ((∑ n, r n) / 100000)
      = (∑ n, (r n - (∑ n, r n) / 100000) * (r n - (∑ n, r n) / 100000)) / 100000 := by
  have expand : ∀ m : ℝ, ∑ n, (r n - m) * (r n - m) = (∑ n, r n * r n) - 2 * m * (∑ n, r n) + 100000 * (m * m) := by
    intro m
    have hpt : ∀ n, (r n - m) * (r n - m) = r n * r n - 2 * m * r n + m * m := fun n => by ring
    rw [Finset.sum_congr rfl (fun n _ => hpt n), Finset.sum_add_distrib, Finset.sum_sub_distrib, ← Finset.mul_sum,
      Finset.sum_const, Finset.card_univ, Fintype.card_fin, nsmul_eq_mul]
    norm_num
  rw [expand]
  field_simp
  ring

/-- On real entries the mean of squares minus the squared mean is the mean of the squared deviations, and is not negative. -/
theorem var_law (h : Fin 100000 → EReal) (hr : ∀ n, ∃ r : ℝ, h n = (r : EReal)) :
    max (Ideal.div (∑ n, h n * h n) nNodes - Ideal.div (∑ n, h n) nNodes * Ideal.div (∑ n, h n) nNodes) 0
      = Ideal.div (∑ n, (h n - Ideal.div (∑ n, h n) nNodes) * (h n - Ideal.div (∑ n, h n) nNodes)) nNodes := by
  choose r hr using hr
  have hN : (100000 : ℝ) ≠ 0 := by norm_num
  have e2 : ∑ n, h n = ((∑ n, r n : ℝ) : EReal) := by
    rw [IdealReal.coe_sum]; exact Finset.sum_congr rfl fun n _ => hr n
  have e1 : ∑ n, h n * h n = ((∑ n, r n * r n : ℝ) : EReal) := by
    rw [IdealReal.coe_sum]; exact Finset.sum_congr rfl fun n _ => by rw [hr n, EReal.coe_mul]
  have em : Ideal.div (∑ n, h n) nNodes = (((∑ n, r n) / 100000 : ℝ) : EReal) := by
    rw [e2, nNodes_eq, IdealReal.div_coe_coe _ _ hN]
  have e3 : ∑ n, (h n - Ideal.div (∑ n, h n) nNodes) * (h n - Ideal.div (∑ n, h n) nNodes)
      = ((∑ n, (r n - (∑ n, r n) / 100000) * (r n - (∑ n, r n) / 100000) : ℝ) : EReal) := by
    rw [IdealReal.coe_sum]
    exact Finset.sum_congr rfl fun n _ => by rw [em, hr n, ← EReal.coe_sub, ← EReal.coe_mul]
  have nonneg : 0 ≤ (∑ n, (r n - (∑ n, r n) / 100000) * (r n - (∑ n, r n) / 100000)) / 100000 :=
    div_nonneg (Finset.sum_nonneg fun n _ => mul_self_nonneg _) (by norm_num)
  rw [e3, em, e1, nNodes_eq, IdealReal.div_coe_coe _ _ hN, IdealReal.div_coe_coe _ _ hN, ← EReal.coe_mul, ← EReal.coe_sub,
    var_real r]
  exact max_eq_left (EReal.coe_nonneg.mpr nonneg)

theorem sum_tileSum (H : Arr ⟨2, ![100000, 128]⟩) (c : Fin 128) :
    ∑ t : Fin 25, tileSum H (ix3 t 0 c) = ∑ n : Fin 100000, H (ix2 n c) :=
  tile_regroup fun n => H (ix2 n c)

theorem sum_tileSumSq (H : Arr ⟨2, ![100000, 128]⟩) (c : Fin 128) :
    ∑ t : Fin 25, tileSumSq H (ix3 t 0 c) = ∑ n : Fin 100000, H (ix2 n c) * H (ix2 n c) :=
  tile_regroup fun n => H (ix2 n c) * H (ix2 n c)

theorem sum_pool (H2 : Arr ⟨2, ![100000, 128]⟩) (mu var g beta : Arr ⟨2, ![1, 128]⟩) (X1 : Arr ⟨2, ![100000, 128]⟩)
    (bt : (⟨2, ![100000, 1]⟩ : Shape).Idx → BitVec 32) (gr d : Fin 128) :
    ∑ t : Fin 25, pool H2 mu var g beta X1 bt (ix3 t gr d)
      = graphSum (fun j => X1 j + bnrelu H2 mu var g beta j) (fun n => bt (ix2 n 0)) gr d :=
  tile_regroup fun n => onehot (bt (ix2 n 0)) gr * (X1 (ix2 n d) + bnreluAt H2 mu var g beta n d)

/-! ## Real entries -/

theorem muRow_real {H : Arr ⟨2, ![100000, 128]⟩} (hH : IsReal H) : IsReal (muRow H) := by
  intro i
  obtain ⟨s, hs⟩ := isReal_sum_univ (fun n : Fin 100000 => H (ix2 n (i 1))) fun n => hH _
  refine ⟨s / 100000, ?_⟩
  show Ideal.div (∑ n : Fin 100000, H (ix2 n (i 1))) nNodes = _
  rw [hs, nNodes_eq, IdealReal.div_coe_coe _ _ (by norm_num)]

/-- The variance row has real entries that are not negative. -/
theorem varRow_nonneg {H : Arr ⟨2, ![100000, 128]⟩} (hH : IsReal H) : ∀ i, ∃ v : ℝ, 0 ≤ v ∧ varRow H i = (v : EReal) := by
  intro i
  obtain ⟨q, hq⟩ := isReal_sum_univ (fun n : Fin 100000 => H (ix2 n (i 1)) * H (ix2 n (i 1))) fun n => real_mul (hH _) (hH _)
  have hdiv : ∃ x : ℝ, Ideal.div (∑ n : Fin 100000, H (ix2 n (i 1)) * H (ix2 n (i 1))) nNodes = (x : EReal) :=
    ⟨q / 100000, by rw [hq, nNodes_eq, IdealReal.div_coe_coe _ _ (by norm_num)]⟩
  obtain ⟨v, hv⟩ : ∃ v : ℝ, varRow H i = (v : EReal) :=
    real_max (real_sub hdiv (real_mul (muRow_real hH i) (muRow_real hH i))) ⟨0, rfl⟩
  refine ⟨v, ?_, hv⟩
  have h0 : (0 : EReal) ≤ varRow H i := le_max_right _ _
  rw [hv] at h0
  exact EReal.coe_nonneg.mp h0

theorem lin8_real {A X : Arr ⟨2, ![100000, 8]⟩} {invD : Arr ⟨2, ![100000, 1]⟩} {WlT : Arr ⟨2, ![8, 128]⟩} {b : Arr ⟨2, ![1, 128]⟩}
    {WrT : Arr ⟨2, ![8, 128]⟩} (hA : IsReal A) (hX : IsReal X) (hD : IsReal invD) (hWl : IsReal WlT) (hb : IsReal b) (hWr : IsReal WrT) :
    IsReal (lin8 A X invD WlT b WrT) := fun _ =>
  real_add (real_add (isReal_sum_univ _ fun _ => real_mul (real_mul (hA _) (hD _)) (hWl _)) (hb _))
    (isReal_sum_univ _ fun _ => real_mul (hX _) (hWr _))

theorem lin128_real {A X : Arr ⟨2, ![100000, 128]⟩} {invD : Arr ⟨2, ![100000, 1]⟩} {WlT : Arr ⟨2, ![128, 128]⟩} {b : Arr ⟨2, ![1, 128]⟩}
    {WrT : Arr ⟨2, ![128, 128]⟩} (hA : IsReal A) (hX : IsReal X) (hD : IsReal invD) (hWl : IsReal WlT) (hb : IsReal b) (hWr : IsReal WrT) :
    IsReal (lin128 A X invD WlT b WrT) := fun _ =>
  real_add (real_add (isReal_sum_univ _ fun _ => real_mul (real_mul (hA _) (hD _)) (hWl _)) (hb _))
    (isReal_sum_univ _ fun _ => real_mul (hX _) (hWr _))

/-- With a real mean row, a real non-negative variance row and real scale and shift rows, the normalised rectified array is real. -/
theorem bnrelu_real {H : Arr ⟨2, ![100000, 128]⟩} {mu var g beta : Arr ⟨2, ![1, 128]⟩} (hH : IsReal H) (hmu : IsReal mu)
    (hvar : ∀ i, ∃ v : ℝ, 0 ≤ v ∧ var i = (v : EReal)) (hg : IsReal g) (hbeta : IsReal beta) : IsReal (bnrelu H mu var g beta) := by
  intro j
  obtain ⟨e, he, hee⟩ := eps_pos
  obtain ⟨v, hv, hvv⟩ := hvar (ix2 0 (j 1))
  have hpos : ∃ x : ℝ, 0 < x ∧ var (ix2 0 (j 1)) + eps = (x : EReal) :=
    ⟨v + e, by linarith, by rw [hvv, hee, EReal.coe_add]⟩
  obtain ⟨s, _, hs⟩ := rsqrt_of_pos hpos
  exact real_max (real_add (real_mul (real_mul (hg _) (real_sub (hH _) (hmu _))) ⟨s, hs⟩) (hbeta _)) ⟨0, rfl⟩

end Cert.Spec

end
-- ==== Proof.LibRowOps.lean ====
/-
  Row-wise operations of an [n, m] array read at an index, over the extended reals.

  A kernel that reduces each row of a block with keepdims, and the host that reduces each row of the whole array,
  meet the same handful of operations: a sum or a maximum along axis 1 read at row r; a vector [n] recast as a
  column [n, 1]; a column [n, 1] broadcast along the rows of [n, m]; two columns laid side by side as [n, 2]; and,
  on the host, a column of [n, 2] cut out and recast as a vector [n]. Each is stated here once, at any extents, with
  indices written by their coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowOps

open Idealize.ShloMosaic Idealize.ShloMosaic.ValueIdx

variable {α : Type}

/-! ## The index of row r with column k put back -/

/-- Over row index r, the source index whose coordinate on the dropped axis 1 is k is (r, k). -/
theorem lift_row {n m : ℕ} (h : (⟨2, ![n, m]⟩ : Shape).Reduces [1] ⟨1, ![n]⟩) (r : Fin n)
    (k : Fin ((⟨2, ![n, m]⟩ : Shape).size 1)) : h.lift (ix1 r) k = ix2 r (⟨k.val, k.isLt⟩ : Fin m) := by
  funext c; apply Fin.ext
  fin_cases c <;> rfl

/-! ## A kernel's lane reductions along axis 1 -/

/-- A float sum along axis 1, at row r, is the sum of the row's entries. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin m, src (ix2 r k) := by
  refine (Ideal.multiReduction_add_single src acc h hφ hacc (ix1 r)).trans ?_
  exact Finset.sum_congr rfl fun k _ => congrArg src (lift_row h r k)

/-- A float maximum along axis 1, at row r, is the fold of max over the row's entries from the accumulator's value. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ) (r : Fin n) :
    multiReduction .maximumf [1] ⟨1, ![n]⟩ src acc h hφ hacc (ix1 r)
      = (Finset.univ : Finset (Fin m)).fold max (Ideal.ofBits φ acc) (fun k => src (ix2 r k)) := by
  refine (Ideal.multiReduction_maximumf_single src acc h hφ hacc (ix1 r)).trans ?_
  have hf : (src ∘ h.lift (ix1 r)) = fun k : Fin m => src (ix2 r k) := funext fun k => congrArg src (lift_row h r k)
  exact congrArg (fun f => Finset.fold max (Ideal.ofBits φ acc) f (Finset.univ : Finset (Fin m))) hf

/-! ## The host's reductions along axis 1 -/

/-- The host's maximum along axis 1, at row r, is the fold of max over the row's entries from the initial value. -/
theorem hostRowMax_apply {n m : ℕ} {φ : FTy} {u : Shape} (x : FVec Ideal ⟨2, ![n, m]⟩ φ) (init : u.Idx → Ideal φ)
    (h' : (⟨2, ![n, m]⟩ : Shape).ReducesTo [1] ⟨1, ![n]⟩) (h : (⟨2, ![n, m]⟩ : Shape).Reduces [1] ⟨1, ![n]⟩) (hu : 0 < u.numel) (r : Fin n) :
    Host.reduce FloatOps.maximumf x init h' hu (ix1 r)
      = (Finset.univ : Finset (Fin m)).fold max (init (Shape.Idx.first hu)) (fun k => x (ix2 r k)) := by
  refine (Host.reduce_eq_fold_single FloatOps.maximumf x init h' h hu (ix1 r)).trans ?_
  have hf : (x ∘ h.lift (ix1 r)) = fun k : Fin m => x (ix2 r k) := funext fun k => congrArg x (lift_row h r k)
  exact congrArg (fun f => Finset.fold max (init (Shape.Idx.first hu)) f (Finset.univ : Finset (Fin m))) hf

/-! ## Columns -/

/-- A vector [n] recast as a column [n, 1] reads, at (r, u), entry r. -/
theorem shapeCast_a_a1_apply {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column [n, 1] recast as a vector [n] reads, at r, the column at (r, 0). -/
theorem shapeCast_a1_a_apply {n : ℕ} (x : (⟨2, ![n, 1]⟩ : Shape).Idx → α) (h : (⟨2, ![n, 1]⟩ : Shape).ShapeCasts ⟨1, ![n]⟩)
    (r : Fin n) : shapeCast ⟨1, ![n]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- A column [n, 1] broadcast along the rows of [n, m] (m at least 2, n at least 2) reads, at (r, k), the column at (r, 0). -/
theorem broadcastTo_a1_ab_apply {n m : ℕ} (hn : n ≠ 1) (v : (⟨2, ![n, 1]⟩ : Shape).Idx → α)
    (h : (⟨2, ![n, 1]⟩ : Shape).Broadcasts ⟨2, ![n, m]⟩) (r : Fin n) (k : Fin m) :
    broadcastTo ⟨2, ![n, m]⟩ v h (ix2 r k) = v (ix2 r (0 : Fin 1)) := by
  refine broadcastTo_apply v h (ix2 r k) (ix2 r (0 : Fin 1)) fun ax => ?_
  match ax with
  | ⟨0, _⟩ =>
    show r.val = if n = 1 then 0 else r.val
    rw [if_neg hn]
  | ⟨1, _⟩ => rfl

/-- Two columns [n, 1] laid side by side as [n, 2] read, at (r, 0), the first column at (r, 0). -/
theorem concat_cols_left {n : ℕ} (x₁ x₂ : (⟨2, ![n, 1]⟩ : Shape).Idx → α)
    (h : Shape.Concatenates [(⟨2, ![n, 1]⟩ : Shape), ⟨2, ![n, 1]⟩] ⟨2, ![n, 2]⟩ 1) (r : Fin n) :
    concatenate ⟨2, ![n, 2]⟩ 1 [⟨⟨2, ![n, 1]⟩, x₁⟩, ⟨⟨2, ![n, 1]⟩, x₂⟩] h (ix2 r (0 : Fin 2)) = x₁ (ix2 r (0 : Fin 1)) :=
  concatenate_pair_apply_left 1 x₁ x₂ h (ix2 r (0 : Fin 2)) rfl (ix2 r (0 : Fin 1)) (fun b => by
    match b with
    | ⟨0, _⟩ => rfl
    | ⟨1, _⟩ => rfl)

/-- … and, at (r, 1), the second column at (r, 0). -/
theorem concat_cols_right {n : ℕ} (x₁ x₂ : (⟨2, ![n, 1]⟩ : Shape).Idx → α)
    (h : Shape.Concatenates [(⟨2, ![n, 1]⟩ : Shape), ⟨2, ![n, 1]⟩] ⟨2, ![n, 2]⟩ 1) (r : Fin n) :
    concatenate ⟨2, ![n, 2]⟩ 1 [⟨⟨2, ![n, 1]⟩, x₁⟩, ⟨⟨2, ![n, 1]⟩, x₂⟩] h (ix2 r (1 : Fin 2)) = x₂ (ix2 r (0 : Fin 1)) :=
  concatenate_pair_apply_right 1 x₁ x₂ h (ix2 r (1 : Fin 2)) rfl rfl (ix2 r (0 : Fin 1)) (fun b hb => by
    match b with
    | ⟨0, _⟩ => rfl
    | ⟨1, _⟩ => exact absurd rfl hb) rfl

/-- Column c of an [n, 2] array, cut out as [n, 1], reads at (r, 0) the array at (r, c). -/
theorem slice_col_apply {n : ℕ} (c : Fin 2) (X : (⟨2, ![n, 2]⟩ : Shape).Idx → α)
    (h : (⟨2, ![n, 2]⟩ : Shape).Slices ![0, c.val] ⟨2, ![n, 1]⟩) (r : Fin n) :
    extractStridedSlice ⟨2, ![n, 1]⟩ ![0, c.val] X h (ix2 r (0 : Fin 1)) = X (ix2 r c) :=
  slice2_axis1_apply c.val X h r (0 : Fin 1) c rfl

end Cert.RowOps

end
-- ==== Proof.KHost.lean ====
/-
  The host stretches between the regions of the tiled program, read at the extended reals: the mean and variance rows
  from the tile-by-tile partial sums, a vector of 128 entries recast as a row, the reciprocal-degree column, the
  graph-number column, and the widening of the gathered rows.
-/
import proofs.«414989_j78658031059101_2_alg».proof.KernelIdeal
import proofs.«414989_j78658031059101_2_alg».proof.Proof.Gen.ReferenceIdeal.Read
import proofs.«414989_j78658031059101_2_alg».proof.Proof.Spec
import proofs.«414989_j78658031059101_2_alg».proof.Proof.SpecLaws
import proofs.«414989_j78658031059101_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KHost

open Cert.KernelIdeal Cert.Spec
open Idealize.ShloMosaic Idealize.ShloMosaic.ValueIdx

variable [Facts₀]
open Facts₀

/-! ## The mean and variance rows from the partial sums -/

/-- The sum over the 25 tiles of an array of partial sums, as a row. -/
def ksum (S : Arr ⟨3, ![25, 1, 128]⟩) : Arr ⟨2, ![1, 128]⟩ :=
  Host.reduceAdd (F := Ideal) (s := S25x1x128) (φ := .f32) S (constant (F := Ideal) S_ .f32 0x00000000#32)
    reducesTo_S25x1x128_S1x128_d0 h_S_

/-- The mean row: the sum of the partial sums over the number of nodes. -/
def kmu (S : Arr ⟨3, ![25, 1, 128]⟩) : Arr ⟨2, ![1, 128]⟩ :=
  Host.divf (F := Ideal) (s := S1x128) (φ := .f32)
    (Host.reduceAdd (F := Ideal) (s := S25x1x128) (φ := .f32) S (constant (F := Ideal) S_ .f32 0x00000000#32)
      reducesTo_S25x1x128_S1x128_d0 h_S_)
    (broadcastInDim S1x128 ![] bcast_S_S1x128 (constant (F := Ideal) S_ .f32 0x47C35000#32))

/-- The variance row: the mean of the squares minus the squared mean, not below zero. -/
def kvar (S Q : Arr ⟨3, ![25, 1, 128]⟩) : Arr ⟨2, ![1, 128]⟩ :=
  maximumf (F := Ideal) (s := S1x128) (φ := .f32)
    (subf (F := Ideal) (s := S1x128) (φ := .f32)
      (Host.divf (F := Ideal) (s := S1x128) (φ := .f32)
        (Host.reduceAdd (F := Ideal) (s := S25x1x128) (φ := .f32) Q (constant (F := Ideal) S_ .f32 0x00000000#32)
          reducesTo_S25x1x128_S1x128_d0 h_S_)
        (broadcastInDim S1x128 ![] bcast_S_S1x128 (constant (F := Ideal) S_ .f32 0x47C35000#32)))
      (mulf (F := Ideal) (s := S1x128) (φ := .f32) (kmu S) (kmu S)))
    (broadcastInDim S1x128 ![] bcast_S_S1x128 (constant (F := Ideal) S_ .f32 0x00000000#32))

/-- Every index of a row is (0, c). -/
theorem row_idx (i : (⟨2, ![1, 128]⟩ : Shape).Idx) : ∃ c : Fin 128, i = ix2 0 c := by
  obtain ⟨a, c, rfl⟩ : ∃ (a : Fin 1) (c : Fin 128), i = ix2 a c := ⟨i 0, i 1, eq_ix2 i⟩
  obtain rfl : a = 0 := Subsingleton.elim _ _
  exact ⟨c, rfl⟩

/-- The sum over axis 0 of an array of partial sums, at column c, is the sum of its 25 entries of that column. -/
theorem ksum_apply (S : Arr ⟨3, ![25, 1, 128]⟩) (c : Fin 128) : ksum S (ix2 0 c) = ∑ t : Fin 25, S (ix3 t 0 c) := by
  unfold ksum
  simp only [Host.reduceAdd, Ideal.hostReduceAdd_def]
  rw [Ideal.hostReduceAdd_single reducesTo_S25x1x128_S1x128_d0 (by decide)]
  have h0 : (constant (F := Ideal) S_ .f32 0x00000000#32) (Shape.Idx.first h_S_) = 0 := Ideal.ofBits_zero_f32
  rw [h0, zero_add]
  exact Finset.sum_congr rfl fun k _ => congrArg S (funext fun a => Fin.ext (by
    match a with
    | ⟨0, _⟩ => rfl
    | ⟨1, _⟩ => rfl
    | ⟨2, _⟩ => rfl))

theorem kmu_apply (S : Arr ⟨3, ![25, 1, 128]⟩) (c : Fin 128) :
    kmu S (ix2 0 c) = Ideal.div (∑ t : Fin 25, S (ix3 t 0 c)) nNodes := by
  show Ideal.div (ksum S (ix2 0 c)) (Ideal.ofBits .f32 0x47C35000#32) = _
  rw [ksum_apply]
  rfl

theorem kvar_apply (S Q : Arr ⟨3, ![25, 1, 128]⟩) (c : Fin 128) :
    kvar S Q (ix2 0 c) = max (Ideal.div (∑ t : Fin 25, Q (ix3 t 0 c)) nNodes - kmu S (ix2 0 c) * kmu S (ix2 0 c)) 0 := by
  show max (Ideal.div (ksum Q (ix2 0 c)) (Ideal.ofBits .f32 0x47C35000#32) - kmu S (ix2 0 c) * kmu S (ix2 0 c))
      (Ideal.ofBits .f32 0x00000000#32) = _
  rw [ksum_apply, Ideal.ofBits_zero_f32]
  rfl

/-- The mean row computed from the tile sums of an array is the array's mean row. -/
theorem kmu_tile (H : Arr ⟨2, ![100000, 128]⟩) : kmu (tileSum H) = muRow H := by
  funext i
  obtain ⟨c, rfl⟩ := row_idx i
  rw [kmu_apply, sum_tileSum]
  rfl

/-- The variance row computed from the tile sums and tile sums of squares of an array is the array's variance row. -/
theorem kvar_tile (H : Arr ⟨2, ![100000, 128]⟩) : kvar (tileSum H) (tileSumSq H) = varRow H := by
  funext i
  obtain ⟨c, rfl⟩ := row_idx i
  rw [kvar_apply, kmu_apply, sum_tileSum, sum_tileSumSq]
  rfl

/-! ## A vector of 128 entries recast as a row -/

/-- A vector [128] recast as a row [1, 128] reads, at (0, c), entry c. -/
theorem krow_apply {α : Type} (x : S128.Idx → α) (i : S1x128.Idx) :
    shapeCast S1x128 x shapeCasts_S128_S1x128 i = x (ix1 (i 1)) :=
  shapeCast_apply x shapeCasts_S128_S1x128 i (ix1 (i 1)) (by
    have h0 : (i 0).val = 0 := by have h1 : (i 0).val < 1 := (i 0).isLt; omega
    rw [Shape.rowMajor_val_two, Shape.rowMajor_val_one]
    show (i 1).val = (i 0).val * 128 + (i 1).val
    rw [h0, Nat.zero_mul, Nat.zero_add])

/-- The broadcast of a vector [128] along a new leading unit axis reads, at (0, c), entry c. -/
theorem ref_row_idx (i : Cert.ReferenceIdeal.S1x128.Idx) : Cert.ReferenceIdeal.Read.idx_main_v25 i = ix1 (i 1) := by
  funext a
  match a with
  | ⟨0, _⟩ => rfl

theorem krow_eq_v25 (x : Arr ⟨1, ![128]⟩) :
    shapeCast S1x128 x shapeCasts_S128_S1x128 = Cert.ReferenceIdeal.Read.val_main_v25 (F := Ideal) x := by
  funext i
  rw [krow_apply, Cert.ReferenceIdeal.Read.val_main_v25_apply]
  exact congrArg x (ref_row_idx i).symm

theorem krow_eq_v44 (x : Arr ⟨1, ![128]⟩) :
    shapeCast S1x128 x shapeCasts_S128_S1x128 = Cert.ReferenceIdeal.Read.val_main_v44 (F := Ideal) x := krow_eq_v25 x

theorem krow_eq_v53 (x : Arr ⟨1, ![128]⟩) :
    shapeCast S1x128 x shapeCasts_S128_S1x128 = Cert.ReferenceIdeal.Read.val_main_v53 (F := Ideal) x := krow_eq_v25 x

theorem krow_eq_v78 (x : Arr ⟨1, ![128]⟩) :
    shapeCast S1x128 x shapeCasts_S128_S1x128 = Cert.ReferenceIdeal.Read.val_main_v78 (F := Ideal) x := krow_eq_v25 x

theorem krow_eq_v97 (x : Arr ⟨1, ![128]⟩) :
    shapeCast S1x128 x shapeCasts_S128_S1x128 = Cert.ReferenceIdeal.Read.val_main_v97 (F := Ideal) x := krow_eq_v25 x

theorem krow_eq_v106 (x : Arr ⟨1, ![128]⟩) :
    shapeCast S1x128 x shapeCasts_S128_S1x128 = Cert.ReferenceIdeal.Read.val_main_v106 (F := Ideal) x := krow_eq_v25 x

/-! ## The reciprocal-degree column -/

/-- The column whose entry (n, 0) is one over the degree of node n. -/
def kinv (D : Arr ⟨1, ![100000]⟩) : Arr ⟨2, ![100000, 1]⟩ :=
  broadcastInDim S100000x1 ![0] bcast_S100000_S100000x1_0
    (Host.divf (F := Ideal) (s := S100000) (φ := .f32)
      (broadcastInDim S100000 ![] bcast_S_S100000 (constant (F := Ideal) S_ .f32 0x3F800000#32)) D)

theorem kinv_eq (D : Arr ⟨1, ![100000]⟩) : kinv D = invOf D := by
  funext i
  unfold kinv
  rw [broadcastInDim_apply _ bcast_S100000_S100000x1_0 _ i (ix1 (i 0)) (fun a => by
    match a with
    | ⟨0, _⟩ => show (i 0).val = if (100000 : Nat) = 1 then 0 else (i 0).val; rw [if_neg (by decide)])]
  show Ideal.div (Ideal.ofBits .f32 0x3F800000#32) (D (ix1 (i 0))) = Ideal.div 1 (D (ix1 (i 0)))
  rw [Ideal.ofBits_one_f32]

/-- The same, on the operations written out. -/
theorem kinv_term_eq (D : Arr ⟨1, ![100000]⟩) :
    broadcastInDim S100000x1 ![0] bcast_S100000_S100000x1_0
      (Host.divf (F := Ideal) (s := S100000) (φ := .f32)
        (broadcastInDim S100000 ![] bcast_S_S100000 (constant (F := Ideal) S_ .f32 0x3F800000#32)) D) = invOf D :=
  kinv_eq D

/-! ## The graph-number column -/

/-- The graph numbers recast as a column read, at (n, 0), the number of node n. -/
theorem kbatch_apply (x2 : S100000.Idx → BitVec 32) (n : Fin 100000) :
    (shapeCast S100000x1 x2 shapeCasts_S100000_S100000x1) (ix2 n 0) = x2 (ix1 n) :=
  Cert.RowOps.shapeCast_a_a1_apply x2 shapeCasts_S100000_S100000x1 n 0

/-! ## The widening of the gathered rows -/

/-- On the extended reals a change of format is the identity. -/
theorem kext_eq (x : Arr ⟨2, ![1600000, 128]⟩) :
    (extf (F := Ideal) (s := S1600000x128) (φ := .bf16) .f32 x bitsLt_bf16_f32) = x := rfl

end Cert.KernelIdeal.KHost

end
-- ==== Proof.KS1.lean ====
/- What the second host stretch leaves in the buffers the second region reads: the mean and variance rows from the per-tile sums, the scale and shift rows, and what it leaves untouched. -/
import proofs.«414989_j78658031059101_2_alg».proof.Proof.Gen.KernelIdeal.Frame
import proofs.«414989_j78658031059101_2_alg».proof.Proof.Gen.ReferenceIdeal.Read
import proofs.«414989_j78658031059101_2_alg».proof.Proof.KHost
import Idealize.ShloMosaic.Lib.StableHlo.Run

set_option maxRecDepth 16384

noncomputable section

namespace Cert.KernelIdeal.KS1

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

set_option maxHeartbeats 2000000 in
theorem V3_v30 (c : Dev nD) : V3 m ρ c main_v30
    = KHost.kmu (V2 m ρ c main_v26_1) := by
  dsimp only [V3, W3, hostOps1]
  after_results_simp
  rfl
set_option maxHeartbeats 2000000 in
theorem V3_v36 (c : Dev nD) : V3 m ρ c main_v36
    = KHost.kvar (V2 m ρ c main_v26_1) (V2 m ρ c main_v26_2) := by
  dsimp only [V3, W3, hostOps1]
  after_results_simp
  rfl
set_option maxHeartbeats 2000000 in
theorem V3_v37 (c : Dev nD) : V3 m ρ c main_v37
    = shapeCast S1x128 (V2 m ρ c main_arg6) shapeCasts_S128_S1x128 := by
  dsimp only [V3, W3, hostOps1]
  after_results_simp
  rfl
set_option maxHeartbeats 2000000 in
theorem V3_v38 (c : Dev nD) : V3 m ρ c main_v38
    = shapeCast S1x128 (V2 m ρ c main_arg7) shapeCasts_S128_S1x128 := by
  dsimp only [V3, W3, hostOps1]
  after_results_simp
  rfl
set_option maxHeartbeats 2000000 in
theorem V3_v26_0 (c : Dev nD) : V3 m ρ c main_v26_0
    = V2 m ρ c main_v26_0 := by
  dsimp only [V3, W3, hostOps1]
  after_results_simp
set_option maxHeartbeats 2000000 in
theorem V3_v1 (c : Dev nD) : V3 m ρ c main_v1
    = V2 m ρ c main_v1 := by
  dsimp only [V3, W3, hostOps1]
  after_results_simp
set_option maxHeartbeats 2000000 in
theorem V3_v3 (c : Dev nD) : V3 m ρ c main_v3
    = V2 m ρ c main_v3 := by
  dsimp only [V3, W3, hostOps1]
  after_results_simp
set_option maxHeartbeats 2000000 in
theorem V3_v12 (c : Dev nD) : V3 m ρ c main_v12
    = V2 m ρ c main_v12 := by
  dsimp only [V3, W3, hostOps1]
  after_results_simp
set_option maxHeartbeats 2000000 in
theorem V3_arg2 (c : Dev nD) : V3 m ρ c main_arg2
    = V2 m ρ c main_arg2 := by
  dsimp only [V3, W3, hostOps1]
  after_results_simp
set_option maxHeartbeats 2000000 in
theorem V3_arg8 (c : Dev nD) : V3 m ρ c main_arg8
    = V2 m ρ c main_arg8 := by
  dsimp only [V3, W3, hostOps1]
  after_results_simp
set_option maxHeartbeats 2000000 in
theorem V3_arg9 (c : Dev nD) : V3 m ρ c main_arg9
    = V2 m ρ c main_arg9 := by
  dsimp only [V3, W3, hostOps1]
  after_results_simp
set_option maxHeartbeats 2000000 in
theorem V3_arg10 (c : Dev nD) : V3 m ρ c main_arg10
    = V2 m ρ c main_arg10 := by
  dsimp only [V3, W3, hostOps1]
  after_results_simp
set_option maxHeartbeats 2000000 in
theorem V3_arg11 (c : Dev nD) : V3 m ρ c main_arg11
    = V2 m ρ c main_arg11 := by
  dsimp only [V3, W3, hostOps1]
  after_results_simp
set_option maxHeartbeats 2000000 in
theorem V3_arg12 (c : Dev nD) : V3 m ρ c main_arg12
    = V2 m ρ c main_arg12 := by
  dsimp only [V3, W3, hostOps1]
  after_results_simp

end Cert.KernelIdeal.KS1

end
-- ==== Proof.KS2.lean ====
/- What the third host stretch leaves in the buffers the third region reads: the neighbour sum of the first layer's output, the transposed weights, the bias row, and what it leaves untouched. -/
import proofs.«414989_j78658031059101_2_alg».proof.Proof.Gen.KernelIdeal.Frame
import proofs.«414989_j78658031059101_2_alg».proof.Proof.Gen.ReferenceIdeal.Read
import proofs.«414989_j78658031059101_2_alg».proof.Proof.KHost
import Idealize.ShloMosaic.Lib.StableHlo.Run

set_option maxRecDepth 16384

noncomputable section

namespace Cert.KernelIdeal.KS2

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

set_option maxHeartbeats 2000000 in
theorem V5_v50 (c : Dev nD) : V5 m ρ c main_v50
    = Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (V4 m ρ c main_v3)) (extf (F := Ideal) .f32 (Host.gather gather_S100000x128_S1600000x1_S1600000x128_1_0_n_n_0_1_1128 (V4 m ρ c main_v39) (broadcastInDim S1600000x1 ![0] bcast_S1600000_S1600000x1_0 (select (cmpi .slt (V4 m ρ c main_v1) (broadcastInDim S1600000 ![] bcast_S_S1600000 (constantI S_ 32 0#32))) (addi (V4 m ρ c main_v1) (broadcastInDim S1600000 ![] bcast_S_S1600000 (constantI S_ 32 100000#32))) (V4 m ρ c main_v1)))) bitsLt_bf16_f32) := by
  dsimp only [V5, W5, hostOps2]
  after_results_simp
set_option maxHeartbeats 2000000 in
theorem V5_v51 (c : Dev nD) : V5 m ρ c main_v51
    = transpose S128x128 [1, 0] (V4 m ρ c main_arg8) transposes_S128x128_S128x128_1_0 := by
  dsimp only [V5, W5, hostOps2]
  after_results_simp
set_option maxHeartbeats 2000000 in
theorem V5_v52 (c : Dev nD) : V5 m ρ c main_v52
    = shapeCast S1x128 (V4 m ρ c main_arg9) shapeCasts_S128_S1x128 := by
  dsimp only [V5, W5, hostOps2]
  after_results_simp
  rfl
set_option maxHeartbeats 2000000 in
theorem V5_v53 (c : Dev nD) : V5 m ρ c main_v53
    = transpose S128x128 [1, 0] (V4 m ρ c main_arg10) transposes_S128x128_S128x128_1_0 := by
  dsimp only [V5, W5, hostOps2]
  after_results_simp
set_option maxHeartbeats 2000000 in
theorem V5_v39 (c : Dev nD) : V5 m ρ c main_v39
    = V4 m ρ c main_v39 := by
  dsimp only [V5, W5, hostOps2]
  after_results_simp
set_option maxHeartbeats 2000000 in
theorem V5_v12 (c : Dev nD) : V5 m ρ c main_v12
    = V4 m ρ c main_v12 := by
  dsimp only [V5, W5, hostOps2]
  after_results_simp
set_option maxHeartbeats 2000000 in
theorem V5_arg2 (c : Dev nD) : V5 m ρ c main_arg2
    = V4 m ρ c main_arg2 := by
  dsimp only [V5, W5, hostOps2]
  after_results_simp
set_option maxHeartbeats 2000000 in
theorem V5_arg11 (c : Dev nD) : V5 m ρ c main_arg11
    = V4 m ρ c main_arg11 := by
  dsimp only [V5, W5, hostOps2]
  after_results_simp
set_option maxHeartbeats 2000000 in
theorem V5_arg12 (c : Dev nD) : V5 m ρ c main_arg12
    = V4 m ρ c main_arg12 := by
  dsimp only [V5, W5, hostOps2]
  after_results_simp

end Cert.KernelIdeal.KS2

end
-- ==== Proof.KS3.lean ====
/- What the fourth host stretch leaves in the buffers the last region reads: the second layer's mean and variance rows, its scale and shift rows, the batch column, and what it leaves untouched. -/
import proofs.«414989_j78658031059101_2_alg».proof.Proof.Gen.KernelIdeal.Frame
import proofs.«414989_j78658031059101_2_alg».proof.Proof.Gen.ReferenceIdeal.Read
import proofs.«414989_j78658031059101_2_alg».proof.Proof.KHost
import Idealize.ShloMosaic.Lib.StableHlo.Run

set_option maxRecDepth 16384

noncomputable section

namespace Cert.KernelIdeal.KS3

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

set_option maxHeartbeats 2000000 in
theorem V7_v58 (c : Dev nD) : V7 m ρ c main_v58
    = KHost.kmu (V6 m ρ c main_v54_1) := by
  dsimp only [V7, W7, hostOps3]
  after_results_simp
  rfl
set_option maxHeartbeats 2000000 in
theorem V7_v64 (c : Dev nD) : V7 m ρ c main_v64
    = KHost.kvar (V6 m ρ c main_v54_1) (V6 m ρ c main_v54_2) := by
  dsimp only [V7, W7, hostOps3]
  after_results_simp
  rfl
set_option maxHeartbeats 2000000 in
theorem V7_v65 (c : Dev nD) : V7 m ρ c main_v65
    = shapeCast S100000x1 (V6 m ρ c main_arg2) shapeCasts_S100000_S100000x1 := by
  dsimp only [V7, W7, hostOps3]
  after_results_simp
  rfl
set_option maxHeartbeats 2000000 in
theorem V7_v66 (c : Dev nD) : V7 m ρ c main_v66
    = shapeCast S1x128 (V6 m ρ c main_arg11) shapeCasts_S128_S1x128 := by
  dsimp only [V7, W7, hostOps3]
  after_results_simp
  rfl
set_option maxHeartbeats 2000000 in
theorem V7_v67 (c : Dev nD) : V7 m ρ c main_v67
    = shapeCast S1x128 (V6 m ρ c main_arg12) shapeCasts_S128_S1x128 := by
  dsimp only [V7, W7, hostOps3]
  after_results_simp
  rfl
set_option maxHeartbeats 2000000 in
theorem V7_v54_0 (c : Dev nD) : V7 m ρ c main_v54_0
    = V6 m ρ c main_v54_0 := by
  dsimp only [V7, W7, hostOps3]
  after_results_simp
set_option maxHeartbeats 2000000 in
theorem V7_v39 (c : Dev nD) : V7 m ρ c main_v39
    = V6 m ρ c main_v39 := by
  dsimp only [V7, W7, hostOps3]
  after_results_simp
set_option maxHeartbeats 2000000 in
theorem V7_arg2 (c : Dev nD) : V7 m ρ c main_arg2
    = V6 m ρ c main_arg2 := by
  dsimp only [V7, W7, hostOps3]
  after_results_simp

end Cert.KernelIdeal.KS3

end
-- ==== Proof.KHostFinal.lean ====
/-
  The kernel program's last host stretch, read entry by entry: the pooled partial sums added over the 25 tiles, over the
  clamped node count of the graph; and the clamped node count is the reference's.
-/
import proofs.«414989_j78658031059101_2_alg».proof.Proof.Gen.KernelIdeal
import proofs.«414989_j78658031059101_2_alg».proof.Proof.Gen.ReferenceIdeal.Read
import proofs.«414989_j78658031059101_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KHostFinal

open Cert.KernelIdeal Cert.KernelIdeal.Gen Cert.Spec
open Idealize.ShloMosaic Idealize.ShloMosaic.TcCoe Idealize.ShloMosaic.ValueIdx

/-- The node count of each graph, not below one, spread along the feature axis: ones scattered by graph number into
    zeros, the maximum with one, as a column, then along the columns. -/
def kcount (x2 : S100000.Idx → BitVec 32) : Arr ⟨2, ![128, 128]⟩ :=
  broadcastInDim S128x128 ![0, 1] bcast_S128x1_S128x128_0_1
    (broadcastInDim S128x1 ![0] bcast_S128_S128x1_0
      (maximumf (F := Ideal)
        (Host.scatterAdd (F := Ideal) scatter_S128_S100000x1_S100000_n_0_0_1
          (broadcastInDim S128 ![] bcast_S_S128 (constant (F := Ideal) S_ .f32 0x00000000#32))
          (broadcastInDim S100000x1 ![0] bcast_S100000_S100000x1_0 x2)
          (broadcastInDim S100000 ![] bcast_S_S100000 (constant (F := Ideal) S_ .f32 0x3F800000#32)))
        (broadcastInDim S128 ![] bcast_S_S128 (constant (F := Ideal) S_ .f32 0x3F800000#32))))

/-- The last host stretch: the partial sums added over the tile axis, divided by the clamped node count. -/
def kfinal (P : Arr ⟨3, ![25, 128, 128]⟩) (x2 : S100000.Idx → BitVec 32) : Arr ⟨2, ![128, 128]⟩ :=
  Host.divf (F := Ideal)
    (Host.reduceAdd (F := Ideal) (φ := .f32) P (constant (F := Ideal) S_ .f32 0x00000000#32) reducesTo_S25x128x128_S128x128_d0 h_S_)
    (kcount x2)

/-! The clamped node count, stage by stage, is the reference's: the two programs print the same operations there, and
    their shape constants and scatter record agree. -/

section CountStages

open Cert.ReferenceIdeal.Read

/-- The vector of ones that is scattered. -/
theorem ones_eq : broadcastInDim S100000 ![] bcast_S_S100000 (constant (F := Ideal) S_ .f32 0x3F800000#32)
    = val_main_v114 (F := Ideal) := rfl

/-- The zeros scattered into. -/
theorem zeros_eq : broadcastInDim S128 ![] bcast_S_S128 (constant (F := Ideal) S_ .f32 0x00000000#32)
    = val_main_v115 (F := Ideal) := rfl

/-- The graph numbers as a column of scatter indices. -/
theorem col_eq (x2 : S100000.Idx → BitVec 32) : broadcastInDim S100000x1 ![0] bcast_S100000_S100000x1_0 x2
    = val_main_v116 (F := Ideal) x2 := rfl

/-- The node count of each graph: the scatter of the ones by graph number into the zeros. -/
theorem seg_eq (x2 : S100000.Idx → BitVec 32) :
    Host.scatterAdd (F := Ideal) (φ := .f32) scatter_S128_S100000x1_S100000_n_0_0_1
      (val_main_v115 (F := Ideal)) (val_main_v116 (F := Ideal) x2) (val_main_v114 (F := Ideal))
    = val_main_v117 (F := Ideal) x2 := rfl

/-- The vector of ones the count is clamped by. -/
theorem one_eq : broadcastInDim S128 ![] bcast_S_S128 (constant (F := Ideal) S_ .f32 0x3F800000#32)
    = val_main_v118 (F := Ideal) := rfl

/-- The clamped count. -/
theorem max_eq (x2 : S100000.Idx → BitVec 32) :
    maximumf (F := Ideal) (φ := .f32) (val_main_v117 (F := Ideal) x2) (val_main_v118 (F := Ideal))
    = val_main_v119 (F := Ideal) x2 := rfl

/-- The clamped count as a column. -/
theorem bcol_eq (x2 : S100000.Idx → BitVec 32) : broadcastInDim S128x1 ![0] bcast_S128_S128x1_0 (val_main_v119 (F := Ideal) x2)
    = val_main_v120 (F := Ideal) x2 := rfl

/-- The clamped count spread along the feature axis. -/
theorem bfull_eq (x2 : S100000.Idx → BitVec 32) :
    broadcastInDim S128x128 ![0, 1] bcast_S128x1_S128x128_0_1 (val_main_v120 (F := Ideal) x2)
    = val_main_v121 (F := Ideal) x2 := rfl

end CountStages

/-- The kernel's clamped node count is the reference's. -/
theorem kcount_eq_ref (x2 : S100000.Idx → BitVec 32) :
    kcount x2 = Cert.ReferenceIdeal.Read.val_main_v121 (F := Ideal) x2 := by
  unfold kcount
  rw [ones_eq, zeros_eq, col_eq x2, seg_eq x2, one_eq, max_eq x2, bcol_eq x2, bfull_eq x2]

/-- The host's quotient of two arrays at an index is the quotient of the entries. -/
theorem divf_apply {s : Shape} (x y : FVec Ideal s .f32) (i : s.Idx) :
    Host.divf (F := Ideal) x y i = Ideal.div (x i) (y i) := rfl

/-- The zero constant at its one index is zero. -/
theorem zero0_apply (i : S_.Idx) : constant (F := Ideal) S_ .f32 0x00000000#32 i = 0 := Ideal.ofBits_zero_f32

set_option maxHeartbeats 400000 in
/-- The last host stretch at (g, d): the sum over the tiles of the partial sums there, over the clamped node count. -/
theorem kfinal_apply (P : Arr ⟨3, ![25, 128, 128]⟩) (x2 : S100000.Idx → BitVec 32) (gr d : Fin 128) :
    kfinal P x2 (ix2 gr d) = Ideal.div (∑ t : Fin 25, P (ix3 t gr d)) (kcount x2 (ix2 gr d)) := by
  unfold kfinal
  generalize kcount x2 = cnt
  rw [divf_apply]
  refine congrArg (fun t => Ideal.div t (cnt (ix2 gr d))) ?_
  simp only [Host.reduceAdd, Ideal.hostReduceAdd_def]
  rw [Ideal.hostReduceAdd_single reducesTo_S25x128x128_S128x128_d0 (by decide), zero0_apply, zero_add]
  refine Finset.sum_congr rfl fun k _ => ?_
  exact congrArg P (funext fun a => Fin.ext (by match a with | ⟨0, _⟩ => rfl | ⟨1, _⟩ => rfl | ⟨2, _⟩ => rfl))

/-- The same with the reference's clamped node count in the denominator. -/
theorem kfinal_apply_ref (P : Arr ⟨3, ![25, 128, 128]⟩) (x2 : S100000.Idx → BitVec 32) (gr d : Fin 128) :
    kfinal P x2 (ix2 gr d)
      = Ideal.div (∑ t : Fin 25, P (ix3 t gr d)) (Cert.ReferenceIdeal.Read.val_main_v121 (F := Ideal) x2 (ix2 gr d)) := by
  rw [kfinal_apply, kcount_eq_ref]

end Cert.KernelIdeal.KHostFinal

end
-- ==== Proof.KS4.lean ====
/- What the last host stretch leaves in the result buffer: the per-tile pooled sums added up and divided by the clamped node counts. -/
import proofs.«414989_j78658031059101_2_alg».proof.Proof.Gen.KernelIdeal.Frame
import proofs.«414989_j78658031059101_2_alg».proof.Proof.Gen.ReferenceIdeal.Read
import proofs.«414989_j78658031059101_2_alg».proof.Proof.KHostFinal
import Idealize.ShloMosaic.Lib.StableHlo.Run

set_option maxRecDepth 16384

noncomputable section

namespace Cert.KernelIdeal.KS4

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

set_option maxHeartbeats 2000000 in
theorem W9_v78 (c : Dev nD) : W9 m ρ c (Proc.devRef .tc main_v78)
    = KHostFinal.kfinal (V8 m ρ c main_v68) (V8 m ρ c main_arg2) := by
  dsimp only [W9, hostOps4]
  after_results_simp
  rfl

end Cert.KernelIdeal.KS4

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.KV0.lean ====
/-
  What the first linear region (8 input features) leaves in its three output arrays, whatever the buffer contents `V` it is entered with: block `t` of each output is the body's payload of the input blocks at `t`, the blocks tile the arrays, so each array is one function of the input arrays.
-/
import proofs.«414989_j78658031059101_2_alg».proof.Proof.Gen.KernelIdeal.Frame
import proofs.«414989_j78658031059101_2_alg».proof.Proof.Spec
import proofs.«414989_j78658031059101_2_alg».proof.Proof.LibPlainMatmul
import proofs.«414989_j78658031059101_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)
open scoped BigOperators

/-- The contraction of the two products of the body: rows of the left operand against columns of the right one. -/
theorem dot8_plain : dot_S4000x8_S8x128_S4000x128_1_0_0_1_n_n = DotDims.plain 4000 8 128 := rfl

set_option maxHeartbeats 400000 in
/-- One entry of the body's linear part over a tile's blocks. -/
theorem pay1_apply (v0 : Vec Ideal S4000x8 .f32) (v2 : Vec Ideal S4000x1 .f32) (v7 : Vec Ideal S4000x8 .f32)
    (v9 : Vec Ideal S8x128 .f32) (v12 : Vec Ideal S8x128 .f32) (v16 : Vec Ideal S1x128 .f32) (r : Fin 4000) (c : Fin 128) :
    k0_pay1 v0 v2 v7 v9 v12 v16 (ix2 r c)
      = (∑ k : Fin 8, (v0 (ix2 r k) * v2 (ix2 r 0)) * v9 (ix2 k c)) + v16 (ix2 0 c) + ∑ k : Fin 8, v7 (ix2 r k) * v12 (ix2 k c) := by
  unfold k0_pay1
  simp only [shapeCast_self, matmul]
  rw [addf_apply, addf_apply, dot8_plain, Cert.PlainMatmul.apply, Cert.PlainMatmul.apply]
  simp only [truncf_apply, mulf_apply, Cert.RowOps.broadcastTo_a1_ab_apply (n := 4000) (by decide), broadcastTo_1b_ab_apply]

/-- The truncated copy that is stored: at the extended reals a change of format keeps the value. -/
theorem pay2_apply (v0 : Vec Ideal S4000x8 .f32) (v2 : Vec Ideal S4000x1 .f32) (v7 : Vec Ideal S4000x8 .f32)
    (v9 : Vec Ideal S8x128 .f32) (v12 : Vec Ideal S8x128 .f32) (v16 : Vec Ideal S1x128 .f32) (j : S4000x128.Idx) :
    k0_pay2 v0 v2 v7 v9 v12 v16 j = k0_pay1 v0 v2 v7 v9 v12 v16 j := rfl

/-- Row 0 of the lifted index of a column: the inserted coordinate. -/
theorem lift_col (h : S4000x128.Reduces [0] S128) (c : Fin 128) (k : Fin (S4000x128.size 0)) :
    h.lift (ix1 c) k = ix2 (⟨k.val, k.isLt⟩ : Fin 4000) c := by
  funext a; apply Fin.ext
  fin_cases a <;> rfl

set_option maxHeartbeats 400000 in
/-- A sum along the rows of a tile's array, kept as a [1, 1, 128] block, read at a column. -/
theorem colSum_apply (src : FVec Ideal S4000x128 .f32) (u v : Fin 1) (c : Fin 128)
    (hacc : (0x00000000#32 : BitVec 32) = 0x00000000#32) :
    shapeCast S1x1x128 (shapeCast S1x128 (multiReduction .add [0] S128 src 0x00000000#32 reduces_S4000x128_S128 (.inl rfl) hacc) shapeCasts_S128_S1x128) shapeCasts_S1x128_S1x1x128 (ix3 u v c)
      = ∑ r : Fin 4000, src (ix2 r c) := by
  rw [shapeCast_ab_1ab_apply, shapeCast_a_1a_apply]
  refine (Ideal.multiReduction_add_single src 0x00000000#32 reduces_S4000x128_S128 (.inl rfl) hacc (ix1 c)).trans ?_
  exact Finset.sum_congr rfl fun k _ => congrArg src (lift_col _ c k)

/-- The tile's column sums. -/
theorem pay3_apply (v0 : Vec Ideal S4000x8 .f32) (v2 : Vec Ideal S4000x1 .f32) (v7 : Vec Ideal S4000x8 .f32)
    (v9 : Vec Ideal S8x128 .f32) (v12 : Vec Ideal S8x128 .f32) (v16 : Vec Ideal S1x128 .f32) (u v : Fin 1) (c : Fin 128) :
    k0_pay3 v0 v2 v7 v9 v12 v16 (ix3 u v c) = ∑ r : Fin 4000, k0_pay1 v0 v2 v7 v9 v12 v16 (ix2 r c) := by
  unfold k0_pay3
  exact colSum_apply _ u v c rfl

/-- The tile's column sums of squares. -/
theorem pay4_apply (v0 : Vec Ideal S4000x8 .f32) (v2 : Vec Ideal S4000x1 .f32) (v7 : Vec Ideal S4000x8 .f32)
    (v9 : Vec Ideal S8x128 .f32) (v12 : Vec Ideal S8x128 .f32) (v16 : Vec Ideal S1x128 .f32) (u v : Fin 1) (c : Fin 128) :
    k0_pay4 v0 v2 v7 v9 v12 v16 (ix3 u v c)
      = ∑ r : Fin 4000, k0_pay1 v0 v2 v7 v9 v12 v16 (ix2 r c) * k0_pay1 v0 v2 v7 v9 v12 v16 (ix2 r c) := by
  unfold k0_pay4
  exact colSum_apply _ u v c rfl

variable (V : (c : Dev nD) → (b : Ref sig .tc) → Buf (Elt Ideal) ((c : Thread nD τ).loc b))

/-! ## The grid and the windows' block indices -/

/-- A grid point as a tile number. -/
def tile (t : Fin cfg0.N) : Fin 25 := ⟨t.val, by have h : t.val < cfg0.N := t.isLt; have e : cfg0.N = 25 := N_0; omega⟩

theorem tile_val (t : Fin cfg0.N) : (tile t).val = t.val := rfl

/-- Point t takes block t along the rows of the three node arrays and of the three outputs; the weights and the bias are whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 3) = t.val ∧ win0_7.index t (1 : Fin 3) = 0 ∧ win0_7.index t (2 : Fin 3) = 0
    ∧ win0_8.index t (0 : Fin 3) = t.val ∧ win0_8.index t (1 : Fin 3) = 0 ∧ win0_8.index t (2 : Fin 3) = 0 :=
  (by decide +kernel : ∀ t : Fin grid0.N, _)

/-! ## The input blocks as rows of the arrays -/

theorem blk0_apply (c : Dev nD) (t : Fin cfg0.N) (r : Fin 4000) (k : Fin 8) :
    (iblk0 (F := Ideal) V c 0 t : Vec Ideal S4000x8 .f32) (ix2 r k) = (V c main_v22 : S100000x8.Idx → EReal) (ix2 (tileRow (tile t) r) k) := by
  obtain ⟨e0, e1, -⟩ := idx_facts t
  unfold iblk0
  rw [View.read_apply]
  show V c main_v22 _ = _
  congr 1
  funext a
  apply Fin.ext
  match a with
  | ⟨0, _⟩ => show win0_0.index t (0 : Fin 2) * 4000 + 1 * r.val = t.val * 4000 + r.val; rw [e0]; omega
  | ⟨1, _⟩ => show win0_0.index t (1 : Fin 2) * 8 + 1 * k.val = k.val; rw [e1]; omega

theorem blk1_apply (c : Dev nD) (t : Fin cfg0.N) (r : Fin 4000) (k : Fin 8) :
    (iblk0 (F := Ideal) V c 1 t : Vec Ideal S4000x8 .f32) (ix2 r k) = (V c main_arg0 : S100000x8.Idx → EReal) (ix2 (tileRow (tile t) r) k) := by
  obtain ⟨-, -, e0, e1, -⟩ := idx_facts t
  unfold iblk0
  rw [View.read_apply]
  show V c main_arg0 _ = _
  congr 1
  funext a
  apply Fin.ext
  match a with
  | ⟨0, _⟩ => show win0_1.index t (0 : Fin 2) * 4000 + 1 * r.val = t.val * 4000 + r.val; rw [e0]; omega
  | ⟨1, _⟩ => show win0_1.index t (1 : Fin 2) * 8 + 1 * k.val = k.val; rw [e1]; omega

theorem blk2_apply (c : Dev nD) (t : Fin cfg0.N) (r : Fin 4000) (u : Fin 1) :
    (iblk0 (F := Ideal) V c 2 t : Vec Ideal S4000x1 .f32) (ix2 r u) = (V c main_v12 : S100000x1.Idx → EReal) (ix2 (tileRow (tile t) r) 0) := by
  obtain ⟨-, -, -, -, e0, e1, -⟩ := idx_facts t
  unfold iblk0
  rw [View.read_apply]
  show V c main_v12 _ = _
  congr 1
  funext a
  apply Fin.ext
  match a with
  | ⟨0, _⟩ => show win0_2.index t (0 : Fin 2) * 4000 + 1 * r.val = t.val * 4000 + r.val; rw [e0]; omega
  | ⟨1, _⟩ => show win0_2.index t (1 : Fin 2) * 1 + 1 * u.val = 0; rw [e1]; omega

/-- A window whose block is the whole array, at block index zero, reads the array. -/
theorem blk3_eq (c : Dev nD) (t : Fin cfg0.N) :
    (iblk0 (F := Ideal) V c 3 t : Vec Ideal S8x128 .f32) = (V c main_v23 : S8x128.Idx → EReal) := by
  obtain ⟨-, -, -, -, -, -, e0, e1, -⟩ := idx_facts t
  funext y
  unfold iblk0
  rw [View.read_apply]
  show V c main_v23 _ = _
  congr 1
  funext a
  apply Fin.ext
  match a with
  | ⟨0, _⟩ => show win0_3.index t (0 : Fin 2) * 8 + 1 * (y 0).val = (y 0).val; rw [e0]; omega
  | ⟨1, _⟩ => show win0_3.index t (1 : Fin 2) * 128 + 1 * (y 1).val = (y 1).val; rw [e1]; omega

theorem blk4_eq (c : Dev nD) (t : Fin cfg0.N) :
    (iblk0 (F := Ideal) V c 4 t : Vec Ideal S1x128 .f32) = (V c main_v24 : S1x128.Idx → EReal) := by
  obtain ⟨-, -, -, -, -, -, -, -, e0, e1, -⟩ := idx_facts t
  funext y
  unfold iblk0
  rw [View.read_apply]
  show V c main_v24 _ = _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

theorem blk5_eq (c : Dev nD) (t : Fin cfg0.N) :
    (iblk0 (F := Ideal) V c 5 t : Vec Ideal S8x128 .f32) = (V c main_v25 : S8x128.Idx → EReal) := by
  obtain ⟨-, -, -, -, -, -, -, -, -, -, e0, e1, -⟩ := idx_facts t
  funext y
  unfold iblk0
  rw [View.read_apply]
  show V c main_v25 _ = _
  congr 1
  funext a
  apply Fin.ext
  match a with
  | ⟨0, _⟩ => show win0_5.index t (0 : Fin 2) * 8 + 1 * (y 0).val = (y 0).val; rw [e0]; omega
  | ⟨1, _⟩ => show win0_5.index t (1 : Fin 2) * 128 + 1 * (y 1).val = (y 1).val; rw [e1]; omega

/-! ## The body's linear part over a tile's blocks is the layer's linear part on the tile's rows -/

theorem tile_lin8 (A X : Arr ⟨2, ![100000, 8]⟩) (invD : Arr ⟨2, ![100000, 1]⟩) (WlT : Arr ⟨2, ![8, 128]⟩) (b : Arr ⟨2, ![1, 128]⟩)
    (WrT : Arr ⟨2, ![8, 128]⟩) (T : Fin 25)
    (x0 x1 : Vec Ideal S4000x8 .f32) (x2 : Vec Ideal S4000x1 .f32) (x3 : Vec Ideal S8x128 .f32) (x4 : Vec Ideal S1x128 .f32) (x5 : Vec Ideal S8x128 .f32)
    (h0 : ∀ (r : Fin 4000) (k : Fin 8), x0 (ix2 r k) = A (ix2 (tileRow T r) k))
    (h1 : ∀ (r : Fin 4000) (k : Fin 8), x1 (ix2 r k) = X (ix2 (tileRow T r) k))
    (h2 : ∀ (r : Fin 4000) (u : Fin 1), x2 (ix2 r u) = invD (ix2 (tileRow T r) 0))
    (h3 : x3 = WlT) (h4 : x4 = b) (h5 : x5 = WrT) (r : Fin 4000) (c : Fin 128) :
    k0_pay1 x0 x2 x1 x3 x5 x4 (ix2 r c) = lin8At A X invD WlT b WrT (tileRow T r) c := by
  rw [pay1_apply]
  unfold lin8At
  subst h3 h4 h5
  simp only [h0, h1, h2]

/-! ## What a point writes back, window by window -/

theorem hz2 : (![0, 0] : Fin 2 → Nat) = fun _ => 0 := funext fun a => by fin_cases a <;> rfl

theorem hz3 : (![0, 0, 0] : Fin 3 → Nat) = fun _ => 0 := funext fun a => by fin_cases a <;> rfl

/-- The body's linear part at point t, entry (r, q), is the layer's linear part at row 4000 t + r. -/
theorem point_lin8 (c : Dev nD) (t : Fin cfg0.N) (r : Fin 4000) (q : Fin 128) :
    k0_pay1 (iblk0 (F := Ideal) V c 0 t) (iblk0 V c 2 t) (iblk0 V c 1 t) (iblk0 V c 3 t) (iblk0 V c 5 t) (iblk0 V c 4 t) (ix2 r q)
      = lin8At (V c main_v22) (V c main_arg0) (V c main_v12) (V c main_v23) (V c main_v24) (V c main_v25) (tileRow (tile t) r) q :=
  tile_lin8 (V c main_v22) (V c main_arg0) (V c main_v12) (V c main_v23) (V c main_v24) (V c main_v25) (tile t)
    (iblk0 V c 0 t) (iblk0 V c 1 t) (iblk0 V c 2 t) (iblk0 V c 3 t) (iblk0 V c 4 t) (iblk0 V c 5 t)
    (blk0_apply V c t) (blk1_apply V c t) (blk2_apply V c t) (blk3_eq V c t) (blk4_eq V c t) (blk5_eq V c t) r q

/-- Entry (r, q) of the activation block at point t sits at row 4000 t + r of the array. -/
theorem emb6 (t : Fin cfg0.N) (r : Fin 4000) (q : Fin 128) :
    (((cfg0.win 6).blk t).view.emb (ix2 r q) : S100000x128.Idx) = ix2 (tileRow (tile t) r) q := by
  obtain ⟨-, -, -, -, -, -, -, -, -, -, -, -, e0, e1, -⟩ := idx_facts t
  funext a
  apply Fin.ext
  match a with
  | ⟨0, _⟩ => show win0_6.index t (0 : Fin 2) * 4000 + 1 * r.val = t.val * 4000 + r.val; rw [e0]; omega
  | ⟨1, _⟩ => show win0_6.index t (1 : Fin 2) * 128 + 1 * q.val = q.val; rw [e1]; omega

/-- Entry (u, v, q) of a statistics block at point t sits at (t, 0, q) of the array. -/
theorem emb7 (t : Fin cfg0.N) (u v : Fin 1) (q : Fin 128) :
    (((cfg0.win 7).blk t).view.emb (ix3 u v q) : S25x1x128.Idx) = ix3 (tile t) (0 : Fin 1) q := by
  obtain ⟨-, -, -, -, -, -, -, -, -, -, -, -, -, -, e0, e1, e2, -⟩ := idx_facts t
  funext a
  apply Fin.ext
  match a with
  | ⟨0, _⟩ => show win0_7.index t (0 : Fin 3) * 1 + 1 * u.val = t.val; rw [e0]; omega
  | ⟨1, _⟩ => show win0_7.index t (1 : Fin 3) * 1 + 1 * v.val = 0; rw [e1]; omega
  | ⟨2, _⟩ => show win0_7.index t (2 : Fin 3) * 128 + 1 * q.val = q.val; rw [e2]; omega

theorem emb8 (t : Fin cfg0.N) (u v : Fin 1) (q : Fin 128) :
    (((cfg0.win 8).blk t).view.emb (ix3 u v q) : S25x1x128.Idx) = ix3 (tile t) (0 : Fin 1) q := by
  obtain ⟨-, -, -, -, -, -, -, -, -, -, -, -, -, -, -, -, -, e0, e1, e2⟩ := idx_facts t
  funext a
  apply Fin.ext
  match a with
  | ⟨0, _⟩ => show win0_8.index t (0 : Fin 3) * 1 + 1 * u.val = t.val; rw [e0]; omega
  | ⟨1, _⟩ => show win0_8.index t (1 : Fin 3) * 1 + 1 * v.val = 0; rw [e1]; omega
  | ⟨2, _⟩ => show win0_8.index t (2 : Fin 3) * 128 + 1 * q.val = q.val; rw [e2]; omega

set_option maxHeartbeats 400000 in
/-- Point t writes back block t of the layer's linear part. -/
theorem flushed6 (c : Dev nD) (t : Fin cfg0.N) :
    (dat0 (F := Ideal) V c).flushed 6 t = ((cfg0.win 6).blk t).view.read (Elt Ideal)
      (lin8 (V c main_v22) (V c main_arg0) (V c main_v12) (V c main_v23) (V c main_v24) (V c main_v25)) := by
  show (cfg0.win 6).cut (grid0.coords t) ((dat0 V c).after 6 t) = _
  rw [after0_6]
  unfold out0_6
  rw [View.canon_unit_zero hz2]
  simp only [View.ld_unit_zero (S := S4000x8) hz2, View.ld_unit_zero (S := S4000x1) hz2, View.ld_unit_zero (S := S8x128) hz2,
    View.ld_unit_zero (S := S1x128) hz2]
  refine funext fun (j : S4000x128.Idx) => ?_
  obtain ⟨r, q, rfl⟩ : ∃ (r : Fin 4000) (q : Fin 128), j = ix2 r q := ⟨j 0, j 1, eq_ix2 j⟩
  show k0_pay2 (iblk0 (F := Ideal) V c 0 t) (iblk0 V c 2 t) (iblk0 V c 1 t) (iblk0 V c 3 t) (iblk0 V c 5 t) (iblk0 V c 4 t) (ix2 r q)
    = lin8 (V c main_v22) (V c main_arg0) (V c main_v12) (V c main_v23) (V c main_v24) (V c main_v25) (((cfg0.win 6).blk t).view.emb (ix2 r q))
  rw [emb6 t r q]
  exact point_lin8 V c t r q

set_option maxHeartbeats 400000 in
/-- Point t writes back block t of the per-tile column sums. -/
theorem flushed7 (c : Dev nD) (t : Fin cfg0.N) :
    (dat0 (F := Ideal) V c).flushed 7 t = ((cfg0.win 7).blk t).view.read (Elt Ideal)
      (tileSum (lin8 (V c main_v22) (V c main_arg0) (V c main_v12) (V c main_v23) (V c main_v24) (V c main_v25))) := by
  show (cfg0.win 7).cut (grid0.coords t) ((dat0 V c).after 7 t) = _
  rw [after0_7]
  unfold out0_7
  rw [View.canon_unit_zero hz3]
  simp only [View.ld_unit_zero (S := S4000x8) hz2, View.ld_unit_zero (S := S4000x1) hz2, View.ld_unit_zero (S := S8x128) hz2,
    View.ld_unit_zero (S := S1x128) hz2]
  refine funext fun (j : S1x1x128.Idx) => ?_
  obtain ⟨u, v, q, rfl⟩ : ∃ (u v : Fin 1) (q : Fin 128), j = ix3 u v q := ⟨j 0, j 1, j 2, eq_ix3 j⟩
  show k0_pay3 (iblk0 (F := Ideal) V c 0 t) (iblk0 V c 2 t) (iblk0 V c 1 t) (iblk0 V c 3 t) (iblk0 V c 5 t) (iblk0 V c 4 t) (ix3 u v q)
    = tileSum (lin8 (V c main_v22) (V c main_arg0) (V c main_v12) (V c main_v23) (V c main_v24) (V c main_v25)) (((cfg0.win 7).blk t).view.emb (ix3 u v q))
  rw [emb7 t u v q, pay3_apply]
  exact Finset.sum_congr rfl fun r _ => point_lin8 V c t r q

set_option maxHeartbeats 400000 in
/-- Point t writes back block t of the per-tile column sums of squares. -/
theorem flushed8 (c : Dev nD) (t : Fin cfg0.N) :
    (dat0 (F := Ideal) V c).flushed 8 t = ((cfg0.win 8).blk t).view.read (Elt Ideal)
      (tileSumSq (lin8 (V c main_v22) (V c main_arg0) (V c main_v12) (V c main_v23) (V c main_v24) (V c main_v25))) := by
  show (cfg0.win 8).cut (grid0.coords t) ((dat0 V c).after 8 t) = _
  rw [after0_8]
  unfold out0_8
  rw [View.canon_unit_zero hz3]
  simp only [View.ld_unit_zero (S := S4000x8) hz2, View.ld_unit_zero (S := S4000x1) hz2, View.ld_unit_zero (S := S8x128) hz2,
    View.ld_unit_zero (S := S1x128) hz2]
  refine funext fun (j : S1x1x128.Idx) => ?_
  obtain ⟨u, v, q, rfl⟩ : ∃ (u v : Fin 1) (q : Fin 128), j = ix3 u v q := ⟨j 0, j 1, j 2, eq_ix3 j⟩
  show k0_pay4 (iblk0 (F := Ideal) V c 0 t) (iblk0 V c 2 t) (iblk0 V c 1 t) (iblk0 V c 3 t) (iblk0 V c 5 t) (iblk0 V c 4 t) (ix3 u v q)
    = tileSumSq (lin8 (V c main_v22) (V c main_arg0) (V c main_v12) (V c main_v23) (V c main_v24) (V c main_v25)) (((cfg0.win 8).blk t).view.emb (ix3 u v q))
  rw [emb8 t u v q, pay4_apply]
  exact Finset.sum_congr rfl fun r _ => by rw [point_lin8 V c t r q]; rfl

/-! ## The blocks tile the arrays -/

theorem mem_blk6 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v26_0).slice (win0_6.rect t)).set ↔ _
  rw [View.set_slice_whole, Rect.mem_set_unit]
  exact Iff.rfl

theorem mem_blk7 (t : Fin cfg0.N) (i : S25x1x128.Idx) :
    i ∈ ((cfg0.win 7).blk t).view.set ↔ ∀ a : Fin 3, win0_7.index t a * S1x1x128.size a ≤ (i a).val ∧ (i a).val < win0_7.index t a * S1x1x128.size a + S1x1x128.size a := by
  show i ∈ ((View.whole main_v26_1).slice (win0_7.rect t)).set ↔ _
  rw [View.set_slice_whole, Rect.mem_set_unit]
  exact Iff.rfl

theorem mem_blk8 (t : Fin cfg0.N) (i : S25x1x128.Idx) :
    i ∈ ((cfg0.win 8).blk t).view.set ↔ ∀ a : Fin 3, win0_8.index t a * S1x1x128.size a ≤ (i a).val ∧ (i a).val < win0_8.index t a * S1x1x128.size a + S1x1x128.size a := by
  show i ∈ ((View.whole main_v26_2).slice (win0_8.rect t)).set ↔ _
  rw [View.set_slice_whole, Rect.mem_set_unit]
  exact Iff.rfl

/-- Row n of the activation array is in the block of point n / 4000. -/
theorem cover6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by omega⟩, rfl⟩
  obtain ⟨-, -, -, -, -, -, -, -, -, -, -, -, e0, e1, -⟩ := idx_facts t
  refine ⟨t, flush0_6 t, ?_⟩
  rw [mem_blk6]
  intro a
  match a with
  | ⟨0, _⟩ => show win0_6.index t (0 : Fin 2) * 4000 ≤ (i 0).val ∧ (i 0).val < win0_6.index t (0 : Fin 2) * 4000 + 4000; rw [e0, ht]; omega
  | ⟨1, _⟩ => show win0_6.index t (1 : Fin 2) * 128 ≤ (i 1).val ∧ (i 1).val < win0_6.index t (1 : Fin 2) * 128 + 128; rw [e1]; omega

/-- Entry (T, 0, q) of a statistics array is in the block of point T. -/
theorem cover7 (i : S25x1x128.Idx) : ∃ t : Fin cfg0.N, (cfg0.win 7).flush t = true ∧ i ∈ ((cfg0.win 7).blk t).view.set := by
  have hi0 : (i 0).val < 25 := (i 0).isLt
  have hi1 : (i 1).val < 1 := (i 1).isLt
  have hi2 : (i 2).val < 128 := (i 2).isLt
  have hN : cfg0.N = 25 := N_0
  obtain ⟨t, ht⟩ : ∃ t : Fin cfg0.N, t.val = (i 0).val := ⟨⟨(i 0).val, by omega⟩, rfl⟩
  obtain ⟨-, -, -, -, -, -, -, -, -, -, -, -, -, -, e0, e1, e2, -⟩ := idx_facts t
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; rw [e0, ht]; omega
  | ⟨1, _⟩ => show win0_7.index t (1 : Fin 3) * 1 ≤ (i 1).val ∧ (i 1).val < win0_7.index t (1 : Fin 3) * 1 + 1; rw [e1]; omega
  | ⟨2, _⟩ => show win0_7.index t (2 : Fin 3) * 128 ≤ (i 2).val ∧ (i 2).val < win0_7.index t (2 : Fin 3) * 128 + 128; rw [e2]; omega

theorem cover8 (i : S25x1x128.Idx) : ∃ t : Fin cfg0.N, (cfg0.win 8).flush t = true ∧ i ∈ ((cfg0.win 8).blk t).view.set := by
  have hi0 : (i 0).val < 25 := (i 0).isLt
  have hi1 : (i 1).val < 1 := (i 1).isLt
  have hi2 : (i 2).val < 128 := (i 2).isLt
  have hN : cfg0.N = 25 := N_0
  obtain ⟨t, ht⟩ : ∃ t : Fin cfg0.N, t.val = (i 0).val := ⟨⟨(i 0).val, by omega⟩, rfl⟩
  obtain ⟨-, -, -, -, -, -, -, -, -, -, -, -, -, -, -, -, -, e0, e1, e2⟩ := idx_facts t
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; rw [e0, ht]; omega
  | ⟨1, _⟩ => show win0_8.index t (1 : Fin 3) * 1 ≤ (i 1).val ∧ (i 1).val < win0_8.index t (1 : Fin 3) * 1 + 1; rw [e1]; omega
  | ⟨2, _⟩ => show win0_8.index t (2 : Fin 3) * 128 ≤ (i 2).val ∧ (i 2).val < win0_8.index t (2 : Fin 3) * 128 + 128; rw [e2]; omega

/-! ## The three arrays after the region -/

/-- The activation array: entry (n, c) is the layer's linear part at (n, c). -/
theorem arr0_6 (c : Dev nD) : (dat0 (F := Ideal) V c).arrAt 6 cfg0.N
    = lin8 (V c main_v22) (V c main_arg0) (V c main_v12) (V c main_v23) (V c main_v24) (V c main_v25) :=
  (dat0 (F := Ideal) V c).arrAt_eq_of_cover 6 _ (fun t _ => flushed6 V c t) cover6

/-- The per-tile column sums. -/
theorem arr0_7 (c : Dev nD) : (dat0 (F := Ideal) V c).arrAt 7 cfg0.N
    = tileSum (lin8 (V c main_v22) (V c main_arg0) (V c main_v12) (V c main_v23) (V c main_v24) (V c main_v25)) :=
  (dat0 (F := Ideal) V c).arrAt_eq_of_cover 7 _ (fun t _ => flushed7 V c t) cover7

/-- The per-tile column sums of squares. -/
theorem arr0_8 (c : Dev nD) : (dat0 (F := Ideal) V c).arrAt 8 cfg0.N
    = tileSumSq (lin8 (V c main_v22) (V c main_arg0) (V c main_v12) (V c main_v23) (V c main_v24) (V c main_v25)) :=
  (dat0 (F := Ideal) V c).arrAt_eq_of_cover 8 _ (fun t _ => flushed8 V c t) cover8

end Cert.KernelIdeal.KV0

end
-- ==== Proof.KV1.lean ====
/-
  What the normalise-and-rectify region leaves in its output array, whatever the buffer contents `V` it is entered with.
-/
import proofs.«414989_j78658031059101_2_alg».proof.Proof.Gen.KernelIdeal.Frame
import proofs.«414989_j78658031059101_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-- A [1,128] row broadcast to [4000,128], read at row `r` and column `q`, is the row's entry at column `q`. -/
theorem bcast_row {α : Type} (x : S1x128.Idx → α) (r : Fin 4000) (q : Fin 128) :
    broadcastTo S4000x128 x broadcasts_S1x128_S4000x128 (ix2 r q) = x (ix2 0 q) :=
  broadcastTo_apply x _ (ix2 r q) (ix2 0 q) (fun a => by match a with | ⟨0, _⟩ => rfl | ⟨1, _⟩ => rfl)

set_option maxHeartbeats 400000 in
/-- The region's payload at row `r` and column `q` of the block: the scaled, centred entry times the reciprocal
    root of the offset variance, plus the shift, not below zero. -/
theorem pay_at (x0 : Vec Ideal S4000x128 .bf16) (mu var g beta : Vec Ideal S1x128 .f32) (r : Fin 4000) (q : Fin 128) :
    k1_pay1 x0 mu var g beta (ix2 r q)
      = max (g (ix2 0 q) * (x0 (ix2 r q) - mu (ix2 0 q)) * Ideal.rsqrt (var (ix2 0 q) + eps) + beta (ix2 0 q)) 0 := by
  unfold k1_pay1
  simp only [shapeCast_self]
  rw [truncf_apply, maximumf_apply, addf_apply, mulf_apply, mulf_apply, subf_apply, extf_apply, broadcast_apply,
    bcast_row, bcast_row, bcast_row, bcast_row]
  show max (g (ix2 0 q) * (x0 (ix2 r q) - mu (ix2 0 q)) * Ideal.rsqrt (var (ix2 0 q) + Ideal.ofBits .f32 0x3727C5AC#32) + beta (ix2 0 q)) (Ideal.ofBits .f32 0x00000000#32) = _
  rw [Ideal.ofBits_zero_f32]
  rfl

theorem hz : (![0, 0] : Fin 2 → Nat) = fun _ => 0 := funext fun a => by fin_cases a <;> rfl

/-- A grid point of the region as a tile number. -/
def tileOf (t : Fin cfg1.N) : Fin 25 := ⟨t.val, Nat.lt_of_lt_of_eq t.isLt (N_1 : cfg1.N = 25)⟩

/-- The block indices over the grid: the node arrays' blocks move with the point along the rows, the four rows stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r`, column `q` of the output's block at point `t` is row `4000 t + r`, column `q` of the array. -/
theorem emb_out (t : Fin cfg1.N) (r : Fin 4000) (q : Fin 128) :
    ((cfg1.win 5).blk t).view.emb (ix2 r q) = (ix2 (tileRow (tileOf t) r) q : S100000x128.Idx) := by
  obtain ⟨-, -, -, -, -, -, -, -, -, -, o0, o1⟩ := idx_facts t
  funext a; apply Fin.ext
  match a with
  | ⟨0, _⟩ => show win1_5.index t (0 : Fin 2) * 4000 + 1 * r.val = t.val * 4000 + r.val; omega
  | ⟨1, _⟩ => show win1_5.index t (1 : Fin 2) * 128 + 1 * q.val = q.val; omega

variable (V : (c : Dev nD) → (b : Ref sig .tc) → Buf (Elt Ideal) ((c : Thread nD τ).loc b))

/-- The node array's block at point `t` is its rows `4000 t … 4000 t + 3999`. -/
theorem blk_x (c : Dev nD) (t : Fin cfg1.N) (r : Fin 4000) (q : Fin 128) :
    iblk1 V c 0 t (ix2 r q) = V c main_v26_0 (ix2 (tileRow (tileOf t) r) q) := by
  obtain ⟨a0, a1, -⟩ := idx_facts t
  show V c main_v26_0 (((cfg1.win 0).blk t).view.emb (ix2 r q)) = _
  congr 1
  funext a; apply Fin.ext
  match a with
  | ⟨0, _⟩ => show win1_0.index t (0 : Fin 2) * 4000 + 1 * r.val = t.val * 4000 + r.val; omega
  | ⟨1, _⟩ => show win1_0.index t (1 : Fin 2) * 128 + 1 * q.val = q.val; omega

/-- Each of the four rows' blocks is the whole row, at every point. -/
theorem blk_mu (c : Dev nD) (t : Fin cfg1.N) (q : Fin 128) : iblk1 V c 1 t (ix2 0 q) = V c main_v30 (ix2 0 q) := by
  obtain ⟨-, -, b0, b1, -⟩ := idx_facts t
  show V c main_v30 (((cfg1.win 1).blk t).view.emb (ix2 0 q)) = _
  congr 1
  funext a; apply Fin.ext
  match a with
  | ⟨0, _⟩ => show win1_1.index t (0 : Fin 2) * 1 + 1 * 0 = 0; omega
  | ⟨1, _⟩ => show win1_1.index t (1 : Fin 2) * 128 + 1 * q.val = q.val; omega

theorem blk_var (c : Dev nD) (t : Fin cfg1.N) (q : Fin 128) : iblk1 V c 2 t (ix2 0 q) = V c main_v36 (ix2 0 q) := by
  obtain ⟨-, -, -, -, c0, c1, -⟩ := idx_facts t
  show V c main_v36 (((cfg1.win 2).blk t).view.emb (ix2 0 q)) = _
  congr 1
  funext a; apply Fin.ext
  match a with
  | ⟨0, _⟩ => show win1_2.index t (0 : Fin 2) * 1 + 1 * 0 = 0; omega
  | ⟨1, _⟩ => show win1_2.index t (1 : Fin 2) * 128 + 1 * q.val = q.val; omega

theorem blk_g (c : Dev nD) (t : Fin cfg1.N) (q : Fin 128) : iblk1 V c 3 t (ix2 0 q) = V c main_v37 (ix2 0 q) := by
  obtain ⟨-, -, -, -, -, -, d0, d1, -⟩ := idx_facts t
  show V c main_v37 (((cfg1.win 3).blk t).view.emb (ix2 0 q)) = _
  congr 1
  funext a; apply Fin.ext
  match a with
  | ⟨0, _⟩ => show win1_3.index t (0 : Fin 2) * 1 + 1 * 0 = 0; omega
  | ⟨1, _⟩ => show win1_3.index t (1 : Fin 2) * 128 + 1 * q.val = q.val; omega

theorem blk_beta (c : Dev nD) (t : Fin cfg1.N) (q : Fin 128) : iblk1 V c 4 t (ix2 0 q) = V c main_v38 (ix2 0 q) := by
  obtain ⟨-, -, -, -, -, -, -, -, f0, f1, -⟩ := idx_facts t
  show V c main_v38 (((cfg1.win 4).blk t).view.emb (ix2 0 q)) = _
  congr 1
  funext a; apply Fin.ext
  match a with
  | ⟨0, _⟩ => show win1_4.index t (0 : Fin 2) * 1 + 1 * 0 = 0; omega
  | ⟨1, _⟩ => show win1_4.index t (1 : Fin 2) * 128 + 1 * q.val = q.val; omega

set_option maxHeartbeats 400000 in
/-- What point `t` writes back is block `t` of the normalised, rectified array of the arrays the region finds. -/
theorem flushed_eq (c : Dev nD) (t : Fin cfg1.N) :
    (dat1 (F := Ideal) V c).flushed 5 t
      = ((cfg1.win 5).blk t).view.read (Elt Ideal) (bnrelu (V c main_v26_0) (V c main_v30) (V c main_v36) (V c main_v37) (V c main_v38)) := by
  show (cfg1.win 5).cut (grid1.coords t) ((dat1 V c).after 5 t) = _
  rw [after1_5]
  unfold out1_5
  rw [View.canon_unit_zero hz]
  simp only [View.ld_unit_zero (S := S4000x128) hz, View.ld_unit_zero (S := S1x128) hz]
  funext j
  obtain ⟨r, q, rfl⟩ : ∃ (r : Fin 4000) (q : Fin 128), j = ix2 r q := ⟨j 0, j 1, eq_ix2 j⟩
  show k1_pay1 (iblk1 V c 0 t) (iblk1 V c 1 t) (iblk1 V c 2 t) (iblk1 V c 3 t) (iblk1 V c 4 t) (ix2 r q)
      = bnrelu (V c main_v26_0) (V c main_v30) (V c main_v36) (V c main_v37) (V c main_v38) (((cfg1.win 5).blk t).view.emb (ix2 r q))
  rw [pay_at, emb_out, blk_x, blk_mu, blk_var, blk_g, blk_beta]
  rfl

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v39).slice (win1_5.rect t)).set ↔ _
  rw [View.set_slice_whole, Rect.mem_set_unit]
  exact Iff.rfl

/-- Every index of the array is in the block of the point its row's tile names. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by rw [hN]; omega⟩, rfl⟩
  refine ⟨t, flush1_5 t, ?_⟩
  rw [mem_blk]
  obtain ⟨-, -, -, -, -, -, -, -, -, -, o0, o1⟩ := idx_facts t
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

theorem arr1_5 (c : Dev nD) : (dat1 (F := Ideal) V c).arrAt 5 cfg1.N
    = bnrelu (V c main_v26_0) (V c main_v30) (V c main_v36) (V c main_v37) (V c main_v38) :=
  (dat1 (F := Ideal) V c).arrAt_eq_of_cover 5 (bnrelu (V c main_v26_0) (V c main_v30) (V c main_v36) (V c main_v37) (V c main_v38))
    (fun t _ => flushed_eq V c t) cover

end Cert.KernelIdeal.KV1

end
-- ==== Proof.KV2.lean ====
/-
  What the second linear region (128 input features) leaves in its three output arrays, whatever the buffer contents `V` it is entered with: block `t` of each output is the body's payload of the input blocks at `t`, the blocks tile the arrays, so each array is one function of the input arrays.
-/
import proofs.«414989_j78658031059101_2_alg».proof.Proof.Gen.KernelIdeal.Frame
import proofs.«414989_j78658031059101_2_alg».proof.Proof.Spec
import proofs.«414989_j78658031059101_2_alg».proof.Proof.LibPlainMatmul
import proofs.«414989_j78658031059101_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV2

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)
open scoped BigOperators

/-- The contraction of the two products of the body: rows of the left operand against columns of the right one. -/
theorem dot128_plain : dot_S4000x128_S128x128_S4000x128_1_0_0_1_n_n = DotDims.plain 4000 128 128 := rfl

set_option maxHeartbeats 400000 in
/-- One entry of the body's linear part over a tile's blocks. -/
theorem pay1_apply (v0 : Vec Ideal S4000x128 .f32) (v2 : Vec Ideal S4000x1 .f32) (v7 : Vec Ideal S4000x128 .bf16)
    (v9 : Vec Ideal S128x128 .f32) (v12 : Vec Ideal S128x128 .f32) (v16 : Vec Ideal S1x128 .f32) (r : Fin 4000) (c : Fin 128) :
    k2_pay1 v0 v2 v7 v9 v12 v16 (ix2 r c)
      = (∑ k : Fin 128, (v0 (ix2 r k) * v2 (ix2 r 0)) * v9 (ix2 k c)) + v16 (ix2 0 c) + ∑ k : Fin 128, v7 (ix2 r k) * v12 (ix2 k c) := by
  unfold k2_pay1
  simp only [shapeCast_self, matmul]
  rw [addf_apply, addf_apply, dot128_plain, Cert.PlainMatmul.apply, Cert.PlainMatmul.apply]
  simp only [truncf_apply, mulf_apply, Cert.RowOps.broadcastTo_a1_ab_apply (n := 4000) (by decide), broadcastTo_1b_ab_apply]

/-- The truncated copy that is stored: at the extended reals a change of format keeps the value. -/
theorem pay2_apply (v0 : Vec Ideal S4000x128 .f32) (v2 : Vec Ideal S4000x1 .f32) (v7 : Vec Ideal S4000x128 .bf16)
    (v9 : Vec Ideal S128x128 .f32) (v12 : Vec Ideal S128x128 .f32) (v16 : Vec Ideal S1x128 .f32) (j : S4000x128.Idx) :
    k2_pay2 v0 v2 v7 v9 v12 v16 j = k2_pay1 v0 v2 v7 v9 v12 v16 j := rfl

/-- Row 0 of the lifted index of a column: the inserted coordinate. -/
theorem lift_col (h : S4000x128.Reduces [0] S128) (c : Fin 128) (k : Fin (S4000x128.size 0)) :
    h.lift (ix1 c) k = ix2 (⟨k.val, k.isLt⟩ : Fin 4000) c := by
  funext a; apply Fin.ext
  fin_cases a <;> rfl

set_option maxHeartbeats 400000 in
/-- A sum along the rows of a tile's array, kept as a [1, 1, 128] block, read at a column. -/
theorem colSum_apply (src : FVec Ideal S4000x128 .f32) (u v : Fin 1) (c : Fin 128)
    (hacc : (0x00000000#32 : BitVec 32) = 0x00000000#32) :
    shapeCast S1x1x128 (shapeCast S1x128 (multiReduction .add [0] S128 src 0x00000000#32 reduces_S4000x128_S128 (.inl rfl) hacc) shapeCasts_S128_S1x128) shapeCasts_S1x128_S1x1x128 (ix3 u v c)
      = ∑ r : Fin 4000, src (ix2 r c) := by
  rw [shapeCast_ab_1ab_apply, shapeCast_a_1a_apply]
  refine (Ideal.multiReduction_add_single src 0x00000000#32 reduces_S4000x128_S128 (.inl rfl) hacc (ix1 c)).trans ?_
  exact Finset.sum_congr rfl fun k _ => congrArg src (lift_col _ c k)

/-- The tile's column sums. -/
theorem pay3_apply (v0 : Vec Ideal S4000x128 .f32) (v2 : Vec Ideal S4000x1 .f32) (v7 : Vec Ideal S4000x128 .bf16)
    (v9 : Vec Ideal S128x128 .f32) (v12 : Vec Ideal S128x128 .f32) (v16 : Vec Ideal S1x128 .f32) (u v : Fin 1) (c : Fin 128) :
    k2_pay3 v0 v2 v7 v9 v12 v16 (ix3 u v c) = ∑ r : Fin 4000, k2_pay1 v0 v2 v7 v9 v12 v16 (ix2 r c) := by
  unfold k2_pay3
  exact colSum_apply _ u v c rfl

/-- The tile's column sums of squares. -/
theorem pay4_apply (v0 : Vec Ideal S4000x128 .f32) (v2 : Vec Ideal S4000x1 .f32) (v7 : Vec Ideal S4000x128 .bf16)
    (v9 : Vec Ideal S128x128 .f32) (v12 : Vec Ideal S128x128 .f32) (v16 : Vec Ideal S1x128 .f32) (u v : Fin 1) (c : Fin 128) :
    k2_pay4 v0 v2 v7 v9 v12 v16 (ix3 u v c)
      = ∑ r : Fin 4000, k2_pay1 v0 v2 v7 v9 v12 v16 (ix2 r c) * k2_pay1 v0 v2 v7 v9 v12 v16 (ix2 r c) := by
  unfold k2_pay4
  exact colSum_apply _ u v c rfl

variable (V : (c : Dev nD) → (b : Ref sig .tc) → Buf (Elt Ideal) ((c : Thread nD τ).loc b))

/-! ## The grid and the windows' block indices -/

/-- A grid point as a tile number. -/
def tile (t : Fin cfg2.N) : Fin 25 := ⟨t.val, by have h : t.val < cfg2.N := t.isLt; have e : cfg2.N = 25 := N_2; omega⟩

theorem tile_val (t : Fin cfg2.N) : (tile t).val = t.val := rfl

/-- Point t takes block t along the rows of the three node arrays and of the three outputs; the weights and the bias are whole. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 3) = t.val ∧ win2_7.index t (1 : Fin 3) = 0 ∧ win2_7.index t (2 : Fin 3) = 0
    ∧ win2_8.index t (0 : Fin 3) = t.val ∧ win2_8.index t (1 : Fin 3) = 0 ∧ win2_8.index t (2 : Fin 3) = 0 :=
  (by decide +kernel : ∀ t : Fin grid2.N, _)

/-! ## The input blocks as rows of the arrays -/

theorem blk0_apply (c : Dev nD) (t : Fin cfg2.N) (r : Fin 4000) (k : Fin 128) :
    (iblk2 (F := Ideal) V c 0 t : Vec Ideal S4000x128 .f32) (ix2 r k) = (V c main_v50 : S100000x128.Idx → EReal) (ix2 (tileRow (tile t) r) k) := by
  obtain ⟨e0, e1, -⟩ := idx_facts t
  unfold iblk2
  rw [View.read_apply]
  show V c main_v50 _ = _
  congr 1
  funext a
  apply Fin.ext
  match a with
  | ⟨0, _⟩ => show win2_0.index t (0 : Fin 2) * 4000 + 1 * r.val = t.val * 4000 + r.val; rw [e0]; omega
  | ⟨1, _⟩ => show win2_0.index t (1 : Fin 2) * 128 + 1 * k.val = k.val; rw [e1]; omega

theorem blk1_apply (c : Dev nD) (t : Fin cfg2.N) (r : Fin 4000) (k : Fin 128) :
    (iblk2 (F := Ideal) V c 1 t : Vec Ideal S4000x128 .bf16) (ix2 r k) = (V c main_v39 : S100000x128.Idx → EReal) (ix2 (tileRow (tile t) r) k) := by
  obtain ⟨-, -, e0, e1, -⟩ := idx_facts t
  unfold iblk2
  rw [View.read_apply]
  show V c main_v39 _ = _
  congr 1
  funext a
  apply Fin.ext
  match a with
  | ⟨0, _⟩ => show win2_1.index t (0 : Fin 2) * 4000 + 1 * r.val = t.val * 4000 + r.val; rw [e0]; omega
  | ⟨1, _⟩ => show win2_1.index t (1 : Fin 2) * 128 + 1 * k.val = k.val; rw [e1]; omega

theorem blk2_apply (c : Dev nD) (t : Fin cfg2.N) (r : Fin 4000) (u : Fin 1) :
    (iblk2 (F := Ideal) V c 2 t : Vec Ideal S4000x1 .f32) (ix2 r u) = (V c main_v12 : S100000x1.Idx → EReal) (ix2 (tileRow (tile t) r) 0) := by
  obtain ⟨-, -, -, -, e0, e1, -⟩ := idx_facts t
  unfold iblk2
  rw [View.read_apply]
  show V c main_v12 _ = _
  congr 1
  funext a
  apply Fin.ext
  match a with
  | ⟨0, _⟩ => show win2_2.index t (0 : Fin 2) * 4000 + 1 * r.val = t.val * 4000 + r.val; rw [e0]; omega
  | ⟨1, _⟩ => show win2_2.index t (1 : Fin 2) * 1 + 1 * u.val = 0; rw [e1]; omega

/-- A window whose block is the whole array, at block index zero, reads the array. -/
theorem blk3_eq (c : Dev nD) (t : Fin cfg2.N) :
    (iblk2 (F := Ideal) V c 3 t : Vec Ideal S128x128 .f32) = (V c main_v51 : S128x128.Idx → EReal) := by
  obtain ⟨-, -, -, -, -, -, e0, e1, -⟩ := idx_facts t
  funext y
  unfold iblk2
  rw [View.read_apply]
  show V c main_v51 _ = _
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

theorem blk4_eq (c : Dev nD) (t : Fin cfg2.N) :
    (iblk2 (F := Ideal) V c 4 t : Vec Ideal S1x128 .f32) = (V c main_v52 : S1x128.Idx → EReal) := by
  obtain ⟨-, -, -, -, -, -, -, -, e0, e1, -⟩ := idx_facts t
  funext y
  unfold iblk2
  rw [View.read_apply]
  show V c main_v52 _ = _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

theorem blk5_eq (c : Dev nD) (t : Fin cfg2.N) :
    (iblk2 (F := Ideal) V c 5 t : Vec Ideal S128x128 .f32) = (V c main_v53 : S128x128.Idx → EReal) := by
  obtain ⟨-, -, -, -, -, -, -, -, -, -, e0, e1, -⟩ := idx_facts t
  funext y
  unfold iblk2
  rw [View.read_apply]
  show V c main_v53 _ = _
  congr 1
  funext a
  apply Fin.ext
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega

/-! ## The body's linear part over a tile's blocks is the layer's linear part on the tile's rows -/

theorem tile_lin128 (A X : Arr ⟨2, ![100000, 128]⟩) (invD : Arr ⟨2, ![100000, 1]⟩) (WlT : Arr ⟨2, ![128, 128]⟩) (b : Arr ⟨2, ![1, 128]⟩)
    (WrT : Arr ⟨2, ![128, 128]⟩) (T : Fin 25)
    (x0 : Vec Ideal S4000x128 .f32) (x1 : Vec Ideal S4000x128 .bf16) (x2 : Vec Ideal S4000x1 .f32) (x3 : Vec Ideal S128x128 .f32) (x4 : Vec Ideal S1x128 .f32) (x5 : Vec Ideal S128x128 .f32)
    (h0 : ∀ (r : Fin 4000) (k : Fin 128), x0 (ix2 r k) = A (ix2 (tileRow T r) k))
    (h1 : ∀ (r : Fin 4000) (k : Fin 128), x1 (ix2 r k) = X (ix2 (tileRow T r) k))
    (h2 : ∀ (r : Fin 4000) (u : Fin 1), x2 (ix2 r u) = invD (ix2 (tileRow T r) 0))
    (h3 : x3 = WlT) (h4 : x4 = b) (h5 : x5 = WrT) (r : Fin 4000) (c : Fin 128) :
    k2_pay1 x0 x2 x1 x3 x5 x4 (ix2 r c) = lin128At A X invD WlT b WrT (tileRow T r) c := by
  rw [pay1_apply]
  unfold lin128At
  subst h3 h4 h5
  simp only [h0, h1, h2]

/-! ## What a point writes back, window by window -/

theorem hz2 : (![0, 0] : Fin 2 → Nat) = fun _ => 0 := funext fun a => by fin_cases a <;> rfl

theorem hz3 : (![0, 0, 0] : Fin 3 → Nat) = fun _ => 0 := funext fun a => by fin_cases a <;> rfl

/-- The body's linear part at point t, entry (r, q), is the layer's linear part at row 4000 t + r. -/
theorem point_lin128 (c : Dev nD) (t : Fin cfg2.N) (r : Fin 4000) (q : Fin 128) :
    k2_pay1 (iblk2 (F := Ideal) V c 0 t) (iblk2 V c 2 t) (iblk2 V c 1 t) (iblk2 V c 3 t) (iblk2 V c 5 t) (iblk2 V c 4 t) (ix2 r q)
      = lin128At (V c main_v50) (V c main_v39) (V c main_v12) (V c main_v51) (V c main_v52) (V c main_v53) (tileRow (tile t) r) q :=
  tile_lin128 (V c main_v50) (V c main_v39) (V c main_v12) (V c main_v51) (V c main_v52) (V c main_v53) (tile t)
    (iblk2 V c 0 t) (iblk2 V c 1 t) (iblk2 V c 2 t) (iblk2 V c 3 t) (iblk2 V c 4 t) (iblk2 V c 5 t)
    (blk0_apply V c t) (blk1_apply V c t) (blk2_apply V c t) (blk3_eq V c t) (blk4_eq V c t) (blk5_eq V c t) r q

/-- Entry (r, q) of the activation block at point t sits at row 4000 t + r of the array. -/
theorem emb6 (t : Fin cfg2.N) (r : Fin 4000) (q : Fin 128) :
    (((cfg2.win 6).blk t).view.emb (ix2 r q) : S100000x128.Idx) = ix2 (tileRow (tile t) r) q := by
  obtain ⟨-, -, -, -, -, -, -, -, -, -, -, -, e0, e1, -⟩ := idx_facts t
  funext a
  apply Fin.ext
  match a with
  | ⟨0, _⟩ => show win2_6.index t (0 : Fin 2) * 4000 + 1 * r.val = t.val * 4000 + r.val; rw [e0]; omega
  | ⟨1, _⟩ => show win2_6.index t (1 : Fin 2) * 128 + 1 * q.val = q.val; rw [e1]; omega

/-- Entry (u, v, q) of a statistics block at point t sits at (t, 0, q) of the array. -/
theorem emb7 (t : Fin cfg2.N) (u v : Fin 1) (q : Fin 128) :
    (((cfg2.win 7).blk t).view.emb (ix3 u v q) : S25x1x128.Idx) = ix3 (tile t) (0 : Fin 1) q := by
  obtain ⟨-, -, -, -, -, -, -, -, -, -, -, -, -, -, e0, e1, e2, -⟩ := idx_facts t
  funext a
  apply Fin.ext
  match a with
  | ⟨0, _⟩ => show win2_7.index t (0 : Fin 3) * 1 + 1 * u.val = t.val; rw [e0]; omega
  | ⟨1, _⟩ => show win2_7.index t (1 : Fin 3) * 1 + 1 * v.val = 0; rw [e1]; omega
  | ⟨2, _⟩ => show win2_7.index t (2 : Fin 3) * 128 + 1 * q.val = q.val; rw [e2]; omega

theorem emb8 (t : Fin cfg2.N) (u v : Fin 1) (q : Fin 128) :
    (((cfg2.win 8).blk t).view.emb (ix3 u v q) : S25x1x128.Idx) = ix3 (tile t) (0 : Fin 1) q := by
  obtain ⟨-, -, -, -, -, -, -, -, -, -, -, -, -, -, -, -, -, e0, e1, e2⟩ := idx_facts t
  funext a
  apply Fin.ext
  match a with
  | ⟨0, _⟩ => show win2_8.index t (0 : Fin 3) * 1 + 1 * u.val = t.val; rw [e0]; omega
  | ⟨1, _⟩ => show win2_8.index t (1 : Fin 3) * 1 + 1 * v.val = 0; rw [e1]; omega
  | ⟨2, _⟩ => show win2_8.index t (2 : Fin 3) * 128 + 1 * q.val = q.val; rw [e2]; omega

set_option maxHeartbeats 400000 in
/-- Point t writes back block t of the layer's linear part. -/
theorem flushed6 (c : Dev nD) (t : Fin cfg2.N) :
    (dat2 (F := Ideal) V c).flushed 6 t = ((cfg2.win 6).blk t).view.read (Elt Ideal)
      (lin128 (V c main_v50) (V c main_v39) (V c main_v12) (V c main_v51) (V c main_v52) (V c main_v53)) := by
  show (cfg2.win 6).cut (grid2.coords t) ((dat2 V c).after 6 t) = _
  rw [after2_6]
  unfold out2_6
  rw [View.canon_unit_zero hz2]
  simp only [View.ld_unit_zero (S := S4000x128) hz2, View.ld_unit_zero (S := S4000x1) hz2, View.ld_unit_zero (S := S128x128) hz2,
    View.ld_unit_zero (S := S1x128) hz2]
  refine funext fun (j : S4000x128.Idx) => ?_
  obtain ⟨r, q, rfl⟩ : ∃ (r : Fin 4000) (q : Fin 128), j = ix2 r q := ⟨j 0, j 1, eq_ix2 j⟩
  show k2_pay2 (iblk2 (F := Ideal) V c 0 t) (iblk2 V c 2 t) (iblk2 V c 1 t) (iblk2 V c 3 t) (iblk2 V c 5 t) (iblk2 V c 4 t) (ix2 r q)
    = lin128 (V c main_v50) (V c main_v39) (V c main_v12) (V c main_v51) (V c main_v52) (V c main_v53) (((cfg2.win 6).blk t).view.emb (ix2 r q))
  rw [emb6 t r q]
  exact point_lin128 V c t r q

set_option maxHeartbeats 400000 in
/-- Point t writes back block t of the per-tile column sums. -/
theorem flushed7 (c : Dev nD) (t : Fin cfg2.N) :
    (dat2 (F := Ideal) V c).flushed 7 t = ((cfg2.win 7).blk t).view.read (Elt Ideal)
      (tileSum (lin128 (V c main_v50) (V c main_v39) (V c main_v12) (V c main_v51) (V c main_v52) (V c main_v53))) := by
  show (cfg2.win 7).cut (grid2.coords t) ((dat2 V c).after 7 t) = _
  rw [after2_7]
  unfold out2_7
  rw [View.canon_unit_zero hz3]
  simp only [View.ld_unit_zero (S := S4000x128) hz2, View.ld_unit_zero (S := S4000x1) hz2, View.ld_unit_zero (S := S128x128) hz2,
    View.ld_unit_zero (S := S1x128) hz2]
  refine funext fun (j : S1x1x128.Idx) => ?_
  obtain ⟨u, v, q, rfl⟩ : ∃ (u v : Fin 1) (q : Fin 128), j = ix3 u v q := ⟨j 0, j 1, j 2, eq_ix3 j⟩
  show k2_pay3 (iblk2 (F := Ideal) V c 0 t) (iblk2 V c 2 t) (iblk2 V c 1 t) (iblk2 V c 3 t) (iblk2 V c 5 t) (iblk2 V c 4 t) (ix3 u v q)
    = tileSum (lin128 (V c main_v50) (V c main_v39) (V c main_v12) (V c main_v51) (V c main_v52) (V c main_v53)) (((cfg2.win 7).blk t).view.emb (ix3 u v q))
  rw [emb7 t u v q, pay3_apply]
  exact Finset.sum_congr rfl fun r _ => point_lin128 V c t r q

set_option maxHeartbeats 400000 in
/-- Point t writes back block t of the per-tile column sums of squares. -/
theorem flushed8 (c : Dev nD) (t : Fin cfg2.N) :
    (dat2 (F := Ideal) V c).flushed 8 t = ((cfg2.win 8).blk t).view.read (Elt Ideal)
      (tileSumSq (lin128 (V c main_v50) (V c main_v39) (V c main_v12) (V c main_v51) (V c main_v52) (V c main_v53))) := by
  show (cfg2.win 8).cut (grid2.coords t) ((dat2 V c).after 8 t) = _
  rw [after2_8]
  unfold out2_8
  rw [View.canon_unit_zero hz3]
  simp only [View.ld_unit_zero (S := S4000x128) hz2, View.ld_unit_zero (S := S4000x1) hz2, View.ld_unit_zero (S := S128x128) hz2,
    View.ld_unit_zero (S := S1x128) hz2]
  refine funext fun (j : S1x1x128.Idx) => ?_
  obtain ⟨u, v, q, rfl⟩ : ∃ (u v : Fin 1) (q : Fin 128), j = ix3 u v q := ⟨j 0, j 1, j 2, eq_ix3 j⟩
  show k2_pay4 (iblk2 (F := Ideal) V c 0 t) (iblk2 V c 2 t) (iblk2 V c 1 t) (iblk2 V c 3 t) (iblk2 V c 5 t) (iblk2 V c 4 t) (ix3 u v q)
    = tileSumSq (lin128 (V c main_v50) (V c main_v39) (V c main_v12) (V c main_v51) (V c main_v52) (V c main_v53)) (((cfg2.win 8).blk t).view.emb (ix3 u v q))
  rw [emb8 t u v q, pay4_apply]
  exact Finset.sum_congr rfl fun r _ => by rw [point_lin128 V c t r q]; rfl

/-! ## The blocks tile the arrays -/

theorem mem_blk6 (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v54_0).slice (win2_6.rect t)).set ↔ _
  rw [View.set_slice_whole, Rect.mem_set_unit]
  exact Iff.rfl

theorem mem_blk7 (t : Fin cfg2.N) (i : S25x1x128.Idx) :
    i ∈ ((cfg2.win 7).blk t).view.set ↔ ∀ a : Fin 3, win2_7.index t a * S1x1x128.size a ≤ (i a).val ∧ (i a).val < win2_7.index t a * S1x1x128.size a + S1x1x128.size a := by
  show i ∈ ((View.whole main_v54_1).slice (win2_7.rect t)).set ↔ _
  rw [View.set_slice_whole, Rect.mem_set_unit]
  exact Iff.rfl

theorem mem_blk8 (t : Fin cfg2.N) (i : S25x1x128.Idx) :
    i ∈ ((cfg2.win 8).blk t).view.set ↔ ∀ a : Fin 3, win2_8.index t a * S1x1x128.size a ≤ (i a).val ∧ (i a).val < win2_8.index t a * S1x1x128.size a + S1x1x128.size a := by
  show i ∈ ((View.whole main_v54_2).slice (win2_8.rect t)).set ↔ _
  rw [View.set_slice_whole, Rect.mem_set_unit]
  exact Iff.rfl

/-- Row n of the activation array is in the block of point n / 4000. -/
theorem cover6 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 25 := N_2
  obtain ⟨t, ht⟩ : ∃ t : Fin cfg2.N, t.val = (i 0).val / 4000 := ⟨⟨(i 0).val / 4000, by omega⟩, rfl⟩
  obtain ⟨-, -, -, -, -, -, -, -, -, -, -, -, e0, e1, -⟩ := idx_facts t
  refine ⟨t, flush2_6 t, ?_⟩
  rw [mem_blk6]
  intro a
  match a with
  | ⟨0, _⟩ => show win2_6.index t (0 : Fin 2) * 4000 ≤ (i 0).val ∧ (i 0).val < win2_6.index t (0 : Fin 2) * 4000 + 4000; rw [e0, ht]; omega
  | ⟨1, _⟩ => show win2_6.index t (1 : Fin 2) * 128 ≤ (i 1).val ∧ (i 1).val < win2_6.index t (1 : Fin 2) * 128 + 128; rw [e1]; omega

/-- Entry (T, 0, q) of a statistics array is in the block of point T. -/
theorem cover7 (i : S25x1x128.Idx) : ∃ t : Fin cfg2.N, (cfg2.win 7).flush t = true ∧ i ∈ ((cfg2.win 7).blk t).view.set := by
  have hi0 : (i 0).val < 25 := (i 0).isLt
  have hi1 : (i 1).val < 1 := (i 1).isLt
  have hi2 : (i 2).val < 128 := (i 2).isLt
  have hN : cfg2.N = 25 := N_2
  obtain ⟨t, ht⟩ : ∃ t : Fin cfg2.N, t.val = (i 0).val := ⟨⟨(i 0).val, by omega⟩, rfl⟩
  obtain ⟨-, -, -, -, -, -, -, -, -, -, -, -, -, -, e0, e1, e2, -⟩ := idx_facts t
  refine ⟨t, flush2_7 t, ?_⟩
  rw [mem_blk7]
  intro a
  match a with
  | ⟨0, _⟩ => show win2_7.index t (0 : Fin 3) * 1 ≤ (i 0).val ∧ (i 0).val < win2_7.index t (0 : Fin 3) * 1 + 1; rw [e0, ht]; omega
  | ⟨1, _⟩ => show win2_7.index t (1 : Fin 3) * 1 ≤ (i 1).val ∧ (i 1).val < win2_7.index t (1 : Fin 3) * 1 + 1; rw [e1]; omega
  | ⟨2, _⟩ => show win2_7.index t (2 : Fin 3) * 128 ≤ (i 2).val ∧ (i 2).val < win2_7.index t (2 : Fin 3) * 128 + 128; rw [e2]; omega

theorem cover8 (i : S25x1x128.Idx) : ∃ t : Fin cfg2.N, (cfg2.win 8).flush t = true ∧ i ∈ ((cfg2.win 8).blk t).view.set := by
  have hi0 : (i 0).val < 25 := (i 0).isLt
  have hi1 : (i 1).val < 1 := (i 1).isLt
  have hi2 : (i 2).val < 128 := (i 2).isLt
  have hN : cfg2.N = 25 := N_2
  obtain ⟨t, ht⟩ : ∃ t : Fin cfg2.N, t.val = (i 0).val := ⟨⟨(i 0).val, by omega⟩, rfl⟩
  obtain ⟨-, -, -, -, -, -, -, -, -, -, -, -, -, -, -, -, -, e0, e1, e2⟩ := idx_facts t
  refine ⟨t, flush2_8 t, ?_⟩
  rw [mem_blk8]
  intro a
  match a with
  | ⟨0, _⟩ => show win2_8.index t (0 : Fin 3) * 1 ≤ (i 0).val ∧ (i 0).val < win2_8.index t (0 : Fin 3) * 1 + 1; rw [e0, ht]; omega
  | ⟨1, _⟩ => show win2_8.index t (1 : Fin 3) * 1 ≤ (i 1).val ∧ (i 1).val < win2_8.index t (1 : Fin 3) * 1 + 1; rw [e1]; omega
  | ⟨2, _⟩ => show win2_8.index t (2 : Fin 3) * 128 ≤ (i 2).val ∧ (i 2).val < win2_8.index t (2 : Fin 3) * 128 + 128; rw [e2]; omega

/-! ## The three arrays after the region -/

/-- The activation array: entry (n, c) is the layer's linear part at (n, c). -/
theorem arr2_6 (c : Dev nD) : (dat2 (F := Ideal) V c).arrAt 6 cfg2.N
    = lin128 (V c main_v50) (V c main_v39) (V c main_v12) (V c main_v51) (V c main_v52) (V c main_v53) :=
  (dat2 (F := Ideal) V c).arrAt_eq_of_cover 6 _ (fun t _ => flushed6 V c t) cover6

/-- The per-tile column sums. -/
theorem arr2_7 (c : Dev nD) : (dat2 (F := Ideal) V c).arrAt 7 cfg2.N
    = tileSum (lin128 (V c main_v50) (V c main_v39) (V c main_v12) (V c main_v51) (V c main_v52) (V c main_v53)) :=
  (dat2 (F := Ideal) V c).arrAt_eq_of_cover 7 _ (fun t _ => flushed7 V c t) cover7

/-- The per-tile column sums of squares. -/
theorem arr2_8 (c : Dev nD) : (dat2 (F := Ideal) V c).arrAt 8 cfg2.N
    = tileSumSq (lin128 (V c main_v50) (V c main_v39) (V c main_v12) (V c main_v51) (V c main_v52) (V c main_v53)) :=
  (dat2 (F := Ideal) V c).arrAt_eq_of_cover 8 _ (fun t _ => flushed8 V c t) cover8

end Cert.KernelIdeal.KV2

end
-- ==== Proof.KV3.lean ====
/-
  What the normalise, rectify, add-residual and pool region leaves in its output array, whatever the buffer contents `V` it is entered with.
-/
import proofs.«414989_j78658031059101_2_alg».proof.Proof.Gen.KernelIdeal.Frame
import proofs.«414989_j78658031059101_2_alg».proof.Proof.Spec
import proofs.«414989_j78658031059101_2_alg».proof.Proof.LibIdealReal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV3

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-- A [1,128] row broadcast to [4000,128], read at row `r` and column `q`, is the row's entry at column `q`. -/
theorem bcast_row {α : Type} (x : S1x128.Idx → α) (r : Fin 4000) (q : Fin 128) :
    broadcastTo S4000x128 x broadcasts_S1x128_S4000x128 (ix2 r q) = x (ix2 0 q) :=
  broadcastTo_apply x _ (ix2 r q) (ix2 0 q) (fun a => by match a with | ⟨0, _⟩ => rfl | ⟨1, _⟩ => rfl)

/-- A [4000,1] column broadcast to [4000,128], read at row `r` and column `q`, is the column's entry at row `r`. -/
theorem bcast_col {α : Type} (x : S4000x1.Idx → α) (r : Fin 4000) (q : Fin 128) :
    broadcastTo S4000x128 x broadcasts_S4000x1_S4000x128 (ix2 r q) = x (ix2 r 0) :=
  broadcastTo_apply x _ (ix2 r q) (ix2 r 0) (fun a => by match a with | ⟨0, _⟩ => rfl | ⟨1, _⟩ => rfl)

/-- The column counter of a [1,128] row at column `g` is the word `g`. -/
theorem iota_at (g : Fin 128) : iota .tc S1x128 32 [1] iota_S1x128_d1_w32 (ix2 0 g) = BitVec.ofNat 32 g.val :=
  iota_single_apply .tc S1x128 32 1 iota_S1x128_d1_w32 (ix2 0 g)

/-- An entrywise comparison of two word arrays at an index compares the entries. -/
theorem cmpi_at {s : Shape} {w : Nat} (p : CmpIPredicate) (x y : IVec s w) (i : s.Idx) : cmpi p x y i = IntOp.cmpi p (x i) (y i) := rfl

/-- "The word `w` is the word `g`", as a bit widened to a word and read as a signed integer, is 1 or 0. -/
theorem onehot_word (w : BitVec 32) (g : Fin 128) :
    FloatOps.sitofp (F := Ideal) .f32 ((IntOp.cmpi .eq w (BitVec.ofNat 32 g.val)).setWidth 32) = onehot w g := by
  show FloatOps.sitofp (F := Ideal) .f32 ((BitVec.ofBool (w == BitVec.ofNat 32 g.val)).setWidth 32) = _
  rw [IdealReal.sitofp_setWidth_ofBool]
  unfold onehot
  by_cases h : w = BitVec.ofNat 32 g.val
  · simp [h]
  · simp [h]

/-- The contraction takes the left operand's row from the contraction coordinate, -/
theorem lhs_axis0 (j : S128x128.Idx) (q : dot_S4000x128_S4000x128_S128x128_0_0_1_1_n_n.contr.Idx) :
    (dot_S4000x128_S4000x128_S128x128_0_0_1_1_n_n.lhsIdx j q 0).val = (q ⟨0, by decide⟩).val :=
  dot_S4000x128_S4000x128_S128x128_0_0_1_1_n_n.lhsIdx_val_of_single rfl j q
/-- its column from the output's row, -/
theorem lhs_axis1 (j : S128x128.Idx) (q : dot_S4000x128_S4000x128_S128x128_0_0_1_1_n_n.contr.Idx) :
    (dot_S4000x128_S4000x128_S128x128_0_0_1_1_n_n.lhsIdx j q 1).val = (j 0).val := by
  unfold DotDims.lhsIdx
  rw [dif_neg (show ¬(1 : Fin S4000x128.rank) ∈ dot_S4000x128_S4000x128_S128x128_0_0_1_1_n_n.lhsBatch by decide), dif_pos (show (1 : Fin S4000x128.rank) ∈ dot_S4000x128_S4000x128_S128x128_0_0_1_1_n_n.lhsNonContracting by decide)]
  rfl
/-- the right operand's row from the contraction coordinate, -/
theorem rhs_axis0 (j : S128x128.Idx) (q : dot_S4000x128_S4000x128_S128x128_0_0_1_1_n_n.contr.Idx) :
    (dot_S4000x128_S4000x128_S128x128_0_0_1_1_n_n.rhsIdx j q 0).val = (q ⟨0, by decide⟩).val :=
  dot_S4000x128_S4000x128_S128x128_0_0_1_1_n_n.rhsIdx_val_of_single rfl j q
/-- and its column from the output's column. -/
theorem rhs_axis1 (j : S128x128.Idx) (q : dot_S4000x128_S4000x128_S128x128_0_0_1_1_n_n.contr.Idx) :
    (dot_S4000x128_S4000x128_S128x128_0_0_1_1_n_n.rhsIdx j q 1).val = (j 1).val := by
  unfold DotDims.rhsIdx
  rw [dif_neg (show ¬(1 : Fin S4000x128.rank) ∈ dot_S4000x128_S4000x128_S128x128_0_0_1_1_n_n.rhsBatch by decide), dif_pos (show (1 : Fin S4000x128.rank) ∈ dot_S4000x128_S4000x128_S128x128_0_0_1_1_n_n.rhsNonContracting by decide)]
  rfl

set_option maxHeartbeats 400000 in
/-- The product contracting the rows of both operands, into the zero accumulator, at entry (g, d): the sum over the
    rows `r` of a (r, g) * b (r, d). -/
theorem matmul_at (a b : FVec Ideal S4000x128 .bf16) (g d : Fin 128) :
    matmul dot_S4000x128_S4000x128_S128x128_0_0_1_1_n_n none a b (constant S128x128 .f32 0x00000000#32) (ix2 g d)
      = ∑ r : Fin 4000, a (ix2 r g) * b (ix2 r d) := by
  show FloatOps.matmul dot_S4000x128_S4000x128_S128x128_0_0_1_1_n_n none a b (constant S128x128 .f32 0x00000000#32) (ix2 g d) = _
  rw [Ideal.matmul_constant_zero_apply, ← Equiv.sum_comp (contrEquiv1 dot_S4000x128_S4000x128_S128x128_0_0_1_1_n_n 4000 rfl rfl).symm]
  refine Finset.sum_congr rfl fun k _ => ?_
  have hk := contrEquiv1_symm_val dot_S4000x128_S4000x128_S128x128_0_0_1_1_n_n 4000 rfl rfl k
  have el : dot_S4000x128_S4000x128_S128x128_0_0_1_1_n_n.lhsIdx (ix2 g d) ((contrEquiv1 dot_S4000x128_S4000x128_S128x128_0_0_1_1_n_n 4000 rfl rfl).symm k) = ix2 k g :=
    funext fun x => Fin.ext (by
      match x with
      | ⟨0, _⟩ => exact (lhs_axis0 _ _).trans hk
      | ⟨1, _⟩ => exact lhs_axis1 _ _)
  have er : dot_S4000x128_S4000x128_S128x128_0_0_1_1_n_n.rhsIdx (ix2 g d) ((contrEquiv1 dot_S4000x128_S4000x128_S128x128_0_0_1_1_n_n 4000 rfl rfl).symm k) = ix2 k d :=
    funext fun x => Fin.ext (by
      match x with
      | ⟨0, _⟩ => exact (rhs_axis0 _ _).trans hk
      | ⟨1, _⟩ => exact rhs_axis1 _ _)
  rw [el, er]

/-- A [128,128] array viewed as a [1,128,128] block, read at (0, g, d), is the array at (g, d). -/
theorem addUnit_at {α : Type} (v : S128x128.Idx → α) (g d : Fin 128) :
    shapeCast S1x128x128 v shapeCasts_S128x128_S1x128x128 (ix3 0 g d) = v (ix2 g d) :=
  (shapeCast_addUnit_apply ![128, 128] v shapeCasts_S128x128_S1x128x128 (ix3 0 g d)).trans
    (congrArg v (funext fun a => by match a with | ⟨0, _⟩ => rfl | ⟨1, _⟩ => rfl))

set_option maxHeartbeats 400000 in
/-- The region's payload at graph `g` and feature `d`: the sum over the block's rows whose graph number is `g` of the
    residual entry plus the normalised, rectified entry. -/
theorem pay_at (x0 : Vec Ideal S4000x128 .bf16) (mu var gm beta : Vec Ideal S1x128 .f32) (x5 : Vec Ideal S4000x128 .bf16)
    (bt : Vec Ideal S4000x1 .i32) (g d : Fin 128) :
    k3_pay1 x0 mu var gm beta x5 bt (ix3 0 g d)
      = ∑ r : Fin 4000, onehot (bt (ix2 r 0)) g
          * (x5 (ix2 r d) + max (gm (ix2 0 d) * (x0 (ix2 r d) - mu (ix2 0 d)) * Ideal.rsqrt (var (ix2 0 d) + eps) + beta (ix2 0 d)) 0) := by
  unfold k3_pay1
  simp only [shapeCast_self]
  rw [addUnit_at, matmul_at]
  refine Finset.sum_congr rfl fun r _ => ?_
  congr 1
  · rw [truncf_apply, sitofp_apply, extui_apply, cmpi_at, bcast_col, bcast_row, iota_at]
    exact onehot_word _ _
  · rw [truncf_apply, addf_apply, extf_apply, maximumf_apply, addf_apply, mulf_apply, mulf_apply, subf_apply, extf_apply, broadcast_apply,
      bcast_row, bcast_row, bcast_row, bcast_row]
    show x5 (ix2 r d) + max (gm (ix2 0 d) * (x0 (ix2 r d) - mu (ix2 0 d)) * Ideal.rsqrt (var (ix2 0 d) + Ideal.ofBits .f32 0x3727C5AC#32) + beta (ix2 0 d)) (Ideal.ofBits .f32 0x00000000#32) = _
    rw [Ideal.ofBits_zero_f32]
    rfl

theorem hz : (![0, 0] : Fin 2 → Nat) = fun _ => 0 := funext fun a => by fin_cases a <;> rfl
theorem hz3 : (![0, 0, 0] : Fin 3 → Nat) = fun _ => 0 := funext fun a => by fin_cases a <;> rfl

/-- A grid point of the region as a tile number. -/
def tileOf (t : Fin cfg3.N) : Fin 25 := ⟨t.val, Nat.lt_of_lt_of_eq t.isLt (N_3 : cfg3.N = 25)⟩

/-- The block indices over the grid: the node arrays' blocks and the output's block move with the point along the
    leading axis, the four rows stay. -/
theorem idx_x : ∀ t : Fin cfg3.N, win3_0.index t (0 : Fin 2) = t.val ∧ win3_0.index t (1 : Fin 2) = 0 :=
  (by decide +kernel : ∀ t : Fin grid3.N, _)
theorem idx_row1 : ∀ t : Fin cfg3.N, win3_1.index t (0 : Fin 2) = 0 ∧ win3_1.index t (1 : Fin 2) = 0 :=
  (by decide +kernel : ∀ t : Fin grid3.N, _)
theorem idx_row2 : ∀ t : Fin cfg3.N, win3_2.index t (0 : Fin 2) = 0 ∧ win3_2.index t (1 : Fin 2) = 0 :=
  (by decide +kernel : ∀ t : Fin grid3.N, _)
theorem idx_row3 : ∀ t : Fin cfg3.N, win3_3.index t (0 : Fin 2) = 0 ∧ win3_3.index t (1 : Fin 2) = 0 :=
  (by decide +kernel : ∀ t : Fin grid3.N, _)
theorem idx_row4 : ∀ t : Fin cfg3.N, win3_4.index t (0 : Fin 2) = 0 ∧ win3_4.index t (1 : Fin 2) = 0 :=
  (by decide +kernel : ∀ t : Fin grid3.N, _)
theorem idx_res : ∀ t : Fin cfg3.N, win3_5.index t (0 : Fin 2) = t.val ∧ win3_5.index t (1 : Fin 2) = 0 :=
  (by decide +kernel : ∀ t : Fin grid3.N, _)
theorem idx_bt : ∀ t : Fin cfg3.N, win3_6.index t (0 : Fin 2) = t.val ∧ win3_6.index t (1 : Fin 2) = 0 :=
  (by decide +kernel : ∀ t : Fin grid3.N, _)
theorem idx_out : ∀ t : Fin cfg3.N, win3_7.index t (0 : Fin 3) = t.val ∧ win3_7.index t (1 : Fin 3) = 0 ∧ win3_7.index t (2 : Fin 3) = 0 :=
  (by decide +kernel : ∀ t : Fin grid3.N, _)

/-- Entry (0, g, d) of the output's block at point `t` is entry (t, g, d) of the array. -/
theorem emb_out (t : Fin cfg3.N) (g d : Fin 128) :
    ((cfg3.win 7).blk t).view.emb (ix3 (0 : Fin 1) g d) = (ix3 (tileOf t) g d : S25x128x128.Idx) := by
  obtain ⟨o0, o1, o2⟩ := idx_out t
  funext a; apply Fin.ext
  match a with
  | ⟨0, _⟩ => show win3_7.index t (0 : Fin 3) * 1 + 1 * 0 = t.val; omega
  | ⟨1, _⟩ => show win3_7.index t (1 : Fin 3) * 128 + 1 * g.val = g.val; omega
  | ⟨2, _⟩ => show win3_7.index t (2 : Fin 3) * 128 + 1 * d.val = d.val; omega

variable (V : (c : Dev nD) → (b : Ref sig .tc) → Buf (Elt Ideal) ((c : Thread nD τ).loc b))

/-- The node array's block at point `t` is its rows `4000 t … 4000 t + 3999`. -/
theorem blk_x (c : Dev nD) (t : Fin cfg3.N) (r : Fin 4000) (q : Fin 128) :
    iblk3 V c 0 t (ix2 r q) = V c main_v54_0 (ix2 (tileRow (tileOf t) r) q) := by
  obtain ⟨e0, e1⟩ := idx_x t
  show V c main_v54_0 (((cfg3.win 0).blk t).view.emb (ix2 r q)) = _
  congr 1
  funext a; apply Fin.ext
  match a with
  | ⟨0, _⟩ => show win3_0.index t (0 : Fin 2) * 4000 + 1 * r.val = t.val * 4000 + r.val; omega
  | ⟨1, _⟩ => show win3_0.index t (1 : Fin 2) * 128 + 1 * q.val = q.val; omega

/-- Each of the four rows' blocks is the whole row, at every point. -/
theorem blk_mu (c : Dev nD) (t : Fin cfg3.N) (q : Fin 128) : iblk3 V c 1 t (ix2 0 q) = V c main_v58 (ix2 0 q) := by
  obtain ⟨e0, e1⟩ := idx_row1 t
  show V c main_v58 (((cfg3.win 1).blk t).view.emb (ix2 0 q)) = _
  congr 1
  funext a; apply Fin.ext
  match a with
  | ⟨0, _⟩ => show win3_1.index t (0 : Fin 2) * 1 + 1 * 0 = 0; omega
  | ⟨1, _⟩ => show win3_1.index t (1 : Fin 2) * 128 + 1 * q.val = q.val; omega

theorem blk_var (c : Dev nD) (t : Fin cfg3.N) (q : Fin 128) : iblk3 V c 2 t (ix2 0 q) = V c main_v64 (ix2 0 q) := by
  obtain ⟨e0, e1⟩ := idx_row2 t
  show V c main_v64 (((cfg3.win 2).blk t).view.emb (ix2 0 q)) = _
  congr 1
  funext a; apply Fin.ext
  match a with
  | ⟨0, _⟩ => show win3_2.index t (0 : Fin 2) * 1 + 1 * 0 = 0; omega
  | ⟨1, _⟩ => show win3_2.index t (1 : Fin 2) * 128 + 1 * q.val = q.val; omega

theorem blk_g (c : Dev nD) (t : Fin cfg3.N) (q : Fin 128) : iblk3 V c 3 t (ix2 0 q) = V c main_v66 (ix2 0 q) := by
  obtain ⟨e0, e1⟩ := idx_row3 t
  show V c main_v66 (((cfg3.win 3).blk t).view.emb (ix2 0 q)) = _
  congr 1
  funext a; apply Fin.ext
  match a with
  | ⟨0, _⟩ => show win3_3.index t (0 : Fin 2) * 1 + 1 * 0 = 0; omega
  | ⟨1, _⟩ => show win3_3.index t (1 : Fin 2) * 128 + 1 * q.val = q.val; omega

theorem blk_beta (c : Dev nD) (t : Fin cfg3.N) (q : Fin 128) : iblk3 V c 4 t (ix2 0 q) = V c main_v67 (ix2 0 q) := by
  obtain ⟨e0, e1⟩ := idx_row4 t
  show V c main_v67 (((cfg3.win 4).blk t).view.emb (ix2 0 q)) = _
  congr 1
  funext a; apply Fin.ext
  match a with
  | ⟨0, _⟩ => show win3_4.index t (0 : Fin 2) * 1 + 1 * 0 = 0; omega
  | ⟨1, _⟩ => show win3_4.index t (1 : Fin 2) * 128 + 1 * q.val = q.val; omega

/-- The residual array's block at point `t` is its rows `4000 t … 4000 t + 3999`. -/
theorem blk_res (c : Dev nD) (t : Fin cfg3.N) (r : Fin 4000) (q : Fin 128) :
    iblk3 V c 5 t (ix2 r q) = V c main_v39 (ix2 (tileRow (tileOf t) r) q) := by
  obtain ⟨e0, e1⟩ := idx_res t
  show V c main_v39 (((cfg3.win 5).blk t).view.emb (ix2 r q)) = _
  congr 1
  funext a; apply Fin.ext
  match a with
  | ⟨0, _⟩ => show win3_5.index t (0 : Fin 2) * 4000 + 1 * r.val = t.val * 4000 + r.val; omega
  | ⟨1, _⟩ => show win3_5.index t (1 : Fin 2) * 128 + 1 * q.val = q.val; omega

/-- The graph-number column's block at point `t` is its rows `4000 t … 4000 t + 3999`. -/
theorem blk_bt (c : Dev nD) (t : Fin cfg3.N) (r : Fin 4000) :
    iblk3 V c 6 t (ix2 r (0 : Fin 1)) = V c main_v65 (ix2 (tileRow (tileOf t) r) 0) := by
  obtain ⟨e0, e1⟩ := idx_bt t
  show V c main_v65 (((cfg3.win 6).blk t).view.emb (ix2 r (0 : Fin 1))) = _
  congr 1
  funext a; apply Fin.ext
  match a with
  | ⟨0, _⟩ => show win3_6.index t (0 : Fin 2) * 4000 + 1 * r.val = t.val * 4000 + r.val; omega
  | ⟨1, _⟩ => show win3_6.index t (1 : Fin 2) * 1 + 1 * 0 = 0; omega

set_option maxHeartbeats 400000 in
/-- What point `t` writes back is block `t` of the pooled partial sums of the arrays the region finds. -/
theorem flushed_eq (c : Dev nD) (t : Fin cfg3.N) :
    (dat3 (F := Ideal) V c).flushed 7 t
      = ((cfg3.win 7).blk t).view.read (Elt Ideal) (pool (V c main_v54_0) (V c main_v58) (V c main_v64) (V c main_v66) (V c main_v67) (V c main_v39) (V c main_v65)) := by
  show (cfg3.win 7).cut (grid3.coords t) ((dat3 V c).after 7 t) = _
  rw [after3_7]
  unfold out3_7
  rw [View.canon_unit_zero hz3]
  simp only [View.ld_unit_zero (S := S4000x128) hz, View.ld_unit_zero (S := S1x128) hz, View.ld_unit_zero (S := S4000x1) hz]
  funext j
  obtain ⟨z, g, d, rfl⟩ : ∃ (z : Fin 1) (g d : Fin 128), j = ix3 z g d := ⟨j 0, j 1, j 2, eq_ix3 j⟩
  obtain rfl : z = 0 := Fin.eq_zero z
  show k3_pay1 (iblk3 V c 0 t) (iblk3 V c 1 t) (iblk3 V c 2 t) (iblk3 V c 3 t) (iblk3 V c 4 t) (iblk3 V c 5 t) (iblk3 V c 6 t) (ix3 0 g d)
      = pool (V c main_v54_0) (V c main_v58) (V c main_v64) (V c main_v66) (V c main_v67) (V c main_v39) (V c main_v65) (((cfg3.win 7).blk t).view.emb (ix3 (0 : Fin 1) g d))
  rw [pay_at, emb_out]
  unfold Cert.Spec.pool
  refine Finset.sum_congr rfl fun r _ => ?_
  rw [blk_x, blk_mu, blk_var, blk_g, blk_beta, blk_res, blk_bt]
  rfl

/-- An index of the array is in point `t`'s block iff each coordinate is in the block's range on its axis. -/
theorem mem_blk (t : Fin cfg3.N) (i : S25x128x128.Idx) :
    i ∈ ((cfg3.win 7).blk t).view.set ↔ ∀ a : Fin 3, win3_7.index t a * S1x128x128.size a ≤ (i a).val ∧ (i a).val < win3_7.index t a * S1x128x128.size a + S1x128x128.size a := by
  show i ∈ ((View.whole main_v68).slice (win3_7.rect t)).set ↔ _
  rw [View.set_slice_whole, Rect.mem_set_unit]
  exact Iff.rfl

/-- Every index of the array is in the block of the point its leading coordinate names. -/
theorem cover (i : S25x128x128.Idx) : ∃ t : Fin cfg3.N, (cfg3.win 7).flush t = true ∧ i ∈ ((cfg3.win 7).blk t).view.set := by
  have hi0 : (i 0).val < 25 := (i 0).isLt
  have hi1 : (i 1).val < 128 := (i 1).isLt
  have hi2 : (i 2).val < 128 := (i 2).isLt
  have hN : cfg3.N = 25 := N_3
  obtain ⟨t, ht⟩ : ∃ t : Fin cfg3.N, t.val = (i 0).val := ⟨⟨(i 0).val, by rw [hN]; exact hi0⟩, rfl⟩
  refine ⟨t, flush3_7 t, ?_⟩
  rw [mem_blk]
  obtain ⟨o0, o1, o2⟩ := idx_out t
  intro a
  match a with
  | ⟨0, _⟩ => show win3_7.index t (0 : Fin 3) * 1 ≤ (i 0).val ∧ (i 0).val < win3_7.index t (0 : Fin 3) * 1 + 1; omega
  | ⟨1, _⟩ => show win3_7.index t (1 : Fin 3) * 128 ≤ (i 1).val ∧ (i 1).val < win3_7.index t (1 : Fin 3) * 128 + 128; omega
  | ⟨2, _⟩ => show win3_7.index t (2 : Fin 3) * 128 ≤ (i 2).val ∧ (i 2).val < win3_7.index t (2 : Fin 3) * 128 + 128; omega

theorem arr3_7 (c : Dev nD) : (dat3 (F := Ideal) V c).arrAt 7 cfg3.N
    = pool (V c main_v54_0) (V c main_v58) (V c main_v64) (V c main_v66) (V c main_v67) (V c main_v39) (V c main_v65) :=
  (dat3 (F := Ideal) V c).arrAt_eq_of_cover 7 (pool (V c main_v54_0) (V c main_v58) (V c main_v64) (V c main_v66) (V c main_v67) (V c main_v39) (V c main_v65))
    (fun t _ => flushed_eq V c t) cover

end Cert.KernelIdeal.KV3

end
-- ==== Proof.RefLayer1.lean ====
/-
  The reference's first layer, read entry by entry: its linear part is the layer function of the neighbour sum, the
  reciprocal of the clamped degree, the transposed weights and the bias row; its normalised rectified output is the
  layer function with the column means and the column variances of the linear part.
-/
import proofs.«414989_j78658031059101_2_alg».proof.Proof.Gen.ReferenceIdeal.Read
import proofs.«414989_j78658031059101_2_alg».proof.Proof.Spec
import proofs.«414989_j78658031059101_2_alg».proof.Proof.SpecLaws
import proofs.«414989_j78658031059101_2_alg».proof.Proof.LibRealValued
import proofs.«414989_j78658031059101_2_alg».proof.Proof.LibIdealReal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefLayer1

open Cert.ReferenceIdeal Cert.ReferenceIdeal.Read Cert.Spec RealValued
open Idealize.ShloMosaic Idealize.ShloMosaic.TcCoe Idealize.ShloMosaic.ValueIdx

variable (x0 : (⟨S100000x8, .f32⟩ : BufTy).Contents (Elt Ideal)) (x1 : (⟨S2x1600000, .i32⟩ : BufTy).Contents (Elt Ideal))
  (x3 : (⟨S128x8, .f32⟩ : BufTy).Contents (Elt Ideal)) (x4 : (⟨S128, .f32⟩ : BufTy).Contents (Elt Ideal)) (x5 : (⟨S128x8, .f32⟩ : BufTy).Contents (Elt Ideal))
  (x6 x7 : (⟨S128, .f32⟩ : BufTy).Contents (Elt Ideal))

/-! ## The degree -/

/-- A scattered sum of ones onto zeros counts, at each entry, the updates that land there. -/
theorem scatterAdd_zero_ones_apply {s si su : Shape} {φ : FTy} (d : ScatterDims s si su) {w : Nat} (idx : IVec si w)
    (zero : FVec Ideal s φ) (ones : FVec Ideal su φ) (h0 : ∀ i, zero i = 0) (h1 : ∀ j, ones j = 1) (i : s.Idx) :
    Host.scatterAdd (F := Ideal) d zero idx ones i
      = (((Finset.univ.filter fun j => d.resultIdx? j idx = some i).card : ℝ) : EReal) := by
  show zero i + ∑ j ∈ Finset.univ.filter (fun j => d.resultIdx? j idx = some i), ones j = _
  rw [h0 i, zero_add, Finset.sum_congr rfl (fun j _ => h1 j), Finset.sum_const, nsmul_one, EReal.coe_natCast]

/-- The greater of a natural number and one is a real number not below one. -/
theorem max_nat_one (m : ℕ) : ∃ r : ℝ, 1 ≤ r ∧ max (((m : ℝ) : EReal)) 1 = (r : EReal) := by
  rcases le_total (((m : ℝ) : EReal)) 1 with h | h
  · exact ⟨1, le_refl _, by rw [max_eq_right h, EReal.coe_one]⟩
  · refine ⟨(m : ℝ), ?_, max_eq_left h⟩
    rw [← EReal.coe_one, EReal.coe_le_coe_iff] at h
    exact h

/-- The clamped degree is a real number not below one. -/
theorem dmax_ge_one (i : S100000.Idx) : ∃ r : ℝ, 1 ≤ r ∧ val_main_v19 (F := Ideal) x1 i = (r : EReal) := by
  rw [val_main_v19_apply, val_main_v18_apply, val_main_cst_3_apply]
  have h17 : val_main_v17 (F := Ideal) x1 i = _ :=
    scatterAdd_zero_ones_apply scatter_S100000_S1600000x1_S1600000_n_0_0_1 (val_main_v16 (F := Ideal) x1)
      (val_main_v15 (F := Ideal)) (val_main_v14 (F := Ideal))
      (fun i => by rw [val_main_v15_apply, val_main_cst_2_apply]; exact Ideal.ofBits_zero_f32)
      (fun j => by rw [val_main_v14_apply, val_main_cst_1_apply]; exact Ideal.ofBits_one_f32) i
  rw [h17]
  show ∃ r : ℝ, 1 ≤ r ∧ max _ (Ideal.ofBits .f32 0x3F800000#32) = (r : EReal)
  rw [Ideal.ofBits_one_f32]
  exact max_nat_one _

/-- The clamped degree is not zero. -/
theorem dmax_ne_zero (i : S100000.Idx) : val_main_v19 (F := Ideal) x1 i ≠ 0 := by
  obtain ⟨r, hr, e⟩ := dmax_ge_one x1 i
  rw [e, ← EReal.coe_zero, Ne, EReal.coe_eq_coe_iff]
  intro h; rw [h] at hr; exact absurd hr (by norm_num)

/-- The reciprocal of the clamped degree has real entries. -/
theorem invD_real : IsReal (invOf (val_main_v19 (F := Ideal) x1)) := by
  intro i
  obtain ⟨r, hr, e⟩ := dmax_ge_one x1 (ix1 (i 0))
  have hne : r ≠ 0 := by intro h; rw [h] at hr; exact absurd hr (by norm_num)
  refine ⟨1 / r, ?_⟩
  show Ideal.div 1 (val_main_v19 (F := Ideal) x1 (ix1 (i 0))) = _
  rw [e, ← EReal.coe_one, IdealReal.div_coe_coe _ _ hne]

/-! ## The linear part -/

/-- One entry of the neighbour mean: the quotient by the clamped degree is the product with its reciprocal. -/
theorem v22_at (n : Fin 100000) (c : Fin 128) (k : Fin 8) :
    val_main_v22 (F := Ideal) x0 x1 (lidx_main_v24 (ix2 n c) k)
      = val_main_v13 (F := Ideal) x0 x1 (ix2 n k) * invOf (val_main_v19 (F := Ideal) x1) (ix2 n 0) := by
  have e1 : lidx_main_v24 (ix2 n c) k = ix2 n k :=
    funext fun a => Fin.ext (by match a with | ⟨0, _⟩ => rfl | ⟨1, _⟩ => rfl)
  have e5 : idx_main_v20 (idx_main_v21 (ix2 n k)) = ix1 n :=
    funext fun a => Fin.ext (by match a with | ⟨0, _⟩ => rfl)
  rw [e1, val_main_v22_apply, val_main_v21_apply, val_main_v20_apply, e5]
  exact (mul_inv_eq_div _ _ (dmax_ne_zero x1 (ix1 n))).symm

/-- The linear part of layer 1. -/
theorem ref_h1 : val_main_v30 (F := Ideal) x0 x1 x3 x4 x5
    = lin8 (val_main_v13 (F := Ideal) x0 x1) x0 (invOf (val_main_v19 (F := Ideal) x1)) (val_main_v23 (F := Ideal) x3)
        (val_main_v25 (F := Ideal) x4) (val_main_v28 (F := Ideal) x5) := by
  funext j
  obtain ⟨n, c, rfl⟩ : ∃ n c, j = ix2 n c := ⟨j 0, j 1, eq_ix2 j⟩
  rw [val_main_v30_apply, val_main_v27_apply, val_main_v24_apply, val_main_v26_apply, val_main_v29_apply]
  have e2 : ∀ k : Fin 8, ridx_main_v24 (ix2 n c) k = ix2 k c := fun k =>
    funext fun a => Fin.ext (by match a with | ⟨0, _⟩ => rfl | ⟨1, _⟩ => rfl)
  have e3 : ∀ k : Fin 8, lidx_main_v29 (ix2 n c) k = ix2 n k := fun k =>
    funext fun a => Fin.ext (by match a with | ⟨0, _⟩ => rfl | ⟨1, _⟩ => rfl)
  have e4 : ∀ k : Fin 8, ridx_main_v29 (ix2 n c) k = ix2 k c := fun k =>
    funext fun a => Fin.ext (by match a with | ⟨0, _⟩ => rfl | ⟨1, _⟩ => rfl)
  have e6 : idx_main_v26 (ix2 n c) = ix2 0 c :=
    funext fun a => Fin.ext (by match a with | ⟨0, _⟩ => rfl | ⟨1, _⟩ => rfl)
  simp only [v22_at, e2, e3, e4, e6]
  generalize val_main_v13 (F := Ideal) x0 x1 = A
  generalize invOf (val_main_v19 (F := Ideal) x1) = D
  generalize val_main_v23 (F := Ideal) x3 = Wl
  generalize val_main_v25 (F := Ideal) x4 = b
  generalize val_main_v28 (F := Ideal) x5 = Wr
  rfl

/-- The neighbour sum of real features has real entries. -/
theorem v13_real (h0 : IsReal x0) : IsReal (val_main_v13 (F := Ideal) x0 x1) := by
  unfold val_main_v13 val_main_v11 val_main_v10 val_main_cst
  exact isReal_scatterAdd _ _ (isReal_broadcastInDim isReal_const_zero) (isReal_gather _ _ h0)

/-- With real inputs the linear part of layer 1 has real entries. -/
theorem ref_h1_real (h0 : IsReal x0) (h3 : IsReal x3) (h4 : IsReal x4) (h5 : IsReal x5) :
    IsReal (val_main_v30 (F := Ideal) x0 x1 x3 x4 x5) := by
  rw [ref_h1]
  exact lin8_real (v13_real x0 x1 h0) h0 (invD_real x1) (isReal_transpose h3) (isReal_broadcastInDim h4) (isReal_transpose h5)

/-! ## The normalisation -/

/-- The reference's mean entry is the column mean of the linear part. -/
theorem v33_eq (c : Fin 128) : val_main_v33 (F := Ideal) x0 x1 x3 x4 x5 (ix1 c)
    = muRow (val_main_v30 (F := Ideal) x0 x1 x3 x4 x5) (ix2 0 c) := by
  have e : ∀ m : Fin 100000, idx_main_v31 (ix1 c) m = ix2 m c := fun m =>
    funext fun a => Fin.ext (by match a with | ⟨0, _⟩ => rfl | ⟨1, _⟩ => rfl)
  rw [val_main_v33_apply, val_main_v31_apply, val_main_v32_apply, val_main_cst_5_apply, val_main_cst_4_apply]
  simp only [e]
  generalize val_main_v30 (F := Ideal) x0 x1 x3 x4 x5 = H
  show Ideal.div (Ideal.ofBits .f32 0x00000000#32 + ∑ m : Fin 100000, H (ix2 m c)) nNodes = _
  rw [Ideal.ofBits_zero_f32, zero_add]
  rfl

/-- One squared deviation from the column mean. -/
theorem v37_at (c : Fin 128) (m : Fin 100000) :
    val_main_v37 (F := Ideal) x0 x1 x3 x4 x5 (idx_main_v38 (ix1 c) m)
      = (val_main_v30 (F := Ideal) x0 x1 x3 x4 x5 (ix2 m c) - muRow (val_main_v30 (F := Ideal) x0 x1 x3 x4 x5) (ix2 0 c))
        * (val_main_v30 (F := Ideal) x0 x1 x3 x4 x5 (ix2 m c) - muRow (val_main_v30 (F := Ideal) x0 x1 x3 x4 x5) (ix2 0 c)) := by
  have e : idx_main_v38 (ix1 c) m = ix2 m c :=
    funext fun a => Fin.ext (by match a with | ⟨0, _⟩ => rfl | ⟨1, _⟩ => rfl)
  have e' : idx_main_v34 (idx_main_v35 (ix2 m c)) = ix1 c :=
    funext fun a => Fin.ext (by match a with | ⟨0, _⟩ => rfl)
  rw [e, val_main_v37_apply, val_main_v36_apply, val_main_v35_apply, val_main_v34_apply, e', v33_eq]
  generalize val_main_v30 (F := Ideal) x0 x1 x3 x4 x5 = H
  rfl

/-- The reference's variance entry, the mean of the squared deviations, is the column variance of the linear part
    when its entries are real. -/
theorem v40_eq (hH : IsReal (val_main_v30 (F := Ideal) x0 x1 x3 x4 x5)) (c : Fin 128) :
    val_main_v40 (F := Ideal) x0 x1 x3 x4 x5 (ix1 c)
      = varRow (val_main_v30 (F := Ideal) x0 x1 x3 x4 x5) (ix2 0 c) := by
  rw [val_main_v40_apply, val_main_v38_apply, val_main_v39_apply, val_main_cst_7_apply, val_main_cst_6_apply]
  simp only [v37_at]
  generalize val_main_v30 (F := Ideal) x0 x1 x3 x4 x5 = H at hH ⊢
  have L := var_law (fun n => H (ix2 n c)) (fun n => hH (ix2 n c))
  show Ideal.div (Ideal.ofBits .f32 0x00000000#32
      + ∑ m : Fin 100000, (H (ix2 m c) - muRow H (ix2 0 c)) * (H (ix2 m c) - muRow H (ix2 0 c))) nNodes = _
  rw [Ideal.ofBits_zero_f32, zero_add]
  exact L.symm

/-- The output of layer 1, when its linear part has real entries. -/
theorem ref_x1 (hH : IsReal (val_main_v30 (F := Ideal) x0 x1 x3 x4 x5)) :
    val_main_v56 (F := Ideal) x0 x1 x3 x4 x5 x6 x7
      = bnrelu (val_main_v30 (F := Ideal) x0 x1 x3 x4 x5) (muRow (val_main_v30 (F := Ideal) x0 x1 x3 x4 x5))
          (varRow (val_main_v30 (F := Ideal) x0 x1 x3 x4 x5)) (val_main_v44 (F := Ideal) x6) (val_main_v53 (F := Ideal) x7) := by
  funext j
  obtain ⟨n, c, rfl⟩ : ∃ n c, j = ix2 n c := ⟨j 0, j 1, eq_ix2 j⟩
  have e42 : idx_main_v41 (idx_main_v42 (ix2 n c)) = ix1 c :=
    funext fun a => Fin.ext (by match a with | ⟨0, _⟩ => rfl)
  have e51 : idx_main_v50 (idx_main_v51 (ix2 n c)) = ix1 c :=
    funext fun a => Fin.ext (by match a with | ⟨0, _⟩ => rfl)
  have e45 : idx_main_v45 (ix2 n c) = ix2 0 c :=
    funext fun a => Fin.ext (by match a with | ⟨0, _⟩ => rfl | ⟨1, _⟩ => rfl)
  have e54 : idx_main_v54 (ix2 n c) = ix2 0 c :=
    funext fun a => Fin.ext (by match a with | ⟨0, _⟩ => rfl | ⟨1, _⟩ => rfl)
  rw [val_main_v56_apply, val_main_v55_apply, val_main_v52_apply, val_main_v46_apply, val_main_v45_apply,
    val_main_v43_apply, val_main_v42_apply, val_main_v41_apply, val_main_v51_apply, val_main_v50_apply,
    val_main_v49_apply, val_main_v48_apply, val_main_v47_apply, val_main_cst_8_apply, val_main_v54_apply,
    val_main_call0_v0_apply, val_main_call0_cst_apply, e42, e51, e45, e54, v33_eq, v40_eq x0 x1 x3 x4 x5 hH]
  generalize val_main_v30 (F := Ideal) x0 x1 x3 x4 x5 = H
  generalize val_main_v44 (F := Ideal) x6 = g
  generalize val_main_v53 (F := Ideal) x7 = beta
  show max (g (ix2 0 c) * (H (ix2 n c) - muRow H (ix2 0 c)) * Ideal.rsqrt (varRow H (ix2 0 c) + eps) + beta (ix2 0 c))
      (Ideal.ofBits .f32 0x00000000#32) = _
  rw [Ideal.ofBits_zero_f32]
  rfl

/-- With real inputs the output of layer 1 has real entries. -/
theorem ref_x1_real (h0 : IsReal x0) (h3 : IsReal x3) (h4 : IsReal x4) (h5 : IsReal x5) (h6 : IsReal x6) (h7 : IsReal x7) :
    IsReal (val_main_v56 (F := Ideal) x0 x1 x3 x4 x5 x6 x7) := by
  have hH := ref_h1_real x0 x1 x3 x4 x5 h0 h3 h4 h5
  rw [ref_x1 x0 x1 x3 x4 x5 x6 x7 hH]
  exact bnrelu_real hH (muRow_real hH) (varRow_nonneg hH) (isReal_broadcastInDim h6) (isReal_broadcastInDim h7)

end Cert.ReferenceIdeal.RefLayer1

end
-- ==== Proof.RefLayer2.lean ====
/-
  The reference's second layer, read entry by entry, over the first layer's output.
-/
import proofs.«414989_j78658031059101_2_alg».proof.Proof.Gen.ReferenceIdeal.Read
import proofs.«414989_j78658031059101_2_alg».proof.Proof.Spec
import proofs.«414989_j78658031059101_2_alg».proof.Proof.SpecLaws
import proofs.«414989_j78658031059101_2_alg».proof.Proof.LibRealValued
import proofs.«414989_j78658031059101_2_alg».proof.Proof.LibIdealReal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefLayer2

open Cert.ReferenceIdeal Cert.ReferenceIdeal.Read Cert.Spec RealValued
open Idealize.ShloMosaic Idealize.ShloMosaic.TcCoe Idealize.ShloMosaic.ValueIdx

variable (x0 : (⟨S100000x8, .f32⟩ : BufTy).Contents (Elt Ideal)) (x1 : (⟨S2x1600000, .i32⟩ : BufTy).Contents (Elt Ideal))
  (x3 : (⟨S128x8, .f32⟩ : BufTy).Contents (Elt Ideal)) (x4 : (⟨S128, .f32⟩ : BufTy).Contents (Elt Ideal)) (x5 : (⟨S128x8, .f32⟩ : BufTy).Contents (Elt Ideal))
  (x6 x7 : (⟨S128, .f32⟩ : BufTy).Contents (Elt Ideal))
  (x8 : (⟨S128x128, .f32⟩ : BufTy).Contents (Elt Ideal)) (x9 : (⟨S128, .f32⟩ : BufTy).Contents (Elt Ideal)) (x10 : (⟨S128x128, .f32⟩ : BufTy).Contents (Elt Ideal))
  (x11 x12 : (⟨S128, .f32⟩ : BufTy).Contents (Elt Ideal))

/-! ## The degree -/

/-- A scattered sum of ones onto zeros counts, at each entry, the updates that land there. -/
theorem scatterAdd_zero_ones_apply {s si su : Shape} {φ : FTy} (d : ScatterDims s si su) {w : Nat} (idx : IVec si w)
    (zero : FVec Ideal s φ) (ones : FVec Ideal su φ) (h0 : ∀ i, zero i = 0) (h1 : ∀ j, ones j = 1) (i : s.Idx) :
    Host.scatterAdd (F := Ideal) d zero idx ones i
      = (((Finset.univ.filter fun j => d.resultIdx? j idx = some i).card : ℝ) : EReal) := by
  show zero i + ∑ j ∈ Finset.univ.filter (fun j => d.resultIdx? j idx = some i), ones j = _
  rw [h0 i, zero_add, Finset.sum_congr rfl (fun j _ => h1 j), Finset.sum_const, nsmul_one, EReal.coe_natCast]

/-- The greater of a natural number and one is a real number not below one. -/
theorem max_nat_one (m : ℕ) : ∃ r : ℝ, 1 ≤ r ∧ max (((m : ℝ) : EReal)) 1 = (r : EReal) := by
  rcases le_total (((m : ℝ) : EReal)) 1 with h | h
  · exact ⟨1, le_refl _, by rw [max_eq_right h, EReal.coe_one]⟩
  · refine ⟨(m : ℝ), ?_, max_eq_left h⟩
    rw [← EReal.coe_one, EReal.coe_le_coe_iff] at h
    exact h

theorem dmax_ge_one (i : S100000.Idx) : ∃ r : ℝ, 1 ≤ r ∧ val_main_v72 (F := Ideal) x1 i = (r : EReal) := by
  rw [val_main_v72_apply, val_main_v71_apply, val_main_cst_14_apply]
  have h70 : val_main_v70 (F := Ideal) x1 i = _ :=
    scatterAdd_zero_ones_apply scatter_S100000_S1600000x1_S1600000_n_0_0_1 (val_main_v69 (F := Ideal) x1)
      (val_main_v68 (F := Ideal)) (val_main_v67 (F := Ideal))
      (fun i => by rw [val_main_v68_apply, val_main_cst_13_apply]; exact Ideal.ofBits_zero_f32)
      (fun j => by rw [val_main_v67_apply, val_main_cst_12_apply]; exact Ideal.ofBits_one_f32) i
  rw [h70]
  show ∃ r : ℝ, 1 ≤ r ∧ max _ (Ideal.ofBits .f32 0x3F800000#32) = (r : EReal)
  rw [Ideal.ofBits_one_f32]
  exact max_nat_one _

/-- The clamped degree is not zero. -/
theorem dmax_ne_zero (i : S100000.Idx) : val_main_v72 (F := Ideal) x1 i ≠ 0 := by
  obtain ⟨r, hr, e⟩ := dmax_ge_one x1 i
  rw [e, ← EReal.coe_zero, Ne, EReal.coe_eq_coe_iff]
  intro h; rw [h] at hr; exact absurd hr (by norm_num)

/-- The reciprocal of the clamped degree has real entries. -/
theorem invD_real : IsReal (invOf (val_main_v72 (F := Ideal) x1)) := by
  intro i
  obtain ⟨r, hr, e⟩ := dmax_ge_one x1 (ix1 (i 0))
  have hne : r ≠ 0 := by intro h; rw [h] at hr; exact absurd hr (by norm_num)
  refine ⟨1 / r, ?_⟩
  show Ideal.div 1 (val_main_v72 (F := Ideal) x1 (ix1 (i 0))) = _
  rw [e, ← EReal.coe_one, IdealReal.div_coe_coe _ _ hne]

/-! ## The linear part -/

/-- One entry of the neighbour mean: the quotient by the clamped degree is the product with its reciprocal. -/
theorem v75_at (n : Fin 100000) (c : Fin 128) (k : Fin 128) :
    val_main_v75 (F := Ideal) x0 x1 x3 x4 x5 x6 x7 (lidx_main_v77 (ix2 n c) k)
      = val_main_v66 (F := Ideal) x0 x1 x3 x4 x5 x6 x7 (ix2 n k) * invOf (val_main_v72 (F := Ideal) x1) (ix2 n 0) := by
  have e1 : lidx_main_v77 (ix2 n c) k = ix2 n k :=
    funext fun a => Fin.ext (by match a with | ⟨0, _⟩ => rfl | ⟨1, _⟩ => rfl)
  have e5 : idx_main_v73 (idx_main_v74 (ix2 n k)) = ix1 n :=
    funext fun a => Fin.ext (by match a with | ⟨0, _⟩ => rfl)
  rw [e1, val_main_v75_apply, val_main_v74_apply, val_main_v73_apply, e5]
  exact (mul_inv_eq_div _ _ (dmax_ne_zero x1 (ix1 n))).symm

/-- The linear part of layer 2. -/
theorem ref_h2 : val_main_v83 (F := Ideal) x0 x1 x3 x4 x5 x6 x7 x8 x9 x10
    = lin128 (val_main_v66 (F := Ideal) x0 x1 x3 x4 x5 x6 x7) (val_main_v56 (F := Ideal) x0 x1 x3 x4 x5 x6 x7)
        (invOf (val_main_v72 (F := Ideal) x1)) (val_main_v76 (F := Ideal) x8) (val_main_v78 (F := Ideal) x9) (val_main_v81 (F := Ideal) x10) := by
  funext j
  obtain ⟨n, c, rfl⟩ : ∃ n c, j = ix2 n c := ⟨j 0, j 1, eq_ix2 j⟩
  rw [val_main_v83_apply, val_main_v80_apply, val_main_v77_apply, val_main_v79_apply, val_main_v82_apply]
  have e2 : ∀ k : Fin 128, ridx_main_v77 (ix2 n c) k = ix2 k c := fun k =>
    funext fun a => Fin.ext (by match a with | ⟨0, _⟩ => rfl | ⟨1, _⟩ => rfl)
  have e3 : ∀ k : Fin 128, lidx_main_v82 (ix2 n c) k = ix2 n k := fun k =>
    funext fun a => Fin.ext (by match a with | ⟨0, _⟩ => rfl | ⟨1, _⟩ => rfl)
  have e4 : ∀ k : Fin 128, ridx_main_v82 (ix2 n c) k = ix2 k c := fun k =>
    funext fun a => Fin.ext (by match a with | ⟨0, _⟩ => rfl | ⟨1, _⟩ => rfl)
  have e6 : idx_main_v79 (ix2 n c) = ix2 0 c :=
    funext fun a => Fin.ext (by match a with | ⟨0, _⟩ => rfl | ⟨1, _⟩ => rfl)
  simp only [v75_at, e2, e3, e4, e6]
  generalize val_main_v66 (F := Ideal) x0 x1 x3 x4 x5 x6 x7 = A
  generalize val_main_v56 (F := Ideal) x0 x1 x3 x4 x5 x6 x7 = X
  generalize invOf (val_main_v72 (F := Ideal) x1) = D
  generalize val_main_v76 (F := Ideal) x8 = Wl
  generalize val_main_v78 (F := Ideal) x9 = b
  generalize val_main_v81 (F := Ideal) x10 = Wr
  rfl

/-- The neighbour sum of a real first-layer output has real entries. -/
theorem v66_real (hX : IsReal (val_main_v56 (F := Ideal) x0 x1 x3 x4 x5 x6 x7)) : IsReal (val_main_v66 (F := Ideal) x0 x1 x3 x4 x5 x6 x7) := by
  unfold val_main_v66 val_main_v64 val_main_v63 val_main_cst_11
  exact isReal_scatterAdd _ _ (isReal_broadcastInDim isReal_const_zero) (isReal_gather _ _ hX)

/-- With a real first-layer output and real weights the linear part of layer 2 has real entries. -/
theorem ref_h2_real (hX : IsReal (val_main_v56 (F := Ideal) x0 x1 x3 x4 x5 x6 x7)) (h8 : IsReal x8) (h9 : IsReal x9) (h10 : IsReal x10) :
    IsReal (val_main_v83 (F := Ideal) x0 x1 x3 x4 x5 x6 x7 x8 x9 x10) := by
  rw [ref_h2]
  exact lin128_real (v66_real x0 x1 x3 x4 x5 x6 x7 hX) hX (invD_real x1) (isReal_transpose h8) (isReal_broadcastInDim h9) (isReal_transpose h10)

/-! ## The normalisation -/

/-- The reference's mean entry is the column mean of the linear part. -/
theorem v86_eq (c : Fin 128) : val_main_v86 (F := Ideal) x0 x1 x3 x4 x5 x6 x7 x8 x9 x10 (ix1 c)
    = muRow (val_main_v83 (F := Ideal) x0 x1 x3 x4 x5 x6 x7 x8 x9 x10) (ix2 0 c) := by
  have e : ∀ m : Fin 100000, idx_main_v84 (ix1 c) m = ix2 m c := fun m =>
    funext fun a => Fin.ext (by match a with | ⟨0, _⟩ => rfl | ⟨1, _⟩ => rfl)
  rw [val_main_v86_apply, val_main_v84_apply, val_main_v85_apply, val_main_cst_16_apply, val_main_cst_15_apply]
  simp only [e]
  generalize val_main_v83 (F := Ideal) x0 x1 x3 x4 x5 x6 x7 x8 x9 x10 = H
  show Ideal.div (Ideal.ofBits .f32 0x00000000#32 + ∑ m : Fin 100000, H (ix2 m c)) nNodes = _
  rw [Ideal.ofBits_zero_f32, zero_add]
  rfl

/-- One squared deviation from the column mean. -/
theorem v90_at (c : Fin 128) (m : Fin 100000) :
    val_main_v90 (F := Ideal) x0 x1 x3 x4 x5 x6 x7 x8 x9 x10 (idx_main_v91 (ix1 c) m)
      = (val_main_v83 (F := Ideal) x0 x1 x3 x4 x5 x6 x7 x8 x9 x10 (ix2 m c) - muRow (val_main_v83 (F := Ideal) x0 x1 x3 x4 x5 x6 x7 x8 x9 x10) (ix2 0 c))
        * (val_main_v83 (F := Ideal) x0 x1 x3 x4 x5 x6 x7 x8 x9 x10 (ix2 m c) - muRow (val_main_v83 (F := Ideal) x0 x1 x3 x4 x5 x6 x7 x8 x9 x10) (ix2 0 c)) := by
  have e : idx_main_v91 (ix1 c) m = ix2 m c :=
    funext fun a => Fin.ext (by match a with | ⟨0, _⟩ => rfl | ⟨1, _⟩ => rfl)
  have e' : idx_main_v87 (idx_main_v88 (ix2 m c)) = ix1 c :=
    funext fun a => Fin.ext (by match a with | ⟨0, _⟩ => rfl)
  rw [e, val_main_v90_apply, val_main_v89_apply, val_main_v88_apply, val_main_v87_apply, e', v86_eq]
  generalize val_main_v83 (F := Ideal) x0 x1 x3 x4 x5 x6 x7 x8 x9 x10 = H
  rfl

/-- The reference's variance entry, the mean of the squared deviations, is the column variance of the linear part
    when its entries are real. -/
theorem v93_eq (hH : IsReal (val_main_v83 (F := Ideal) x0 x1 x3 x4 x5 x6 x7 x8 x9 x10)) (c : Fin 128) :
    val_main_v93 (F := Ideal) x0 x1 x3 x4 x5 x6 x7 x8 x9 x10 (ix1 c)
      = varRow (val_main_v83 (F := Ideal) x0 x1 x3 x4 x5 x6 x7 x8 x9 x10) (ix2 0 c) := by
  rw [val_main_v93_apply, val_main_v91_apply, val_main_v92_apply, val_main_cst_18_apply, val_main_cst_17_apply]
  simp only [v90_at]
  generalize val_main_v83 (F := Ideal) x0 x1 x3 x4 x5 x6 x7 x8 x9 x10 = H at hH ⊢
  have L := var_law (fun n => H (ix2 n c)) (fun n => hH (ix2 n c))
  show Ideal.div (Ideal.ofBits .f32 0x00000000#32
      + ∑ m : Fin 100000, (H (ix2 m c) - muRow H (ix2 0 c)) * (H (ix2 m c) - muRow H (ix2 0 c))) nNodes = _
  rw [Ideal.ofBits_zero_f32, zero_add]
  exact L.symm

/-- The rectified normalised output of layer 2, when its linear part has real entries. -/
theorem ref_x2 (hH : IsReal (val_main_v83 (F := Ideal) x0 x1 x3 x4 x5 x6 x7 x8 x9 x10)) :
    val_main_v109 (F := Ideal) x0 x1 x3 x4 x5 x6 x7 x8 x9 x10 x11 x12
      = bnrelu (val_main_v83 (F := Ideal) x0 x1 x3 x4 x5 x6 x7 x8 x9 x10) (muRow (val_main_v83 (F := Ideal) x0 x1 x3 x4 x5 x6 x7 x8 x9 x10))
          (varRow (val_main_v83 (F := Ideal) x0 x1 x3 x4 x5 x6 x7 x8 x9 x10)) (val_main_v97 (F := Ideal) x11) (val_main_v106 (F := Ideal) x12) := by
  funext j
  obtain ⟨n, c, rfl⟩ : ∃ n c, j = ix2 n c := ⟨j 0, j 1, eq_ix2 j⟩
  have e95 : idx_main_v94 (idx_main_v95 (ix2 n c)) = ix1 c :=
    funext fun a => Fin.ext (by match a with | ⟨0, _⟩ => rfl)
  have e104 : idx_main_v103 (idx_main_v104 (ix2 n c)) = ix1 c :=
    funext fun a => Fin.ext (by match a with | ⟨0, _⟩ => rfl)
  have e98 : idx_main_v98 (ix2 n c) = ix2 0 c :=
    funext fun a => Fin.ext (by match a with | ⟨0, _⟩ => rfl | ⟨1, _⟩ => rfl)
  have e107 : idx_main_v107 (ix2 n c) = ix2 0 c :=
    funext fun a => Fin.ext (by match a with | ⟨0, _⟩ => rfl | ⟨1, _⟩ => rfl)
  rw [val_main_v109_apply, val_main_v108_apply, val_main_v105_apply, val_main_v99_apply, val_main_v98_apply,
    val_main_v96_apply, val_main_v95_apply, val_main_v94_apply, val_main_v104_apply, val_main_v103_apply,
    val_main_v102_apply, val_main_v101_apply, val_main_v100_apply, val_main_cst_19_apply, val_main_v107_apply,
    val_main_call1_v0_apply, val_main_call1_cst_apply, e95, e104, e98, e107, v86_eq, v93_eq x0 x1 x3 x4 x5 x6 x7 x8 x9 x10 hH]
  generalize val_main_v83 (F := Ideal) x0 x1 x3 x4 x5 x6 x7 x8 x9 x10 = H
  generalize val_main_v97 (F := Ideal) x11 = g
  generalize val_main_v106 (F := Ideal) x12 = beta
  show max (g (ix2 0 c) * (H (ix2 n c) - muRow H (ix2 0 c)) * Ideal.rsqrt (varRow H (ix2 0 c) + eps) + beta (ix2 0 c))
      (Ideal.ofBits .f32 0x00000000#32) = _
  rw [Ideal.ofBits_zero_f32]
  rfl

end Cert.ReferenceIdeal.RefLayer2

end
-- ==== Proof.LibScatterAddRows.lean ====
/-
  A float scatter-add that adds whole ROWS into a rank-2 table (what `segment_sum(x, ids, N)` prints for an `[n, C]` batch
  and a vector of `n` row numbers laid out as an `[n, 1]` column of scatter indices): update window axis 1, inserted
  window axis 0, the scatter index naming operand axis 0, the index vector along axis 1 of the scatter indices; and the same
  for a rank-1 table and a vector of updates (no window axis).

  Over the extended reals the result at `(k, q)` is the operand there plus the sum of the updates `(p, q)` whose row number,
  read signed and NOT clamped, is `k`; an update whose row number is outside `[0, N)` lands nowhere.
-/
import Idealize.ShloMosaic.PureOps
import Idealize.ShloMosaic.PureOps.Ideal
import Idealize.ShloMosaic.Lib.ValueIdx

namespace Idealize.ShloMosaic.ScatterAddRows

open Idealize.ShloMosaic Idealize.ShloMosaic.ValueIdx

/-- The dimension numbers of a row scatter into an `[N, C]` table by an `[n, 1]` column of row numbers. -/
abbrev rowDims (N C n : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- The dimension numbers of an entry scatter into an `[N]` table by an `[n, 1]` column of entry numbers. -/
abbrev entryDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

/-- On the row axis the start of update `(p, q)` is row number `p`, read signed: the one scatter index of update row `p`
    sits at `(p, 0)` of the column of scatter indices. -/
private theorem rows_start0 {N C n w : Nat}
    (wf : ScatterDims.WF ⟨2, ![N, C]⟩ ⟨2, ![n, 1]⟩ ⟨2, ![n, C]⟩ [1] [0] [0] 1)
    (idx : IVec ⟨2, ![n, 1]⟩ w) (p : Fin n) (q : Fin C) :
    (rowDims N C n wf).start (ix2 p q) idx (⟨0, by decide⟩ : Fin 2) = (idx (ix2 p ⟨0, Nat.one_pos⟩)).toInt := by
  unfold ScatterDims.start
  rw [dif_pos (show (⟨0, by decide⟩ : Fin 2) ∈ (rowDims N C n wf).scatterDimsToOperandDims from List.mem_singleton.mpr rfl)]
  have hsi : (rowDims N C n wf).siIdx (ix2 p q)
      ⟨List.idxOf (⟨0, by decide⟩ : Fin 2) (rowDims N C n wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- The column axis is named by no scatter index: its start is `0`. -/
private theorem rows_start1 {N C n w : Nat}
    (wf : ScatterDims.WF ⟨2, ![N, C]⟩ ⟨2, ![n, 1]⟩ ⟨2, ![n, C]⟩ [1] [0] [0] 1)
    (idx : IVec ⟨2, ![n, 1]⟩ w) (j : (⟨2, ![n, C]⟩ : Shape).Idx) :
    (rowDims N C n wf).start j idx (⟨1, by decide⟩ : Fin 2) = 0 := by
  unfold ScatterDims.start
  rw [dif_neg (fun h => by have := congrArg Fin.val (List.mem_singleton.mp h); simp at this)]

/-- The row axis is an inserted window axis: it has no window coordinate. -/
private theorem rows_window0 {N C n : Nat}
    (wf : ScatterDims.WF ⟨2, ![N, C]⟩ ⟨2, ![n, 1]⟩ ⟨2, ![n, C]⟩ [1] [0] [0] 1)
    (j : (⟨2, ![n, C]⟩ : Shape).Idx) :
    (rowDims N C n wf).window j (⟨0, by decide⟩ : Fin 2) = 0 := by
  unfold ScatterDims.window
  rw [dif_neg (by simp [Shape.kept])]

/-- The column axis is the one window axis: its window coordinate is the update's own column. -/
private theorem rows_window1 {N C n : Nat}
    (wf : ScatterDims.WF ⟨2, ![N, C]⟩ ⟨2, ![n, 1]⟩ ⟨2, ![n, C]⟩ [1] [0] [0] 1)
    (p : Fin n) (q : Fin C) :
    (rowDims N C n wf).window (ix2 p q) (⟨1, by decide⟩ : Fin 2) = q.val := by
  unfold ScatterDims.window
  rw [dif_pos (by simp [Shape.kept])]
  rfl

/-- Update `(p, q')` lands on `(k, q)` exactly when row number `p` is `k` and `q' = q`: it lands at (row number + 0, 0 + q')
    when that is inside the table, and nowhere otherwise; and `(k, q)` is inside the table. -/
private theorem rows_resultIdx_iff {N C n w : Nat}
    (wf : ScatterDims.WF ⟨2, ![N, C]⟩ ⟨2, ![n, 1]⟩ ⟨2, ![n, C]⟩ [1] [0] [0] 1)
    (idx : IVec ⟨2, ![n, 1]⟩ w) (p : Fin n) (q' : Fin C) (k : Fin N) (q : Fin C) :
    (rowDims N C n wf).resultIdx? (ix2 p q') idx = some (ix2 k q)
      ↔ (idx (ix2 p ⟨0, Nat.one_pos⟩)).toInt = (k.val : Int) ∧ q' = q := by
  have h0 := rows_start0 wf idx p q'
  have h1 := rows_start1 wf idx (ix2 p q')
  have w0 := rows_window0 wf (ix2 p q')
  have w1 := rows_window1 wf p q'
  unfold ScatterDims.resultIdx?
  split
  · rename_i h
    rw [Option.some.injEq]
    have hh := (h (⟨0, by decide⟩ : Fin 2)).1
    rw [h0, w0] at hh
    constructor
    · intro hf
      have e0 : ((rowDims N C n wf).start (ix2 p q') idx (⟨0, by decide⟩ : Fin 2)
          + ((rowDims N C n wf).window (ix2 p q') (⟨0, by decide⟩ : Fin 2) : Int)).toNat = k.val :=
        congrArg Fin.val (congrFun hf (⟨0, by decide⟩ : Fin 2))
      have e1 : ((rowDims N C n wf).start (ix2 p q') idx (⟨1, by decide⟩ : Fin 2)
          + ((rowDims N C n wf).window (ix2 p q') (⟨1, by decide⟩ : Fin 2) : Int)).toNat = q.val :=
        congrArg Fin.val (congrFun hf (⟨1, by decide⟩ : Fin 2))
      rw [h0, w0] at e0
      rw [h1, w1] at e1
      exact ⟨by omega, Fin.ext (by omega)⟩
    · rintro ⟨ht, rfl⟩
      funext a; refine Fin.ext ?_
      match a with
      | ⟨0, _⟩ =>
        show ((rowDims N C n wf).start (ix2 p q') idx (⟨0, by decide⟩ : Fin 2)
          + ((rowDims N C n wf).window (ix2 p q') (⟨0, by decide⟩ : Fin 2) : Int)).toNat = k.val
        rw [h0, w0]; omega
      | ⟨1, _⟩ =>
        show ((rowDims N C n wf).start (ix2 p q') idx (⟨1, by decide⟩ : Fin 2)
          + ((rowDims N C n wf).window (ix2 p q') (⟨1, by decide⟩ : Fin 2) : Int)).toNat = q'.val
        rw [h1, w1]; omega
  · rename_i h
    constructor
    · intro hf; exact absurd hf (by simp)
    · rintro ⟨ht, rfl⟩
      exfalso; apply h
      intro a
      match a with
      | ⟨0, _⟩ =>
        show 0 ≤ (rowDims N C n wf).start (ix2 p q') idx (⟨0, by decide⟩ : Fin 2)
            + ((rowDims N C n wf).window (ix2 p q') (⟨0, by decide⟩ : Fin 2) : Int)
          ∧ (rowDims N C n wf).start (ix2 p q') idx (⟨0, by decide⟩ : Fin 2)
            + ((rowDims N C n wf).window (ix2 p q') (⟨0, by decide⟩ : Fin 2) : Int) < (N : Int)
        rw [h0, w0, ht]; have := k.isLt; omega
      | ⟨1, _⟩ =>
        show 0 ≤ (rowDims N C n wf).start (ix2 p q') idx (⟨1, by decide⟩ : Fin 2)
            + ((rowDims N C n wf).window (ix2 p q') (⟨1, by decide⟩ : Fin 2) : Int)
          ∧ (rowDims N C n wf).start (ix2 p q') idx (⟨1, by decide⟩ : Fin 2)
            + ((rowDims N C n wf).window (ix2 p q') (⟨1, by decide⟩ : Fin 2) : Int) < (C : Int)
        rw [h1, w1]; have := q'.isLt; omega

/-- THE ROW SCATTER-ADD READ AT `(k, q)`: the operand there plus the updates `(p, q)` of the rows `p` numbered `k`. -/
theorem scatterAdd_rows_apply {N C n w : Nat}
    (wf : ScatterDims.WF ⟨2, ![N, C]⟩ ⟨2, ![n, 1]⟩ ⟨2, ![n, C]⟩ [1] [0] [0] 1)
    (x0 : (⟨2, ![N, C]⟩ : Shape).Idx → EReal) (idx : IVec ⟨2, ![n, 1]⟩ w) (upd : (⟨2, ![n, C]⟩ : Shape).Idx → EReal)
    (k : Fin N) (q : Fin C) :
    Ideal.hostScatterAdd (rowDims N C n wf) x0 idx upd (ix2 k q)
      = x0 (ix2 k q) + ∑ p : Fin n, if (idx (ix2 p ⟨0, Nat.one_pos⟩)).toInt = (k.val : Int) then upd (ix2 p q) else 0 := by
  unfold Ideal.hostScatterAdd
  congr 1
  -- the sum over the updates landing on `(k, q)`, as a double sum over `(p, q')` of the updates with row number `k` and `q' = q`
  rw [Finset.sum_filter, sum_idx2]
  refine Finset.sum_congr rfl fun p _ => ?_
  simp only [rows_resultIdx_iff]
  by_cases ht : (idx (ix2 p ⟨0, Nat.one_pos⟩)).toInt = (k.val : Int)
  · -- row `p` is numbered `k`: of its columns only `q' = q` remains
    simp only [ht, true_and, if_true]
    rw [Finset.sum_ite_eq' Finset.univ q (fun q' => upd (ix2 p q'))]
    simp
  · -- row `p` is not numbered `k`: every term is `0`
    simp only [ht, false_and, if_false]
    exact Finset.sum_const_zero

/-- The start of update `p` on the one operand axis is entry number `p`, read signed. -/
private theorem entries_start0 {N n w : Nat}
    (wf : ScatterDims.WF ⟨1, ![N]⟩ ⟨2, ![n, 1]⟩ ⟨1, ![n]⟩ [] [0] [0] 1)
    (idx : IVec ⟨2, ![n, 1]⟩ w) (p : Fin n) :
    (entryDims N n wf).start (ix1 p) idx (⟨0, by decide⟩ : Fin 1) = (idx (ix2 p ⟨0, Nat.one_pos⟩)).toInt := by
  unfold ScatterDims.start
  rw [dif_pos (show (⟨0, by decide⟩ : Fin 1) ∈ (entryDims N n wf).scatterDimsToOperandDims from List.mem_singleton.mpr rfl)]
  have hsi : (entryDims N n wf).siIdx (ix1 p)
      ⟨List.idxOf (⟨0, by decide⟩ : Fin 1) (entryDims N n wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- The one operand axis is an inserted window axis: it has no window coordinate. -/
private theorem entries_window0 {N n : Nat}
    (wf : ScatterDims.WF ⟨1, ![N]⟩ ⟨2, ![n, 1]⟩ ⟨1, ![n]⟩ [] [0] [0] 1)
    (j : (⟨1, ![n]⟩ : Shape).Idx) :
    (entryDims N n wf).window j (⟨0, by decide⟩ : Fin 1) = 0 := by
  unfold ScatterDims.window
  rw [dif_neg (by simp [Shape.kept])]

/-- Update `p` lands on `k` exactly when entry number `p` is `k`. -/
private theorem entries_resultIdx_iff {N n w : Nat}
    (wf : ScatterDims.WF ⟨1, ![N]⟩ ⟨2, ![n, 1]⟩ ⟨1, ![n]⟩ [] [0] [0] 1)
    (idx : IVec ⟨2, ![n, 1]⟩ w) (p : Fin n) (k : Fin N) :
    (entryDims N n wf).resultIdx? (ix1 p) idx = some (ix1 k)
      ↔ (idx (ix2 p ⟨0, Nat.one_pos⟩)).toInt = (k.val : Int) := by
  have h0 := entries_start0 wf idx p
  have w0 := entries_window0 wf (ix1 p)
  unfold ScatterDims.resultIdx?
  split
  · rename_i h
    rw [Option.some.injEq]
    have hh := (h (⟨0, by decide⟩ : Fin 1)).1
    rw [h0, w0] at hh
    constructor
    · intro hf
      have e0 : ((entryDims N n wf).start (ix1 p) idx (⟨0, by decide⟩ : Fin 1)
          + ((entryDims N n wf).window (ix1 p) (⟨0, by decide⟩ : Fin 1) : Int)).toNat = k.val :=
        congrArg Fin.val (congrFun hf (⟨0, by decide⟩ : Fin 1))
      rw [h0, w0] at e0
      omega
    · intro ht
      funext a; refine Fin.ext ?_
      match a with
      | ⟨0, _⟩ =>
        show ((entryDims N n wf).start (ix1 p) idx (⟨0, by decide⟩ : Fin 1)
          + ((entryDims N n wf).window (ix1 p) (⟨0, by decide⟩ : Fin 1) : Int)).toNat = k.val
        rw [h0, w0]; omega
  · rename_i h
    constructor
    · intro hf; exact absurd hf (by simp)
    · intro ht
      exfalso; apply h
      intro a
      match a with
      | ⟨0, _⟩ =>
        show 0 ≤ (entryDims N n wf).start (ix1 p) idx (⟨0, by decide⟩ : Fin 1)
            + ((entryDims N n wf).window (ix1 p) (⟨0, by decide⟩ : Fin 1) : Int)
          ∧ (entryDims N n wf).start (ix1 p) idx (⟨0, by decide⟩ : Fin 1)
            + ((entryDims N n wf).window (ix1 p) (⟨0, by decide⟩ : Fin 1) : Int) < (N : Int)
        rw [h0, w0, ht]; have := k.isLt; omega

/-- A sum over a rank-1 index set is the sum over its coordinate. -/
private theorem sum_idx1' {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

/-- THE ENTRY SCATTER-ADD READ AT `k`: the operand there plus the updates `p` numbered `k`. -/
theorem scatterAdd_entries_apply {N n w : Nat}
    (wf : ScatterDims.WF ⟨1, ![N]⟩ ⟨2, ![n, 1]⟩ ⟨1, ![n]⟩ [] [0] [0] 1)
    (x0 : (⟨1, ![N]⟩ : Shape).Idx → EReal) (idx : IVec ⟨2, ![n, 1]⟩ w) (upd : (⟨1, ![n]⟩ : Shape).Idx → EReal)
    (k : Fin N) :
    Ideal.hostScatterAdd (entryDims N n wf) x0 idx upd (ix1 k)
      = x0 (ix1 k) + ∑ p : Fin n, if (idx (ix2 p ⟨0, Nat.one_pos⟩)).toInt = (k.val : Int) then upd (ix1 p) else 0 := by
  unfold Ideal.hostScatterAdd
  congr 1
  -- the sum over the updates landing on `k`, as the sum over `p` of the updates with entry number `k`
  rw [Finset.sum_filter, sum_idx1']
  refine Finset.sum_congr rfl fun p _ => ?_
  simp only [entries_resultIdx_iff]

end Idealize.ShloMosaic.ScatterAddRows
-- ==== Proof.RefFinal.lean ====
/-
  The reference's pooling, read entry by entry: entry (g, d) of the result is the sum over the nodes of graph g of
  feature d of the residual array, over the clamped node count of the graph.
-/
import proofs.«414989_j78658031059101_2_alg».proof.Proof.Gen.ReferenceIdeal.Read
import proofs.«414989_j78658031059101_2_alg».proof.Proof.Spec
import proofs.«414989_j78658031059101_2_alg».proof.Proof.SpecLaws
import proofs.«414989_j78658031059101_2_alg».proof.Proof.LibRealValued
import proofs.«414989_j78658031059101_2_alg».proof.Proof.LibIdealReal
import Idealize.ShloMosaic.Lib.Pipeline.Value
import Idealize.ShloMosaic.Lib.ValueIdx
import Idealize.ShloMosaic.Lib.ValueLayout
import Idealize.ShloMosaic.PureOps.Ideal.Laws
import proofs.«414989_j78658031059101_2_alg».proof.Proof.LibScatterAddRows
set_option maxRecDepth 16384

noncomputable section

namespace Cert.ReferenceIdeal.RefFinal

open Cert.ReferenceIdeal Cert.ReferenceIdeal.Read Cert.Spec RealValued
open Idealize.ShloMosaic Idealize.ShloMosaic.TcCoe Idealize.ShloMosaic.ValueIdx

variable (x0 : (⟨S100000x8, .f32⟩ : BufTy).Contents (Elt Ideal)) (x1 : (⟨S2x1600000, .i32⟩ : BufTy).Contents (Elt Ideal)) (x2 : (⟨S100000, .i32⟩ : BufTy).Contents (Elt Ideal))
  (x3 : (⟨S128x8, .f32⟩ : BufTy).Contents (Elt Ideal)) (x4 : (⟨S128, .f32⟩ : BufTy).Contents (Elt Ideal)) (x5 : (⟨S128x8, .f32⟩ : BufTy).Contents (Elt Ideal))
  (x6 x7 : (⟨S128, .f32⟩ : BufTy).Contents (Elt Ideal))
  (x8 : (⟨S128x128, .f32⟩ : BufTy).Contents (Elt Ideal)) (x9 : (⟨S128, .f32⟩ : BufTy).Contents (Elt Ideal)) (x10 : (⟨S128x128, .f32⟩ : BufTy).Contents (Elt Ideal))
  (x11 x12 : (⟨S128, .f32⟩ : BufTy).Contents (Elt Ideal))

/-- A 32-bit word read signed is a graph number below 128 exactly when it is that number's word. -/
theorem toInt_eq_iff (w : BitVec 32) (g : Fin 128) : w.toInt = (g.val : Int) ↔ w = BitVec.ofNat 32 g.val := by
  have hg := g.isLt
  have hw := w.isLt
  constructor
  · intro h
    apply BitVec.eq_of_toNat_eq
    rw [BitVec.toNat_ofNat]
    rw [BitVec.toInt_eq_toNat_cond] at h
    split at h <;> omega
  · intro h
    rw [h, BitVec.toInt_eq_toNat_cond, BitVec.toNat_ofNat]
    split <;> omega

/-- A term kept when the word read signed is the graph number is the term times the indicator of that graph. -/
theorem ite_toInt_eq (w : BitVec 32) (g : Fin 128) (h : EReal) :
    (if w.toInt = (g.val : Int) then h else 0) = onehot w g * h := by
  unfold onehot
  by_cases hw : w = BitVec.ofNat 32 g.val
  · rw [if_pos ((toInt_eq_iff w g).mpr hw), if_pos hw, one_mul]
  · rw [if_neg (fun e => hw ((toInt_eq_iff w g).mp e)), if_neg hw, zero_mul]

/-- The pooled result at (g, d). -/
theorem ref_final (gr d : Fin 128) :
    val_main_v122 (F := Ideal) x0 x1 x2 x3 x4 x5 x6 x7 x8 x9 x10 x11 x12 (ix2 gr d)
      = Ideal.div (graphSum (val_main_v110 (F := Ideal) x0 x1 x3 x4 x5 x6 x7 x8 x9 x10 x11 x12) (fun n => x2 (ix1 n)) gr d)
          (val_main_v121 (F := Ideal) x2 (ix2 gr d)) := by
  rw [val_main_v122_apply, Ideal.hostDivf_def]
  refine congrArg (fun t => Ideal.div t (val_main_v121 (F := Ideal) x2 (ix2 gr d))) ?_
  unfold val_main_v113
  generalize val_main_v110 (F := Ideal) x0 x1 x3 x4 x5 x6 x7 x8 x9 x10 x11 x12 = Hf
  -- the segment sum is the row scatter-add of the residual array into zeros
  show Ideal.hostScatterAdd scatter_S128x128_S100000x1_S100000x128_1_0_0_1 (val_main_v111 (F := Ideal))
      (val_main_v112 (F := Ideal) x2) Hf (ix2 gr d) = _
  have hrec : scatter_S128x128_S100000x1_S100000x128_1_0_0_1
      = ScatterAddRows.rowDims 128 128 100000 Facts₀.scatter_S128x128_S100000x1_S100000x128_1_0_0_1_wf := rfl
  rw [hrec, ScatterAddRows.scatterAdd_rows_apply, val_main_v111_apply, val_main_cst_20_apply,
    Ideal.ofBits_def, Ideal.ofBits_zero_f32, zero_add]
  unfold graphSum
  refine Finset.sum_congr rfl fun p _ => ?_
  have hidx : idx_main_v112 (ix2 p ⟨0, Nat.one_pos⟩) = ix1 p := by
    funext a; refine Fin.ext ?_
    match a with
    | ⟨0, _⟩ => rfl
  rw [val_main_v112_apply, ite_toInt_eq, hidx]

end Cert.ReferenceIdeal.RefFinal

end
-- ==== Proof.KChain.lean ====
/-
  The kernel program's result buffer, followed through its host stretches and its four regions, holds the reference's
  last stage of the same argument arrays, when the float arguments have real entries: each region's arrays are the
  layer functions of what the region is entered with, each host stretch's results are read off the fold, and each
  intermediate array is identified with the reference's stage of the same name of mathematics (linear part, mean and
  variance rows, normalised rectified output, pooled sums).
-/
import proofs.«414989_j78658031059101_2_alg».proof.Proof.KS0a
import proofs.«414989_j78658031059101_2_alg».proof.Proof.KS0b
import proofs.«414989_j78658031059101_2_alg».proof.Proof.KS1
import proofs.«414989_j78658031059101_2_alg».proof.Proof.KS2
import proofs.«414989_j78658031059101_2_alg».proof.Proof.KS3
import proofs.«414989_j78658031059101_2_alg».proof.Proof.KS4
import proofs.«414989_j78658031059101_2_alg».proof.Proof.KV0
import proofs.«414989_j78658031059101_2_alg».proof.Proof.KV1
import proofs.«414989_j78658031059101_2_alg».proof.Proof.KV2
import proofs.«414989_j78658031059101_2_alg».proof.Proof.KV3
import proofs.«414989_j78658031059101_2_alg».proof.Proof.KHost
import proofs.«414989_j78658031059101_2_alg».proof.Proof.KHostFinal
import proofs.«414989_j78658031059101_2_alg».proof.Proof.RefLayer1
import proofs.«414989_j78658031059101_2_alg».proof.Proof.RefLayer2
import proofs.«414989_j78658031059101_2_alg».proof.Proof.RefFinal
import proofs.«414989_j78658031059101_2_alg».proof.Proof.SpecLaws

set_option maxRecDepth 65536
set_option maxHeartbeats 8000000

noncomputable section

namespace Cert.KernelIdeal.KChain

open Cert.KernelIdeal Cert.KernelIdeal.Gen Cert.Spec RealValued
open Idealize.ShloMosaic Idealize.ShloMosaic.TcCoe Idealize.ShloMosaic.ValueIdx Idealize.SL.Sem Idealize.ShloMosaic.StableHlo
open Cert.ReferenceIdeal.Read

variable (m : (ℓ : Loc nD τ sig) → Buf (Elt Ideal) ℓ) (ρ : Dev nD → PrngReg) (c : Dev nD)

/-! ## The argument arrays and the index vectors, carried unchanged to where they are read -/

theorem V2_arg2 : V2 m ρ c main_arg2 = (m ((c : Thread nD τ).loc main_arg2)) := (W2_of_ne m ρ c main_arg2 (by decide)).trans (KS0b.V1_arg2 m ρ c)
theorem V2_arg6 : V2 m ρ c main_arg6 = (m ((c : Thread nD τ).loc main_arg6)) := (W2_of_ne m ρ c main_arg6 (by decide)).trans (KS0b.V1_arg6 m ρ c)
theorem V2_arg7 : V2 m ρ c main_arg7 = (m ((c : Thread nD τ).loc main_arg7)) := (W2_of_ne m ρ c main_arg7 (by decide)).trans (KS0b.V1_arg7 m ρ c)
theorem V2_arg8 : V2 m ρ c main_arg8 = (m ((c : Thread nD τ).loc main_arg8)) := (W2_of_ne m ρ c main_arg8 (by decide)).trans (KS0b.V1_arg8 m ρ c)
theorem V2_arg9 : V2 m ρ c main_arg9 = (m ((c : Thread nD τ).loc main_arg9)) := (W2_of_ne m ρ c main_arg9 (by decide)).trans (KS0b.V1_arg9 m ρ c)
theorem V2_arg10 : V2 m ρ c main_arg10 = (m ((c : Thread nD τ).loc main_arg10)) := (W2_of_ne m ρ c main_arg10 (by decide)).trans (KS0b.V1_arg10 m ρ c)
theorem V2_arg11 : V2 m ρ c main_arg11 = (m ((c : Thread nD τ).loc main_arg11)) := (W2_of_ne m ρ c main_arg11 (by decide)).trans (KS0b.V1_arg11 m ρ c)
theorem V2_arg12 : V2 m ρ c main_arg12 = (m ((c : Thread nD τ).loc main_arg12)) := (W2_of_ne m ρ c main_arg12 (by decide)).trans (KS0b.V1_arg12 m ρ c)
theorem V3_arg2 : V3 m ρ c main_arg2 = (m ((c : Thread nD τ).loc main_arg2)) := (KS1.V3_arg2 m ρ c).trans (V2_arg2 m ρ c)
theorem V3_arg8 : V3 m ρ c main_arg8 = (m ((c : Thread nD τ).loc main_arg8)) := (KS1.V3_arg8 m ρ c).trans (V2_arg8 m ρ c)
theorem V3_arg9 : V3 m ρ c main_arg9 = (m ((c : Thread nD τ).loc main_arg9)) := (KS1.V3_arg9 m ρ c).trans (V2_arg9 m ρ c)
theorem V3_arg10 : V3 m ρ c main_arg10 = (m ((c : Thread nD τ).loc main_arg10)) := (KS1.V3_arg10 m ρ c).trans (V2_arg10 m ρ c)
theorem V3_arg11 : V3 m ρ c main_arg11 = (m ((c : Thread nD τ).loc main_arg11)) := (KS1.V3_arg11 m ρ c).trans (V2_arg11 m ρ c)
theorem V3_arg12 : V3 m ρ c main_arg12 = (m ((c : Thread nD τ).loc main_arg12)) := (KS1.V3_arg12 m ρ c).trans (V2_arg12 m ρ c)
theorem V4_arg2 : V4 m ρ c main_arg2 = (m ((c : Thread nD τ).loc main_arg2)) := (W4_of_ne m ρ c main_arg2 (by decide)).trans (V3_arg2 m ρ c)
theorem V4_arg8 : V4 m ρ c main_arg8 = (m ((c : Thread nD τ).loc main_arg8)) := (W4_of_ne m ρ c main_arg8 (by decide)).trans (V3_arg8 m ρ c)
theorem V4_arg9 : V4 m ρ c main_arg9 = (m ((c : Thread nD τ).loc main_arg9)) := (W4_of_ne m ρ c main_arg9 (by decide)).trans (V3_arg9 m ρ c)
theorem V4_arg10 : V4 m ρ c main_arg10 = (m ((c : Thread nD τ).loc main_arg10)) := (W4_of_ne m ρ c main_arg10 (by decide)).trans (V3_arg10 m ρ c)
theorem V4_arg11 : V4 m ρ c main_arg11 = (m ((c : Thread nD τ).loc main_arg11)) := (W4_of_ne m ρ c main_arg11 (by decide)).trans (V3_arg11 m ρ c)
theorem V4_arg12 : V4 m ρ c main_arg12 = (m ((c : Thread nD τ).loc main_arg12)) := (W4_of_ne m ρ c main_arg12 (by decide)).trans (V3_arg12 m ρ c)
theorem V5_arg2 : V5 m ρ c main_arg2 = (m ((c : Thread nD τ).loc main_arg2)) := (KS2.V5_arg2 m ρ c).trans (V4_arg2 m ρ c)
theorem V5_arg11 : V5 m ρ c main_arg11 = (m ((c : Thread nD τ).loc main_arg11)) := (KS2.V5_arg11 m ρ c).trans (V4_arg11 m ρ c)
theorem V5_arg12 : V5 m ρ c main_arg12 = (m ((c : Thread nD τ).loc main_arg12)) := (KS2.V5_arg12 m ρ c).trans (V4_arg12 m ρ c)
theorem V6_arg2 : V6 m ρ c main_arg2 = (m ((c : Thread nD τ).loc main_arg2)) := (W6_of_ne m ρ c main_arg2 (by decide)).trans (V5_arg2 m ρ c)
theorem V6_arg11 : V6 m ρ c main_arg11 = (m ((c : Thread nD τ).loc main_arg11)) := (W6_of_ne m ρ c main_arg11 (by decide)).trans (V5_arg11 m ρ c)
theorem V6_arg12 : V6 m ρ c main_arg12 = (m ((c : Thread nD τ).loc main_arg12)) := (W6_of_ne m ρ c main_arg12 (by decide)).trans (V5_arg12 m ρ c)
theorem V7_arg2 : V7 m ρ c main_arg2 = (m ((c : Thread nD τ).loc main_arg2)) := (KS3.V7_arg2 m ρ c).trans (V6_arg2 m ρ c)
theorem V8_arg2 : V8 m ρ c main_arg2 = (m ((c : Thread nD τ).loc main_arg2)) := (W8_of_ne m ρ c main_arg2 (by decide)).trans (V7_arg2 m ρ c)
theorem V2_v1 : V2 m ρ c main_v1 = val_main_v1 (F := Ideal) (m ((c : Thread nD τ).loc main_arg1)) := (W2_of_ne m ρ c main_v1 (by decide)).trans (KS0b.V1_v1 m ρ c)
theorem V3_v1 : V3 m ρ c main_v1 = val_main_v1 (F := Ideal) (m ((c : Thread nD τ).loc main_arg1)) := (KS1.V3_v1 m ρ c).trans (V2_v1 m ρ c)
theorem V4_v1 : V4 m ρ c main_v1 = val_main_v1 (F := Ideal) (m ((c : Thread nD τ).loc main_arg1)) := (W4_of_ne m ρ c main_v1 (by decide)).trans (V3_v1 m ρ c)
theorem V2_v3 : V2 m ρ c main_v3 = val_main_v3 (F := Ideal) (m ((c : Thread nD τ).loc main_arg1)) := (W2_of_ne m ρ c main_v3 (by decide)).trans (KS0b.V1_v3 m ρ c)
theorem V3_v3 : V3 m ρ c main_v3 = val_main_v3 (F := Ideal) (m ((c : Thread nD τ).loc main_arg1)) := (KS1.V3_v3 m ρ c).trans (V2_v3 m ρ c)
theorem V4_v3 : V4 m ρ c main_v3 = val_main_v3 (F := Ideal) (m ((c : Thread nD τ).loc main_arg1)) := (W4_of_ne m ρ c main_v3 (by decide)).trans (V3_v3 m ρ c)

/-- The reciprocal clamped degree column, as the first region finds it. -/
theorem V1_v12 : V1 m ρ c main_v12 = invOf (val_main_v19 (F := Ideal) (m ((c : Thread nD τ).loc main_arg1))) :=
  (KS0a.V1_v12 m ρ c).trans (KHost.kinv_term_eq _)
theorem V2_v12 : V2 m ρ c main_v12 = invOf (val_main_v19 (F := Ideal) (m ((c : Thread nD τ).loc main_arg1))) :=
  ((W2_arr m ρ c 2).trans (((dat0 (V1 m ρ) c).arrAt_in 2 rfl _).trans (A_eq0 (V1 m ρ) c 2))).trans (V1_v12 m ρ c)
theorem V3_v12 : V3 m ρ c main_v12 = invOf (val_main_v19 (F := Ideal) (m ((c : Thread nD τ).loc main_arg1))) := (KS1.V3_v12 m ρ c).trans (V2_v12 m ρ c)
theorem V4_v12 : V4 m ρ c main_v12 = invOf (val_main_v19 (F := Ideal) (m ((c : Thread nD τ).loc main_arg1))) := (W4_of_ne m ρ c main_v12 (by decide)).trans (V3_v12 m ρ c)
theorem V5_v12 : V5 m ρ c main_v12 = invOf (val_main_v72 (F := Ideal) (m ((c : Thread nD τ).loc main_arg1))) := (KS2.V5_v12 m ρ c).trans (V4_v12 m ρ c)

/-! ## Layer 1 -/

/-- The first region's activation array is the reference's linear part of layer 1. -/
theorem H1 : V2 m ρ c main_v26_0 = (val_main_v30 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  refine (W2_arr m ρ c 6).trans ((KV0.arr0_6 (V1 m ρ) c).trans ?_)
  rw [KS0a.V1_v22, KS0b.V1_arg0, V1_v12, KS0b.V1_v23, KS0b.V1_v24, KS0b.V1_v25, KHost.krow_eq_v25]
  exact (Cert.ReferenceIdeal.RefLayer1.ref_h1 _ _ _ _ _).symm

theorem S1 : V2 m ρ c main_v26_1 = tileSum (val_main_v30 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  refine (W2_arr m ρ c 7).trans ((KV0.arr0_7 (V1 m ρ) c).trans ?_)
  rw [KS0a.V1_v22, KS0b.V1_arg0, V1_v12, KS0b.V1_v23, KS0b.V1_v24, KS0b.V1_v25, KHost.krow_eq_v25]
  exact congrArg tileSum (Cert.ReferenceIdeal.RefLayer1.ref_h1 _ _ _ _ _).symm

theorem Q1 : V2 m ρ c main_v26_2 = tileSumSq (val_main_v30 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  refine (W2_arr m ρ c 8).trans ((KV0.arr0_8 (V1 m ρ) c).trans ?_)
  rw [KS0a.V1_v22, KS0b.V1_arg0, V1_v12, KS0b.V1_v23, KS0b.V1_v24, KS0b.V1_v25, KHost.krow_eq_v25]
  exact congrArg tileSumSq (Cert.ReferenceIdeal.RefLayer1.ref_h1 _ _ _ _ _).symm

/-- The second region's output is the reference's layer-1 output, when the linear part has real entries. -/
theorem X1 (hH : IsReal (val_main_v30 (F := Ideal) (m ((c : Thread nD τ).loc main_arg0)) (m ((c : Thread nD τ).loc main_arg1)) (m ((c : Thread nD τ).loc main_arg3)) (m ((c : Thread nD τ).loc main_arg4)) (m ((c : Thread nD τ).loc main_arg5)))) : V4 m ρ c main_v39 = (val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W4_arr m ρ c 5).trans ((KV1.arr1_5 (V3 m ρ) c).trans ?_)
  rw [KS1.V3_v26_0, H1, KS1.V3_v30, S1, KHost.kmu_tile, KS1.V3_v36, S1, Q1, KHost.kvar_tile, KS1.V3_v37, V2_arg6, KHost.krow_eq_v44,
    KS1.V3_v38, V2_arg7, KHost.krow_eq_v53]
  exact (Cert.ReferenceIdeal.RefLayer1.ref_x1 _ _ _ _ _ _ _ hH).symm

/-! ## Layer 2 -/

/-- The neighbour sum of layer 2, as the third region finds it. -/
theorem A2 (hH : IsReal (val_main_v30 (F := Ideal) (m ((c : Thread nD τ).loc main_arg0)) (m ((c : Thread nD τ).loc main_arg1)) (m ((c : Thread nD τ).loc main_arg3)) (m ((c : Thread nD τ).loc main_arg4)) (m ((c : Thread nD τ).loc main_arg5)))) : V5 m ρ c main_v50 = val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [KS2.V5_v50, V4_v3, V4_v1, X1 m ρ c hH]
  rfl

theorem X1' (hH : IsReal (val_main_v30 (F := Ideal) (m ((c : Thread nD τ).loc main_arg0)) (m ((c : Thread nD τ).loc main_arg1)) (m ((c : Thread nD τ).loc main_arg3)) (m ((c : Thread nD τ).loc main_arg4)) (m ((c : Thread nD τ).loc main_arg5)))) : V5 m ρ c main_v39 = (val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := (KS2.V5_v39 m ρ c).trans (X1 m ρ c hH)

theorem H2 (hH : IsReal (val_main_v30 (F := Ideal) (m ((c : Thread nD τ).loc main_arg0)) (m ((c : Thread nD τ).loc main_arg1)) (m ((c : Thread nD τ).loc main_arg3)) (m ((c : Thread nD τ).loc main_arg4)) (m ((c : Thread nD τ).loc main_arg5)))) : V6 m ρ c main_v54_0 = (val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W6_arr m ρ c 6).trans ((KV2.arr2_6 (V5 m ρ) c).trans ?_)
  rw [A2 m ρ c hH, X1' m ρ c hH, V5_v12, KS2.V5_v51, V4_arg8, KS2.V5_v52, V4_arg9, KHost.krow_eq_v78, KS2.V5_v53, V4_arg10]
  exact (Cert.ReferenceIdeal.RefLayer2.ref_h2 _ _ _ _ _ _ _ _ _ _).symm

theorem S2 (hH : IsReal (val_main_v30 (F := Ideal) (m ((c : Thread nD τ).loc main_arg0)) (m ((c : Thread nD τ).loc main_arg1)) (m ((c : Thread nD τ).loc main_arg3)) (m ((c : Thread nD τ).loc main_arg4)) (m ((c : Thread nD τ).loc main_arg5)))) : V6 m ρ c main_v54_1 = tileSum (val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W6_arr m ρ c 7).trans ((KV2.arr2_7 (V5 m ρ) c).trans ?_)
  rw [A2 m ρ c hH, X1' m ρ c hH, V5_v12, KS2.V5_v51, V4_arg8, KS2.V5_v52, V4_arg9, KHost.krow_eq_v78, KS2.V5_v53, V4_arg10]
  exact congrArg tileSum (Cert.ReferenceIdeal.RefLayer2.ref_h2 _ _ _ _ _ _ _ _ _ _).symm

theorem Q2 (hH : IsReal (val_main_v30 (F := Ideal) (m ((c : Thread nD τ).loc main_arg0)) (m ((c : Thread nD τ).loc main_arg1)) (m ((c : Thread nD τ).loc main_arg3)) (m ((c : Thread nD τ).loc main_arg4)) (m ((c : Thread nD τ).loc main_arg5)))) : V6 m ρ c main_v54_2 = tileSumSq (val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W6_arr m ρ c 8).trans ((KV2.arr2_8 (V5 m ρ) c).trans ?_)
  rw [A2 m ρ c hH, X1' m ρ c hH, V5_v12, KS2.V5_v51, V4_arg8, KS2.V5_v52, V4_arg9, KHost.krow_eq_v78, KS2.V5_v53, V4_arg10]
  exact congrArg tileSumSq (Cert.ReferenceIdeal.RefLayer2.ref_h2 _ _ _ _ _ _ _ _ _ _).symm

/-- The first layer's output, as the last region finds it (the third region only reads it). -/
theorem X1'' (hH : IsReal (val_main_v30 (F := Ideal) (m ((c : Thread nD τ).loc main_arg0)) (m ((c : Thread nD τ).loc main_arg1)) (m ((c : Thread nD τ).loc main_arg3)) (m ((c : Thread nD τ).loc main_arg4)) (m ((c : Thread nD τ).loc main_arg5)))) : V7 m ρ c main_v39 = (val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :=
  (KS3.V7_v39 m ρ c).trans (((W6_arr m ρ c 1).trans (((dat2 (V5 m ρ) c).arrAt_in 1 rfl _).trans (A_eq2 (V5 m ρ) c 1))).trans (X1' m ρ c hH))

/-! ## The pooling -/

/-- The last region's array of per-tile pooled sums. -/
theorem P (hH : IsReal (val_main_v30 (F := Ideal) (m ((c : Thread nD τ).loc main_arg0)) (m ((c : Thread nD τ).loc main_arg1)) (m ((c : Thread nD τ).loc main_arg3)) (m ((c : Thread nD τ).loc main_arg4)) (m ((c : Thread nD τ).loc main_arg5)))) : V8 m ρ c main_v68
    = pool (val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (muRow (val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))) (varRow (val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))) (val_main_v97 (F := Ideal) (m ((c : Thread nD τ).loc main_arg11))) (val_main_v106 (F := Ideal) (m ((c : Thread nD τ).loc main_arg12))) (val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)))
        (shapeCast S100000x1 (m ((c : Thread nD τ).loc main_arg2)) shapeCasts_S100000_S100000x1) := by
  refine (W8_arr m ρ c 7).trans ((KV3.arr3_7 (V7 m ρ) c).trans ?_)
  rw [KS3.V7_v54_0, H2 m ρ c hH, KS3.V7_v58, S2 m ρ c hH, KHost.kmu_tile, KS3.V7_v64, S2 m ρ c hH, Q2 m ρ c hH, KHost.kvar_tile,
    KS3.V7_v66, V6_arg11, KHost.krow_eq_v97, KS3.V7_v67, V6_arg12, KHost.krow_eq_v106, X1'' m ρ c hH, KS3.V7_v65, V6_arg2]

/-- THE RESULT: the kernel program's result buffer holds the reference's last stage of the same arguments. -/
theorem result (h0 : IsReal (m ((c : Thread nD τ).loc main_arg0))) (h3 : IsReal (m ((c : Thread nD τ).loc main_arg3))) (h4 : IsReal (m ((c : Thread nD τ).loc main_arg4))) (h5 : IsReal (m ((c : Thread nD τ).loc main_arg5))) (h6 : IsReal (m ((c : Thread nD τ).loc main_arg6))) (h7 : IsReal (m ((c : Thread nD τ).loc main_arg7)))
    (h8 : IsReal (m ((c : Thread nD τ).loc main_arg8))) (h9 : IsReal (m ((c : Thread nD τ).loc main_arg9))) (h10 : IsReal (m ((c : Thread nD τ).loc main_arg10))) :
    W9 m ρ c (Proc.devRef .tc main_v78) = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have hH1 : IsReal (val_main_v30 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := Cert.ReferenceIdeal.RefLayer1.ref_h1_real _ _ _ _ _ h0 h3 h4 h5
  have hX1 : IsReal (val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := Cert.ReferenceIdeal.RefLayer1.ref_x1_real _ _ _ _ _ _ _ h0 h3 h4 h5 h6 h7
  have hH2 : IsReal (val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := Cert.ReferenceIdeal.RefLayer2.ref_h2_real _ _ _ _ _ _ _ _ _ _ hX1 h8 h9 h10
  rw [KS4.W9_v78, P m ρ c hH1, V8_arg2]
  funext i
  obtain ⟨gr, d, rfl⟩ : ∃ (gr d : Fin 128), i = ix2 gr d := ⟨i 0, i 1, eq_ix2 i⟩
  have e1 : (fun j => (val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) j + bnrelu (val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (muRow (val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))) (varRow (val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))) (val_main_v97 (F := Ideal) (m ((c : Thread nD τ).loc main_arg11))) (val_main_v106 (F := Ideal) (m ((c : Thread nD τ).loc main_arg12))) j)
      = val_main_v110 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
    rw [← Cert.ReferenceIdeal.RefLayer2.ref_x2 _ _ _ _ _ _ _ _ _ _ _ _ hH2]
    rfl
  have e2 : (fun n : Fin 100000 => (shapeCast S100000x1 (m ((c : Thread nD τ).loc main_arg2)) shapeCasts_S100000_S100000x1) (ix2 n 0)) = fun n => (m ((c : Thread nD τ).loc main_arg2)) (ix1 n) :=
    funext fun n => KHost.kbatch_apply _ n
  rw [KHostFinal.kfinal_apply_ref, Cert.ReferenceIdeal.RefFinal.ref_final, sum_pool, e1, e2]

end Cert.KernelIdeal.KChain

end
-- ==== Proof.PreReal.lean ====
/-
  The precondition read: when the finiteness predicate is all ones, every float argument array has real entries
  (each entry's absolute value is below +infinity, so the entry is neither infinity).
-/
import proofs.«414989_j78658031059101_2_alg».proof.Proof.Gen.Pre_finite_inputs
import proofs.«414989_j78658031059101_2_alg».proof.Proof.LibRealValued
import Idealize.ShloMosaic.Lib.ReduceAll
import Idealize.ShloMosaic.PureOps.Ideal.Laws

noncomputable section

namespace Cert.PreReal

open Idealize.ShloMosaic Cert.Pre_finite_inputs RealValued

/-- The scalar shape has exactly one index. -/
instance subsingleton_scalarIdx : Subsingleton S_.Idx := ⟨fun a b => funext fun d => d.elim0⟩

/-- The f32 pattern `0x7F800000` (sign 0, exponent all ones, fraction 0) denotes `+∞`. -/
theorem ofBits_inf_f32 : Ideal.ofBits .f32 0x7F800000#32 = ⊤ := by
  simp [Ideal.ofBits, Ideal.ieee]

/-- One entry: the comparison `|a| < +∞` coming out 1 says `max a (-a) < ⊤`. -/
theorem abs_lt_top_of_cmp {a : EReal} (h : Ideal.cmp .olt (max a (-a)) (Ideal.ofBits .f32 0x7F800000#32) = 1#1) :
    max a (-a) < ⊤ := by
  rw [ofBits_inf_f32] at h
  by_contra hn
  simp only [Ideal.cmp, hn, decide_false] at h
  exact absurd h (by decide)

/-- One `jnp.all(|x| < +∞)`: the conjunction over every entry of the comparison of `|x|` against a broadcast `+∞`
    being 1 at the scalar index says every entry of `x` is a real number. -/
theorem isReal_of_all_abs_lt {s : Shape} (x : FVec Ideal s .f32) (hb : S_.BroadcastsInDim s (![] : Fin 0 → Fin s.rank))
    {axes : List (Fin s.rank)} (hr : s.ReducesTo axes S_) (hu : 0 < S_.numel)
    (e : Host.reduce IntOp.andi
        (cmpf (F := Ideal) .olt (Host.absf x) (broadcastInDim s ![] hb (constant S_ .f32 0x7F800000#32)))
        (constantI S_ 1 1#1) hr hu ValueIdx.ix0 = 1#1) :
    IsReal x := by
  refine isReal_of_abs_lt_top fun i => ?_
  have hi := Host.reduce_andi_all _ _ hr hu ValueIdx.ix0 e i
  exact abs_lt_top_of_cmp hi

theorem real_of_pre (x0 : FVec Ideal S100000x8 .f32) (x1 : IVec S2x1600000 32) (x2 : IVec S100000 32) (x3 : FVec Ideal S128x8 .f32)
    (x4 : FVec Ideal S128 .f32) (x5 : FVec Ideal S128x8 .f32) (x6 x7 : FVec Ideal S128 .f32) (x8 : FVec Ideal S128x128 .f32)
    (x9 : FVec Ideal S128 .f32) (x10 : FVec Ideal S128x128 .f32) (x11 x12 : FVec Ideal S128 .f32)
    (h : Cert.Pre_finite_inputs.fn (F := Ideal) x0 x1 x2 x3 x4 x5 x6 x7 x8 x9 x10 x11 x12 = (fun _ => 1#1)) :
    IsReal x0 ∧ IsReal x3 ∧ IsReal x4 ∧ IsReal x5 ∧ IsReal x6 ∧ IsReal x7 ∧ IsReal x8 ∧ IsReal x9 ∧ IsReal x10 ∧ IsReal x11 ∧ IsReal x12 := by
  have h0 := congrFun h ValueIdx.ix0
  dsimp only [fn, fn_part1, fn_part2, fn_part3, andi] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨isReal_of_all_abs_lt x0 _ _ _ e0, isReal_of_all_abs_lt x3 _ _ _ e3, isReal_of_all_abs_lt x4 _ _ _ e4,
    isReal_of_all_abs_lt x5 _ _ _ e5, isReal_of_all_abs_lt x6 _ _ _ e6, isReal_of_all_abs_lt x7 _ _ _ e7,
    isReal_of_all_abs_lt x8 _ _ _ e8, isReal_of_all_abs_lt x9 _ _ _ e9, isReal_of_all_abs_lt x10 _ _ _ e10,
    isReal_of_all_abs_lt x11 _ _ _ e11, isReal_of_all_abs_lt x12 _ _ _ e12⟩

end Cert.PreReal

end
-- ==== Proof.lean ====
/-
  The certificate's five claims.

  The three frames: the two kernel programs by their generated frame certificates, the reference by its generated run with
  the result dropped. The idealization rewrote no operation, so it preserves the program trivially.

  The algebraic claim. Both programs compute a two-layer graph encoder: per layer, the neighbour sum scaled by the
  reciprocal clamped degree goes through one weight matrix, the node features through another, a bias is added, the
  columns are normalised by their mean and variance, a positive part is taken; the two layer outputs are added and
  averaged per graph. The kernel program cuts the 100000 nodes into 25 tiles: it multiplies by the reciprocal degree
  where the reference divides by the degree (one law of the extended reals, the degree being at least one), forms the
  column mean and variance from per-tile sums and sums of squares as "mean of squares minus squared mean, not below zero"
  where the reference takes the mean of squared deviations (equal on real entries, which the finiteness precondition
  gives through every stage), and pools by a one-hot product per tile where the reference adds rows by graph number
  (the same sum regrouped). Its result buffer therefore holds the reference's last stage of the same arguments.
-/
import proofs.«414989_j78658031059101_2_alg».proof.Defs
import proofs.«414989_j78658031059101_2_alg».proof.Proof.Gen.Kernel
import proofs.«414989_j78658031059101_2_alg».proof.Proof.Gen.Kernel.Skeleton
import proofs.«414989_j78658031059101_2_alg».proof.Proof.Gen.Kernel.Launch
import proofs.«414989_j78658031059101_2_alg».proof.Proof.Gen.Kernel.Points
import proofs.«414989_j78658031059101_2_alg».proof.Proof.Gen.Kernel.Frame
import proofs.«414989_j78658031059101_2_alg».proof.Proof.Gen.KernelIdeal
import proofs.«414989_j78658031059101_2_alg».proof.Proof.Gen.KernelIdeal.Skeleton
import proofs.«414989_j78658031059101_2_alg».proof.Proof.Gen.KernelIdeal.Launch
import proofs.«414989_j78658031059101_2_alg».proof.Proof.Gen.KernelIdeal.Points
import proofs.«414989_j78658031059101_2_alg».proof.Proof.Gen.KernelIdeal.Frame
import proofs.«414989_j78658031059101_2_alg».proof.Proof.Gen.ReferenceIdeal
import proofs.«414989_j78658031059101_2_alg».proof.Proof.Gen.Pre_finite_inputs
import proofs.«414989_j78658031059101_2_alg».proof.Proof.Gen.ReferenceIdeal.Run
import proofs.«414989_j78658031059101_2_alg».proof.Proof.Gen.ReferenceIdeal.Read
import proofs.«414989_j78658031059101_2_alg».proof.Proof.KRun
import proofs.«414989_j78658031059101_2_alg».proof.Proof.KChain
import proofs.«414989_j78658031059101_2_alg».proof.Proof.PreReal
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the (agreeing) argument arrays in their result buffers. -/
theorem algebraic : Cert.algebraic_KernelIdeal_ReferenceIdeal := by
  intro m ρ m' ρ' hpre hagree
  refine ⟨fun c => Cert.ReferenceIdeal.Read.val_main_v122 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ⟨(h c).1.trans ?_, (h c).2⟩)
      (Cert.KernelIdeal.KRun.run_result (F := Ideal) m ρ)
    obtain ⟨h0, h3, h4, h5, h6, h7, h8, h9, h10, -, -⟩ := Cert.PreReal.real_of_pre _ _ _ _ _ _ _ _ _ _ _ _ _ (hpre c)
    exact Cert.KernelIdeal.KChain.result m ρ c h0 h3 h4 h5 h6 h7 h8 h9 h10
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v122_eq, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
